-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v0_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v0_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x100000 : Shape := ⟨3, ![8, 64, 100000]⟩
abbrev S8x3x100000 : Shape := ⟨3, ![8, 3, 100000]⟩
abbrev S_ : Shape := ⟨0, ![]⟩

class Facts : Prop where
  bcast_S_S8x64x100000 : S_.BroadcastsInDim S8x64x100000 (![] : Fin 0 → Fin S8x64x100000.rank)
  reducesTo_S8x64x100000_S_d0_1_2 : S8x64x100000.ReducesTo [0, 1, 2] S_
  h_S_ : 0 < S_.numel
  bcast_S_S8x3x100000 : S_.BroadcastsInDim S8x3x100000 (![] : Fin 0 → Fin S8x3x100000.rank)
  reducesTo_S8x3x100000_S_d0_1_2 : S8x3x100000.ReducesTo [0, 1, 2] S_

variable [Facts]

def fn {F : FTy → Type} [FloatOps F] (main_arg0 : FVec F S8x64x100000 .f32) (main_arg1 : FVec F S8x3x100000 .f32) : IVec S_ 1 :=
  let main_v0 : FVec F S8x64x100000 .f32 := Host.absf main_arg0
  let main_cst : FVec F S_ .f32 := constant S_ .f32 0x7F800000#32
  let main_v1 : FVec F S8x64x100000 .f32 := broadcastInDim S8x64x100000 ![] bcast_S_S8x64x100000 main_cst
  let main_v2 : IVec S8x64x100000 1 := cmpf .olt main_v0 main_v1
  let main_c : IVec S_ 1 := constantI S_ 1 1#1
  let main_v3 : IVec S_ 1 := (fun x v => Host.reduce IntOp.andi x v reducesTo_S8x64x100000_S_d0_1_2 h_S_) main_v2 main_c
  let main_v4 : FVec F S8x3x100000 .f32 := Host.absf main_arg1
  let main_cst_0 : FVec F S_ .f32 := constant S_ .f32 0x7F800000#32
  let main_v5 : FVec F S8x3x100000 .f32 := broadcastInDim S8x3x100000 ![] bcast_S_S8x3x100000 main_cst_0
  let main_v6 : IVec S8x3x100000 1 := cmpf .olt main_v4 main_v5
  let main_c_1 : IVec S_ 1 := constantI S_ 1 1#1
  let main_v7 : IVec S_ 1 := (fun x v => Host.reduce IntOp.andi x v reducesTo_S8x3x100000_S_d0_1_2 h_S_) main_v6 main_c_1
  let main_v8 : IVec S_ 1 := andi main_v3 main_v7
  main_v8
-- ==== Kernel.lean ====
abbrev S8x64x100000 : Shape := ⟨3, ![8, 64, 100000]⟩
abbrev S8x3x100000 : Shape := ⟨3, ![8, 3, 100000]⟩
abbrev S8x1x100000 : Shape := ⟨3, ![8, 1, 100000]⟩
abbrev S1x3x100000 : Shape := ⟨3, ![1, 3, 100000]⟩
abbrev S1x1x100000 : Shape := ⟨3, ![1, 1, 100000]⟩
abbrev S3x100000 : Shape := ⟨2, ![3, 100000]⟩
abbrev S3 : Shape := ⟨1, ![3]⟩
abbrev S3x1 : Shape := ⟨2, ![3, 1]⟩
abbrev S100000 : Shape := ⟨1, ![100000]⟩
abbrev S1x100000 : Shape := ⟨2, ![1, 100000]⟩
abbrev S1 : Shape := ⟨1, ![1]⟩
abbrev S1x1 : Shape := ⟨2, ![1, 1]⟩
abbrev S_ : Shape := ⟨0, ![]⟩
abbrev S8x64x100352 : Shape := ⟨3, ![8, 64, 100352]⟩
abbrev S8x1x100352 : Shape := ⟨3, ![8, 1, 100352]⟩
abbrev S8x64x32768 : Shape := ⟨3, ![8, 64, 32768]⟩
abbrev S1x64x1024 : Shape := ⟨3, ![1, 64, 1024]⟩
abbrev S1x1x1024 : Shape := ⟨3, ![1, 1, 1024]⟩
abbrev S1x64x4096 : Shape := ⟨3, ![1, 64, 4096]⟩
abbrev S64x4096 : Shape := ⟨2, ![64, 4096]⟩
abbrev S1x4096 : Shape := ⟨2, ![1, 4096]⟩
abbrev S4096x1 : Shape := ⟨2, ![4096, 1]⟩
abbrev S1x1024 : Shape := ⟨2, ![1, 1024]⟩
abbrev S4096x1024 : Shape := ⟨2, ![4096, 1024]⟩
abbrev S64x1024 : Shape := ⟨2, ![64, 1024]⟩
abbrev S8x64x32x32x32 : Shape := ⟨5, ![8, 64, 32, 32, 32]⟩

abbrev nBuf : Space → Nat
  | .hbm => 13
  | .vmem => 14
  | .smem => 0
  | _ => 0

abbrev bufTy : (tb : Table) → Fin (tcTables nBuf tb) → BufTy
  | .hbm, ⟨0, _⟩ => ⟨S8x64x100000, .f32⟩
  | .hbm, ⟨1, _⟩ => ⟨S8x3x100000, .f32⟩
  | .hbm, ⟨2, _⟩ => ⟨S8x3x100000, .f32⟩
  | .hbm, ⟨3, _⟩ => ⟨S8x1x100000, .i32⟩
  | .hbm, ⟨4, _⟩ => ⟨S8x64x100000, .bf16⟩
  | .hbm, ⟨5, _⟩ => ⟨S_, .i32⟩
  | .hbm, ⟨6, _⟩ => ⟨S_, .bf16⟩
  | .hbm, ⟨7, _⟩ => ⟨S8x64x100352, .bf16⟩
  | .hbm, ⟨8, _⟩ => ⟨S_, .i32⟩
  | .hbm, ⟨9, _⟩ => ⟨S_, .i32⟩
  | .hbm, ⟨10, _⟩ => ⟨S8x1x100352, .i32⟩
  | .hbm, ⟨11, _⟩ => ⟨S8x64x32768, .f32⟩
  | .hbm, ⟨12, _⟩ => ⟨S8x64x32x32x32, .f32⟩
  | .local _ .vmem, ⟨0, _⟩ => ⟨S1x3x100000, .f32⟩
  | .local _ .vmem, ⟨1, _⟩ => ⟨S1x3x100000, .f32⟩
  | .local _ .vmem, ⟨2, _⟩ => ⟨S1x3x100000, .f32⟩
  | .local _ .vmem, ⟨3, _⟩ => ⟨S1x3x100000, .f32⟩
  | .local _ .vmem, ⟨4, _⟩ => ⟨S1x1x100000, .i32⟩
  | .local _ .vmem, ⟨5, _⟩ => ⟨S1x1x100000, .i32⟩
  | .local _ .vmem, ⟨6, _⟩ => ⟨S1x64x1024, .bf16⟩
  | .local _ .vmem, ⟨7, _⟩ => ⟨S1x64x1024, .bf16⟩
  | .local _ .vmem, ⟨8, _⟩ => ⟨S1x1x1024, .i32⟩
  | .local _ .vmem, ⟨9, _⟩ => ⟨S1x1x1024, .i32⟩
  | .local _ .vmem, ⟨10, _⟩ => ⟨S1x64x4096, .f32⟩
  | .local _ .vmem, ⟨11, _⟩ => ⟨S1x64x4096, .f32⟩
  | .local _ .vmem, ⟨12, _⟩ => ⟨S64x4096, .f32⟩
  | .local _ .vmem, ⟨13, _⟩ => ⟨S1x4096, .f32⟩
  | _, _ => ⟨S8x64x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_c_0 : Ref sig .tc := ⟨.hbm, 8, rfl⟩
abbrev main_call1_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_scratch0 : Ref sig .tc := ⟨.vmem, 12, rfl⟩
abbrev cc1_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x100000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x100000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x100000 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![8, 8, 98], ![false, false, false]⟩

def k1_cond2 (i : grid1.Coords) : BitVec 1 :=
  let arg2 : BitVec 32 := BitVec.ofNat 32 (i 2).val
  let c97_i32 : BitVec 32 := 97#32
  let v30 : BitVec 1 := Scalar.cmpi .eq arg2 c97_i32
  let v31 : BitVec 32 := Scalar.extui v30
  let c0_i32_16 : BitVec 32 := 0#32
  let v32 : BitVec 1 := Scalar.cmpi .ne v31 c0_i32_16
  v32

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage1_0 : Fin 2 → Memref sig .tc .vmem S1x64x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1x1x1024 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x64x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

class Facts₀ : Prop where
  inb_S1x3x100000_S1x3x100000_0_0_0 : ∀ a, (![0, 0, 0] : Fin 3 → Nat) a + S1x3x100000.size a ≤ S1x3x100000.size a
  h_S1x3x100000 : 0 < S1x3x100000.numel
  shapeCasts_S1x3x100000_S3x100000 : S1x3x100000.ShapeCasts S3x100000
  reduces_S3x100000_S3 : S3x100000.Reduces [1] S3
  shapeCasts_S3_S3x1 : S3.ShapeCasts S3x1
  broadcasts_S3x1_S3x100000 : S3x1.Broadcasts S3x100000
  reduces_S3x100000_S100000 : S3x100000.Reduces [0] S100000
  shapeCasts_S100000_S1x100000 : S100000.ShapeCasts S1x100000
  reduces_S1x100000_S1 : S1x100000.Reduces [1] S1
  shapeCasts_S1_S1x1 : S1.ShapeCasts S1x1
  broadcasts_S1x1_S3x100000 : S1x1.Broadcasts S3x100000
  shapeCasts_S3x100000_S1x3x100000 : S3x100000.ShapeCasts S1x3x100000
  slices_S3x100000_o0_0_S1x100000 : S3x100000.Slices ![0, 0] S1x100000
  slices_S3x100000_o1_0_S1x100000 : S3x100000.Slices ![1, 0] S1x100000
  slices_S3x100000_o2_0_S1x100000 : S3x100000.Slices ![2, 0] S1x100000
  inb_S1x1x100000_S1x1x100000_0_0_0 : ∀ a, (![0, 0, 0] : Fin 3 → Nat) a + S1x1x100000.size a ≤ S1x1x100000.size a
  h_S1x1x100000 : 0 < S1x1x100000.numel
  shapeCasts_S1x1x100000_S1x100000 : S1x1x100000.ShapeCasts S1x100000
  shapeCasts_S1x100000_S1x1x100000 : S1x100000.ShapeCasts S1x1x100000
  bitsLt_bf16_f32 : FTy.bits .bf16 < FTy.bits .f32
  pads_S8x64x100000_S8x64x100352_000_000_03520 : S8x64x100000.Pads (![0, 0, 0] : Fin 3 → Nat) ![0, 0, 352] ![0, 0, 0] S8x64x100352
  h_S_ : 0 < S_.numel
  pads_S8x1x100000_S8x1x100352_000_000_03520 : S8x1x100000.Pads (![0, 0, 0] : Fin 3 → Nat) ![0, 0, 352] ![0, 0, 0] S8x1x100352
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  iota_S4096x1_d0_w32 : S4096x1.Iotas .tc 32 [0]
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S4096x1_S4096x1024 : S4096x1.Broadcasts S4096x1024
  broadcasts_S1x1024_S4096x1024 : S1x1024.Broadcasts S4096x1024
  natLt_1_32 : 1 < 32
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  broadcasts_S1x4096_S64x4096 : S1x4096.Broadcasts S64x4096
  inb_S1x64x4096_S1x64x4096_0_0_0 : ∀ a, (![0, 0, 0] : Fin 3 → Nat) a + S1x64x4096.size a ≤ S1x64x4096.size a
  h_S1x64x4096 : 0 < S1x64x4096.numel
  shapeCasts_S1x64x4096_S64x4096 : S1x64x4096.ShapeCasts S64x4096
  shapeCasts_S64x4096_S1x64x4096 : S64x4096.ShapeCasts S1x64x4096
  shapeCasts_S8x64x32768_S8x64x32x32x32 : S8x64x32768.ShapeCasts S8x64x32x32x32
  dot_S64x1024_S4096x1024_S64x4096_1_1_0_0_n_n_wf : DotDims.WF S64x1024 S4096x1024 S64x4096 [1] [1] [0] [0] [] []
  dot_S1x1024_S4096x1024_S1x4096_1_1_0_0_n_n_wf : DotDims.WF S1x1024 S4096x1024 S1x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x100000.size a ≤ S8x3x100000.size a
  hwx0_0 : ∀ i : grid0.Coords, EltTy.bits .f32 = 32 ∨ (Rect.block (s := S8x3x100000) S1x3x100000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x100000.size a ≤ S8x3x100000.size a
  hwx0_1 : ∀ i : grid0.Coords, EltTy.bits .f32 = 32 ∨ (Rect.block (s := S8x3x100000) S1x3x100000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x100000.size a ≤ S8x1x100000.size a
  hwx0_2 : ∀ i : grid0.Coords, EltTy.bits .i32 = 32 ∨ (Rect.block (s := S8x1x100000) S1x1x100000.size (cc0_transform_2 i) (hinb0_2 i)).WholeWords (EltTy.packing .i32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x64x1024.size a ≤ S8x64x100352.size a
  hwx1_0 : ∀ i : grid1.Coords, EltTy.bits .bf16 = 32 ∨ (Rect.block (s := S8x64x100352) S1x64x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x1024.size a ≤ S8x1x100352.size a
  hwx1_1 : ∀ i : grid1.Coords, EltTy.bits .i32 = 32 ∨ (Rect.block (s := S8x1x100352) S1x1x1024.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x64x4096.size a ≤ S8x64x32768.size a
  hwx1_2 : ∀ i : grid1.Coords, EltTy.bits .f32 = 32 ∨ (Rect.block (s := S8x64x32768) S1x64x4096.size (cc1_transform_2 i) (hinb1_2 i)).WholeWords (EltTy.packing .f32)

variable [Facts₀]

def dot_S64x1024_S4096x1024_S64x4096_1_1_0_0_n_n : DotDims S64x1024 S4096x1024 S64x4096 where
  lhsContracting := [1]
  rhsContracting := [1]
  lhsNonContracting := [0]
  rhsNonContracting := [0]
  lhsBatch := []
  rhsBatch := []
  wf := dot_S64x1024_S4096x1024_S64x4096_1_1_0_0_n_n_wf
def dot_S1x1024_S4096x1024_S1x4096_1_1_0_0_n_n : DotDims S1x1024 S4096x1024 S1x4096 where
  lhsContracting := [1]
  rhsContracting := [1]
  lhsNonContracting := [0]
  rhsNonContracting := [0]
  lhsBatch := []
  rhsBatch := []
  wf := dot_S1x1024_S4096x1024_S1x4096_1_1_0_0_n_n_wf

abbrev win0_0 : Pipeline.Window sig grid0 :=
  Pipeline.Window.ofSpec (Memref.whole main_arg1) S1x3x100000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x3x100000.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x1x100000.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v2) S1x64x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1x1x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x64x4096.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S8x64x100000 : Shape := ⟨3, ![8, 64, 100000]⟩
abbrev S8x3x100000 : Shape := ⟨3, ![8, 3, 100000]⟩
abbrev S_ : Shape := ⟨0, ![]⟩
abbrev S8x3 : Shape := ⟨2, ![8, 3]⟩
abbrev S8x3x1 : Shape := ⟨3, ![8, 3, 1]⟩
abbrev S8x100000 : Shape := ⟨2, ![8, 100000]⟩
abbrev S8x1x100000 : Shape := ⟨3, ![8, 1, 100000]⟩
abbrev S8x1 : Shape := ⟨2, ![8, 1]⟩
abbrev S8x1x1 : Shape := ⟨3, ![8, 1, 1]⟩
abbrev S8 : Shape := ⟨1, ![8]⟩
abbrev S800000 : Shape := ⟨1, ![800000]⟩
abbrev S8x100000x64 : Shape := ⟨3, ![8, 100000, 64]⟩
abbrev S800000x64 : Shape := ⟨2, ![800000, 64]⟩
abbrev S262144x64 : Shape := ⟨2, ![262144, 64]⟩
abbrev S800000x1 : Shape := ⟨2, ![800000, 1]⟩
abbrev S262144 : Shape := ⟨1, ![262144]⟩
abbrev S262144x1 : Shape := ⟨2, ![262144, 1]⟩
abbrev S8x32x32x32x64 : Shape := ⟨5, ![8, 32, 32, 32, 64]⟩
abbrev S8x64x32x32x32 : Shape := ⟨5, ![8, 64, 32, 32, 32]⟩

abbrev nBuf : Space → Nat
  | .hbm => 81
  | .vmem => 0
  | .smem => 0
  | _ => 0

abbrev bufTy : (tb : Table) → Fin (tcTables nBuf tb) → BufTy
  | .hbm, ⟨0, _⟩ => ⟨S8x64x100000, .f32⟩
  | .hbm, ⟨1, _⟩ => ⟨S8x3x100000, .f32⟩
  | .hbm, ⟨2, _⟩ => ⟨S_, .f32⟩
  | .hbm, ⟨3, _⟩ => ⟨S8x3, .f32⟩
  | .hbm, ⟨4, _⟩ => ⟨S8x3x1, .f32⟩
  | .hbm, ⟨5, _⟩ => ⟨S_, .f32⟩
  | .hbm, ⟨6, _⟩ => ⟨S8x3x1, .f32⟩
  | .hbm, ⟨7, _⟩ => ⟨S8x3x1, .f32⟩
  | .hbm, ⟨8, _⟩ => ⟨S8x3x100000, .f32⟩
  | .hbm, ⟨9, _⟩ => ⟨S8x3x100000, .f32⟩
  | .hbm, ⟨10, _⟩ => ⟨S8x3x100000, .f32⟩
  | .hbm, ⟨11, _⟩ => ⟨S_, .f32⟩
  | .hbm, ⟨12, _⟩ => ⟨S8x100000, .f32⟩
  | .hbm, ⟨13, _⟩ => ⟨S8x1x100000, .f32⟩
  | .hbm, ⟨14, _⟩ => ⟨S8x1x100000, .f32⟩
  | .hbm, ⟨15, _⟩ => ⟨S_, .f32⟩
  | .hbm, ⟨16, _⟩ => ⟨S8x1, .f32⟩
  | .hbm, ⟨17, _⟩ => ⟨S8x1x1, .f32⟩
  | .hbm, ⟨18, _⟩ => ⟨S_, .f32⟩
  | .hbm, ⟨19, _⟩ => ⟨S8x1x1, .f32⟩
  | .hbm, ⟨20, _⟩ => ⟨S8x1x1, .f32⟩
  | .hbm, ⟨21, _⟩ => ⟨S8x3x100000, .f32⟩
  | .hbm, ⟨22, _⟩ => ⟨S8x3x100000, .f32⟩
  | .hbm, ⟨23, _⟩ => ⟨S_, .f32⟩
  | .hbm, ⟨24, _⟩ => ⟨S8x3x100000, .f32⟩
  | .hbm, ⟨25, _⟩ => ⟨S8x3x100000, .f32⟩
  | .hbm, ⟨26, _⟩ => ⟨S_, .f32⟩
  | .hbm, ⟨27, _⟩ => ⟨S8x3x100000, .f32⟩
  | .hbm, ⟨28, _⟩ => ⟨S8x3x100000, .f32⟩
  | .hbm, ⟨29, _⟩ => ⟨S_, .i32⟩
  | .hbm, ⟨30, _⟩ => ⟨S_, .i32⟩
  | .hbm, ⟨31, _⟩ => ⟨S_, .f32⟩
  | .hbm, ⟨32, _⟩ => ⟨S8x3x100000, .f32⟩
  | .hbm, ⟨33, _⟩ => ⟨S8x3x100000, .f32⟩
  | .hbm, ⟨34, _⟩ => ⟨S_, .f32⟩
  | .hbm, ⟨35, _⟩ => ⟨S8x3x100000, .f32⟩
  | .hbm, ⟨36, _⟩ => ⟨S8x3x100000, .f32⟩
  | .hbm, ⟨37, _⟩ => ⟨S8x3x100000, .f32⟩
  | .hbm, ⟨38, _⟩ => ⟨S8x3x100000, .i32⟩
  | .hbm, ⟨39, _⟩ => ⟨S8x1x100000, .i32⟩
  | .hbm, ⟨40, _⟩ => ⟨S8x100000, .i32⟩
  | .hbm, ⟨41, _⟩ => ⟨S_, .i32⟩
  | .hbm, ⟨42, _⟩ => ⟨S8x100000, .i32⟩
  | .hbm, ⟨43, _⟩ => ⟨S8x100000, .i32⟩
  | .hbm, ⟨44, _⟩ => ⟨S8x1x100000, .i32⟩
  | .hbm, ⟨45, _⟩ => ⟨S8x100000, .i32⟩
  | .hbm, ⟨46, _⟩ => ⟨S8x100000, .i32⟩
  | .hbm, ⟨47, _⟩ => ⟨S_, .i32⟩
  | .hbm, ⟨48, _⟩ => ⟨S8x100000, .i32⟩
  | .hbm, ⟨49, _⟩ => ⟨S8x100000, .i32⟩
  | .hbm, ⟨50, _⟩ => ⟨S8x1x100000, .i32⟩
  | .hbm, ⟨51, _⟩ => ⟨S8x100000, .i32⟩
  | .hbm, ⟨52, _⟩ => ⟨S8x100000, .i32⟩
  | .hbm, ⟨53, _⟩ => ⟨S8, .i32⟩
  | .hbm, ⟨54, _⟩ => ⟨S8x1, .i32⟩
  | .hbm, ⟨55, _⟩ => ⟨S_, .i32⟩
  | .hbm, ⟨56, _⟩ => ⟨S8x1, .i32⟩
  | .hbm, ⟨57, _⟩ => ⟨S8x1, .i32⟩
  | .hbm, ⟨58, _⟩ => ⟨S8x100000, .i32⟩
  | .hbm, ⟨59, _⟩ => ⟨S8x100000, .i32⟩
  | .hbm, ⟨60, _⟩ => ⟨S800000, .i32⟩
  | .hbm, ⟨61, _⟩ => ⟨S8x100000x64, .f32⟩
  | .hbm, ⟨62, _⟩ => ⟨S800000x64, .f32⟩
  | .hbm, ⟨63, _⟩ => ⟨S_, .f32⟩
  | .hbm, ⟨64, _⟩ => ⟨S262144x64, .f32⟩
  | .hbm, ⟨65, _⟩ => ⟨S800000x1, .i32⟩
  | .hbm, ⟨66, _⟩ => ⟨S262144x64, .f32⟩
  | .hbm, ⟨67, _⟩ => ⟨S_, .f32⟩
  | .hbm, ⟨68, _⟩ => ⟨S800000, .f32⟩
  | .hbm, ⟨69, _⟩ => ⟨S_, .f32⟩
  | .hbm, ⟨70, _⟩ => ⟨S262144, .f32⟩
  | .hbm, ⟨71, _⟩ => ⟨S800000x1, .i32⟩
  | .hbm, ⟨72, _⟩ => ⟨S262144, .f32⟩
  | .hbm, ⟨73, _⟩ => ⟨S_, .f32⟩
  | .hbm, ⟨74, _⟩ => ⟨S262144, .f32⟩
  | .hbm, ⟨75, _⟩ => ⟨S262144, .f32⟩
  | .hbm, ⟨76, _⟩ => ⟨S262144x1, .f32⟩
  | .hbm, ⟨77, _⟩ => ⟨S262144x64, .f32⟩
  | .hbm, ⟨78, _⟩ => ⟨S262144x64, .f32⟩
  | .hbm, ⟨79, _⟩ => ⟨S8x32x32x32x64, .f32⟩
  | .hbm, ⟨80, _⟩ => ⟨S8x64x32x32x32, .f32⟩
  | _, _ => ⟨S8x64x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_v0 : Ref sig .tc := ⟨.hbm, 10, rfl⟩
abbrev main_call0_cst : Ref sig .tc := ⟨.hbm, 11, rfl⟩
abbrev main_call0_v1 : Ref sig .tc := ⟨.hbm, 12, rfl⟩
abbrev main_call0_v2 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_c_5 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_6 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_7 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c_8 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_9 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_10 : Ref sig .tc := ⟨.hbm, 67, rfl⟩
abbrev main_v44 : Ref sig .tc := ⟨.hbm, 68, rfl⟩
abbrev main_cst_11 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_12 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩

abbrev nD : Nat := 1
abbrev τ : Topo := Topo.v7x

variable {F : FTy → Type} [FloatOps F]

class Facts₀ : Prop where
  reducesTo_S8x3x100000_S8x3_d2 : S8x3x100000.ReducesTo [2] S8x3
  h_S_ : 0 < S_.numel
  bcast_S8x3_S8x3x1_0_1 : S8x3.BroadcastsInDim S8x3x1 (![0, 1] : Fin 2 → Fin S8x3x1.rank)
  bcast_S_S8x3x1 : S_.BroadcastsInDim S8x3x1 (![] : Fin 0 → Fin S8x3x1.rank)
  bcast_S8x3x1_S8x3x100000_0_1_2 : S8x3x1.BroadcastsInDim S8x3x100000 (![0, 1, 2] : Fin 3 → Fin S8x3x100000.rank)
  reducesTo_S8x3x100000_S8x100000_d1 : S8x3x100000.ReducesTo [1] S8x100000
  bcast_S8x100000_S8x1x100000_0_2 : S8x100000.BroadcastsInDim S8x1x100000 (![0, 2] : Fin 2 → Fin S8x1x100000.rank)
  reducesTo_S8x1x100000_S8x1_d2 : S8x1x100000.ReducesTo [2] S8x1
  bcast_S8x1_S8x1x1_0_1 : S8x1.BroadcastsInDim S8x1x1 (![0, 1] : Fin 2 → Fin S8x1x1.rank)
  bcast_S_S8x1x1 : S_.BroadcastsInDim S8x1x1 (![] : Fin 0 → Fin S8x1x1.rank)
  bcast_S8x1x1_S8x3x100000_0_1_2 : S8x1x1.BroadcastsInDim S8x3x100000 (![0, 1, 2] : Fin 3 → Fin S8x3x100000.rank)
  bcast_S_S8x3x100000 : S_.BroadcastsInDim S8x3x100000 (![] : Fin 0 → Fin S8x3x100000.rank)
  slices_S8x3x100000_S8x1x100000_0_0_0 : S8x3x100000.Slices ![0, 0, 0] S8x1x100000
  shapeCasts_S8x1x100000_S8x100000 : S8x1x100000.ShapeCasts S8x100000
  bcast_S_S8x100000 : S_.BroadcastsInDim S8x100000 (![] : Fin 0 → Fin S8x100000.rank)
  slices_S8x3x100000_S8x1x100000_0_1_0 : S8x3x100000.Slices ![0, 1, 0] S8x1x100000
  slices_S8x3x100000_S8x1x100000_0_2_0 : S8x3x100000.Slices ![0, 2, 0] S8x1x100000
  bcast_S8_S8x1_0 : S8.BroadcastsInDim S8x1 (![0] : Fin 1 → Fin S8x1.rank)
  bcast_S_S8x1 : S_.BroadcastsInDim S8x1 (![] : Fin 0 → Fin S8x1.rank)
  bcast_S8x1_S8x100000_0_1 : S8x1.BroadcastsInDim S8x100000 (![0, 1] : Fin 2 → Fin S8x100000.rank)
  shapeCasts_S8x100000_S800000 : S8x100000.ShapeCasts S800000
  transposes_S8x64x100000_S8x100000x64_0_2_1 : S8x64x100000.Transposes [0, 2, 1] S8x100000x64
  shapeCasts_S8x100000x64_S800000x64 : S8x100000x64.ShapeCasts S800000x64
  bcast_S_S262144x64 : S_.BroadcastsInDim S262144x64 (![] : Fin 0 → Fin S262144x64.rank)
  bcast_S800000_S800000x1_0 : S800000.BroadcastsInDim S800000x1 (![0] : Fin 1 → Fin S800000x1.rank)
  bcast_S_S800000 : S_.BroadcastsInDim S800000 (![] : Fin 0 → Fin S800000.rank)
  bcast_S_S262144 : S_.BroadcastsInDim S262144 (![] : Fin 0 → Fin S262144.rank)
  bcast_S262144_S262144x1_0 : S262144.BroadcastsInDim S262144x1 (![0] : Fin 1 → Fin S262144x1.rank)
  bcast_S262144x1_S262144x64_0_1 : S262144x1.BroadcastsInDim S262144x64 (![0, 1] : Fin 2 → Fin S262144x64.rank)
  shapeCasts_S262144x64_S8x32x32x32x64 : S262144x64.ShapeCasts S8x32x32x32x64
  transposes_S8x32x32x32x64_S8x64x32x32x32_0_4_1_2_3 : S8x32x32x32x64.Transposes [0, 4, 1, 2, 3] S8x64x32x32x32
  scatter_S262144x64_S800000x1_S800000x64_1_0_0_1_wf : ScatterDims.WF S262144x64 S800000x1 S800000x64 [1] [0] [0] 1
  scatter_S262144_S800000x1_S800000_n_0_0_1_wf : ScatterDims.WF S262144 S800000x1 S800000 [] [0] [0] 1

variable [Facts₀]

def scatter_S262144x64_S800000x1_S800000x64_1_0_0_1 : ScatterDims S262144x64 S800000x1 S800000x64 where
  updateWindowDims := [1]
  insertedWindowDims := [0]
  scatterDimsToOperandDims := [0]
  indexVectorDim := 1
  wf := scatter_S262144x64_S800000x1_S800000x64_1_0_0_1_wf
def scatter_S262144_S800000x1_S800000_n_0_0_1 : ScatterDims S262144 S800000x1 S800000 where
  updateWindowDims := []
  insertedWindowDims := [0]
  scatterDimsToOperandDims := [0]
  indexVectorDim := 1
  wf := scatter_S262144_S800000x1_S800000_n_0_0_1_wf

class Facts : Prop extends Facts₀ where

variable [Facts]
-- ==== Proof.FrAK.lean ====
/- The coordinate kernel's region (the first pallas_call): one grid point per batch; the point's
   block of the coordinates is loaded whole, the normalized coordinates and the flat voxel index are
   each stored whole. What the two output buffers hold after the body, the region's proof data and
   its body obligation, at any contents `V` of the core's buffers when the region is entered. -/
import proofs.«136429_j63960652972185_1_alg».proof.Proof.Gen.Kernel.Launch
import proofs.«136429_j63960652972185_1_alg».proof.Proof.Gen.Kernel.Skeleton
import proofs.«136429_j63960652972185_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangles the body loads and stores through. -/
abbrev rA3 : Rect S1x3x100000 := Rect.unit (s := S1x3x100000) ![0, 0, 0] S1x3x100000.size inb_S1x3x100000_S1x3x100000_0_0_0
abbrev rA1 : Rect S1x1x100000 := Rect.unit (s := S1x1x100000) ![0, 0, 0] S1x1x100000.size inb_S1x1x100000_S1x1x100000_0_0_0

/-- The normalized coordinates' staging buffer after the body: its one store as a piece. -/
def out0_1 (x0 : Vec F S1x3x100000 .f32) : Vec F S1x3x100000 .f32 :=
  View.canon [⟨rA3, k0_pay3 (View.ld x0 rA3)⟩]

/-- The voxel index's staging buffer after the body: its one store as a piece. -/
def out0_2 (x0 : Vec F S1x3x100000 .f32) : Vec F S1x1x100000 .i32 :=
  View.canon [⟨rA1, k0_pay1 (k0_pay4 (View.ld x0 rA3))⟩]

/-- The rectangles' offsets are all zero. -/
theorem hz3 : (![0, 0, 0] : Fin 3 → Nat) = fun _ => 0 := funext fun a => by fin_cases a <;> rfl

/-- The single whole-buffer piece IS the payload of the block. -/
theorem out0_1_eq (x0 : Vec F S1x3x100000 .f32) : out0_1 x0 = k0_pay3 x0 := by
  unfold out0_1
  rw [View.canon_unit_zero hz3]
  simp only [View.ld_unit_zero (S := S1x3x100000) hz3]

theorem out0_2_eq (x0 : Vec F S1x3x100000 .f32) : out0_2 x0 = k0_pay1 (k0_pay4 x0) := by
  unfold out0_2
  rw [View.canon_unit_zero hz3]
  simp only [View.ld_unit_zero (S := S1x3x100000) hz3]

/-- The one store of each output covers its buffer: every index lies in the whole-buffer rectangle. -/
theorem cover0_1 (p0 : Vec F S1x3x100000 .f32) (y : S1x3x100000.Idx) :
    ∃ pc ∈ ([⟨rA3, p0⟩] : List (View.Piece (Elt F) S1x3x100000 .f32)), y ∈ pc.1.set :=
  ⟨_, List.mem_singleton_self _, View.mem_set_unit_zero hz3 inb_S1x3x100000_S1x3x100000_0_0_0 y⟩

theorem cover0_2 (p0 : Vec F S1x1x100000 .i32) (y : S1x1x100000.Idx) :
    ∃ pc ∈ ([⟨rA1, p0⟩] : List (View.Piece (Elt F) S1x1x100000 .i32)), y ∈ pc.1.set :=
  ⟨_, List.mem_singleton_self _, View.mem_set_unit_zero hz3 inb_S1x1x100000_S1x1x100000_0_0_0 y⟩

/-- The input window's current staging buffer holds its block at every point, fetched there or not, for any
    proof data whose array is `V`'s and whose body leaves the block in place: unfetched, the index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

set_option maxHeartbeats 1000000 in
/-- The body on whole staging memrefs, the input's at contents `x0` and the outputs' at anything, runs to the
    continuation holding the input's as it was and each output's at its payload of `x0`: the body reads each
    output buffer once before its one covering store, and what it read there is not used. -/
theorem sound_kernel0 (c : Dev nD) (E : Set ℕ) (i : grid0.Coords)
    (arg1 : Memref sig .tc .vmem S1x3x100000 .f32) (harg1 : arg1.IsWhole)
    (arg2 : Memref sig .tc .vmem S1x3x100000 .f32) (harg2 : arg2.IsWhole)
    (arg3 : Memref sig .tc .vmem S1x1x100000 .i32) (harg3 : arg3.IsWhole)
    (x0 : Vec F S1x3x100000 .f32) (K : PUnit → sProp 𝕄) :
    iprop(owns (c : Thread nD τ) arg1 fullShare x0 ∗ (∃ d, owns (c : Thread nD τ) arg2 fullShare d)
        ∗ (∃ d, owns (c : Thread nD τ) arg3 fullShare d)
        ∗ (iprop(owns (c : Thread nD τ) arg1 fullShare x0 ∗ owns (c : Thread nD τ) arg2 fullShare (out0_1 x0)
            ∗ owns (c : Thread nD τ) arg3 fullShare (out0_2 x0)) -∗ K ⟨⟩))
      ⊢ wp frame (wpE (defs₀ (F := F)) Variants.none c none) E (cc0__coords_kernel i arg1 harg1 arg2 harg2 arg3 harg3) K := by
  simp only [cc0__coords_kernel_eq_skeleton]; unfold cc0__coords_kernel_skel
  simp only [k0_part1_eq_skeleton]; unfold k0_part1_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover0_1 _)
  iexists _; isplitr
  swap; · iexact H2
  ipureintro
  exact View.read_writes_eq_canon _ _ _ (cover0_2 _)

/-- The region's proof data on core `c`: arrays as found; the input's buffer keeps its block, each
    output's holds the body's payload of the input block; the invariant is the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = out0_2 (iblk0 V c 0 t) := by dsimp only [dat0]

/-- The input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input's memref holds its block, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the region at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.FrBK.lean ====
/- The scatter kernel's region (the second pallas_call): grid (batch, voxel tile, point tile), the
   point tile innermost. At a point the body resets the two scratch accumulators when the point
   tile is the first, adds the tile's masked products to them, and when the point tile is the last
   stores the quotient of the sums by the clamped counts into the output block. What the scratch
   buffers hold after each point, the region's proof data, its body obligation and the two ends of
   its invariant, at any contents `V` of the core's buffers when the region is entered. -/
import proofs.«136429_j63960652972185_1_alg».proof.Proof.Gen.Kernel.Launch
import proofs.«136429_j63960652972185_1_alg».proof.Proof.Gen.Kernel.Skeleton
import proofs.«136429_j63960652972185_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions, and where the output window is idle -/

/-- The point tile is the first: the body's first branch is taken. -/
abbrev cond1_0 (i : grid1.Coords) : Prop := (Scalar.cmpi .ne (Scalar.extui (Scalar.cmpi .eq (BitVec.ofNat 32 (i 2).val) 0#32)) 0#32) = 1#1
/-- The point tile is the last: the body's second branch is taken. -/
abbrev cond1_1 (i : grid1.Coords) : Prop := k1_cond2 i = 1#1

/-- The first branch is taken exactly at the positions ≡ 0 (mod 98): the point tile is the position's last coordinate. -/
theorem hcond1_0 : ∀ t : Fin cfg1.N, cond1_0 (grid1.coords t) ↔ t.val % 98 = 0 :=
  (by decide +kernel : ∀ t : Fin grid1.N, cond1_0 (grid1.coords t) ↔ t.val % 98 = 0)
/-- The second branch is taken exactly at the positions ≡ 97 (mod 98). -/
theorem hcond1_1 : ∀ t : Fin cfg1.N, cond1_1 (grid1.coords t) ↔ t.val % 98 = 97 :=
  (by decide +kernel : ∀ t : Fin grid1.N, cond1_1 (grid1.coords t) ↔ t.val % 98 = 97)

/-- The two input windows are never idle. -/
theorem liveAt1_0 (t : Fin cfg1.N) : cfg1.idle 0 (grid1.coords t) = false := rfl
theorem liveAt1_1 (t : Fin cfg1.N) : cfg1.idle 1 (grid1.coords t) = false := rfl
/-- The output window is idle where the second branch is not taken, -/
theorem idleAt1_2 (t : Fin cfg1.N) (h : ¬cond1_1 (grid1.coords t)) : cfg1.idle 2 (grid1.coords t) = true := by
  show (!(k1_cond2 (grid1.coords t) == 1#1)) = true
  rw [Bool.not_eq_true', beq_eq_false_iff_ne]; exact h
/-- live where it is, -/
theorem liveAt1_2 (t : Fin cfg1.N) (h : cond1_1 (grid1.coords t)) : cfg1.idle 2 (grid1.coords t) = false := by
  show (!(k1_cond2 (grid1.coords t) == 1#1)) = false
  rw [Bool.not_eq_false', beq_iff_eq]; exact h
/-- and not written back where it is idle. -/
theorem noFlush1_2 (t : Fin cfg1.N) (h : ¬cond1_1 (grid1.coords t)) : (cfg1.win 2).flush t = false :=
  Bool.eq_false_iff.mpr fun hf => h ((hcond1_1 t).mpr ((flush1_2 t).mp hf))

/-! ## The body on whole buffers, case by case -/
/-- The zero offsets of a whole-buffer rectangle, of rank two and of rank three. -/
theorem sc_hz2 : (![0, 0] : Fin 2 → Nat) = fun _ => 0 := funext fun a => by fin_cases a <;> rfl
theorem sc_hz3 : (![0, 0, 0] : Fin 3 → Nat) = fun _ => 0 := funext fun a => by fin_cases a <;> rfl

section whole
variable {S : Shape} {e : EltTy} (m : Memref sig .tc .vmem S e) (hm : m.IsWhole)

/-- One store over the whole buffer leaves its payload. -/
theorem sc_store1 {off : Fin S.rank → Nat} (hz : off = fun _ => 0) (inb : ∀ a, off a + S.size a ≤ S.size a)
    (f : m.view.ty.Contents (Elt F)) (w : S.Idx → Elt F e) :
    m.view.read (Elt F) (m.view.writes (Elt F) f [(⟨Rect.unit off S.size inb, w⟩ : View.Piece (Elt F) S e)]) = w := by
  rw [View.read_writes_eq_canon _ _ _ (fun y => ⟨_, List.mem_singleton_self _, View.mem_set_unit_zero hz inb y⟩), View.canon_unit_zero hz]

/-- A later store over the whole buffer leaves its payload, whatever was stored before. -/
theorem sc_store2 {off : Fin S.rank → Nat} (hz : off = fun _ => 0) (inb : ∀ a, off a + S.size a ≤ S.size a)
    (f : m.view.ty.Contents (Elt F)) (w : S.Idx → Elt F e) (L : List (View.Piece (Elt F) S e)) :
    m.view.read (Elt F) (m.view.writes (Elt F) f ((⟨Rect.unit off S.size inb, w⟩ : View.Piece (Elt F) S e) :: L)) = w := by
  rw [View.read_writes_eq_canon _ _ _ (fun y => ⟨_, List.mem_cons_self, View.mem_set_unit_zero hz inb y⟩), View.canon_cons_unit_zero hz]

/-- A load of the whole buffer reads its contents. -/
theorem sc_load {off : Fin S.rank → Nat} (hz : off = fun _ => 0) (inb : ∀ a, off a + S.size a ≤ S.size a) (X : S.Idx → Elt F e) :
    m.view.readAt (Elt F) (Rect.unit off S.size inb).toLoadRect (hm.unread X) = X := by
  rw [View.readAt_eq_ld, hm.read_unread, View.ld_unit_zero hz]
end whole

set_option maxHeartbeats 1000000 in
/-- The body at a point whose point tile is neither the first nor the last: on whole buffers, the two inputs at
    their blocks, the output block at anything `xi2` (handed back untouched), the accumulators at what the point
    before left, it leaves the accumulators with this tile's contribution added. -/
theorem kernel1_B (c : Dev nD) (i : grid1.Coords) (arg3 : Memref sig .tc .vmem S1x64x1024 .bf16) (harg3 : arg3.IsWhole) (arg4 : Memref sig .tc .vmem S1x1x1024 .i32) (harg4 : arg4.IsWhole) (arg5 : Memref sig .tc .vmem S1x64x4096 .f32) (harg5 : arg5.IsWhole) (arg6 : Memref sig .tc .vmem S64x4096 .f32) (harg6 : arg6.IsWhole) (arg7 : Memref sig .tc .vmem S1x4096 .f32) (harg7 : arg7.IsWhole) (hc0 : ¬cond1_0 i) (hc1 : ¬cond1_1 i)
    (x0 : Vec F S1x64x1024 .bf16) (x1 : Vec F S1x1x1024 .i32) (xs0 : Vec F S64x4096 .f32) (xs1 : Vec F S1x4096 .f32)
    (xi2 : Vec F S1x64x4096 .f32) (E : Set ℕ) (K : PUnit → sProp 𝕄) :
        iprop(owns (c : Thread nD τ) arg3 fullShare x0 ∗ owns (c : Thread nD τ) arg4 fullShare x1 ∗ owns (c : Thread nD τ) arg5 fullShare xi2 ∗ owns (c : Thread nD τ) arg6 fullShare xs0 ∗ owns (c : Thread nD τ) arg7 fullShare xs1
            ∗ (iprop(owns (c : Thread nD τ) arg3 fullShare x0 ∗ owns (c : Thread nD τ) arg4 fullShare x1 ∗ owns (c : Thread nD τ) arg5 fullShare xi2 ∗ owns (c : Thread nD τ) arg6 fullShare (k1_pay5 i x1 x0 xs0) ∗ owns (c : Thread nD τ) arg7 fullShare (k1_pay6 i x1 xs1)) -∗ K ⟨⟩))
          ⊢ wp frame (wpE (defs₀ (F := F)) Variants.none c none) E (cc1__scatter_kernel i arg3 harg3 arg4 harg4 arg5 harg5 arg6 harg6 arg7 harg7) K := by
    simp only [cc1__scatter_kernel_eq_skeleton]; unfold cc1__scatter_kernel_skel
    simp only [k1_part1_eq_skeleton]
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg3.eq_unread hf0; obtain rfl := harg4.eq_unread hf1; obtain rfl := harg5.eq_unread hf2
    obtain rfl := harg6.eq_unread hfs0; obtain rfl := harg7.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HS0]
    · iexists _; isplitr
      swap; · iexact HS0
      ipureintro
      rw [sc_store1 arg6 sc_hz2, sc_load arg4 harg4 sc_hz3, sc_load arg3 harg3 sc_hz3, sc_load arg6 harg6 sc_hz2]
    iexists _; isplitr
    swap; · iexact HS1
    ipureintro
    rw [sc_store1 arg7 sc_hz2, sc_load arg4 harg4 sc_hz3, sc_load arg7 harg7 sc_hz2]

set_option maxHeartbeats 1000000 in
/-- The body at a point whose point tile is the first: the accumulators, found at anything, are reset to zeros and
    then hold this tile's contribution added to the zeros; the output block is handed back untouched. -/
theorem kernel1_A (c : Dev nD) (i : grid1.Coords) (arg3 : Memref sig .tc .vmem S1x64x1024 .bf16) (harg3 : arg3.IsWhole) (arg4 : Memref sig .tc .vmem S1x1x1024 .i32) (harg4 : arg4.IsWhole) (arg5 : Memref sig .tc .vmem S1x64x4096 .f32) (harg5 : arg5.IsWhole) (arg6 : Memref sig .tc .vmem S64x4096 .f32) (harg6 : arg6.IsWhole) (arg7 : Memref sig .tc .vmem S1x4096 .f32) (harg7 : arg7.IsWhole) (hc0 : cond1_0 i) (hc1 : ¬cond1_1 i)
    (x0 : Vec F S1x64x1024 .bf16) (x1 : Vec F S1x1x1024 .i32)
    (xi2 : Vec F S1x64x4096 .f32) (E : Set ℕ) (K : PUnit → sProp 𝕄) :
        iprop(owns (c : Thread nD τ) arg3 fullShare x0 ∗ owns (c : Thread nD τ) arg4 fullShare x1 ∗ owns (c : Thread nD τ) arg5 fullShare xi2 ∗ (∃ d, owns (c : Thread nD τ) arg6 fullShare d) ∗ (∃ d, owns (c : Thread nD τ) arg7 fullShare d)
            ∗ (iprop(owns (c : Thread nD τ) arg3 fullShare x0 ∗ owns (c : Thread nD τ) arg4 fullShare x1 ∗ owns (c : Thread nD τ) arg5 fullShare xi2 ∗ owns (c : Thread nD τ) arg6 fullShare (k1_pay5 i x1 x0 (k1_pay2 (F := F))) ∗ owns (c : Thread nD τ) arg7 fullShare (k1_pay6 i x1 (k1_pay3 (F := F)))) -∗ K ⟨⟩))
          ⊢ wp frame (wpE (defs₀ (F := F)) Variants.none c none) E (cc1__scatter_kernel i arg3 harg3 arg4 harg4 arg5 harg5 arg6 harg6 arg7 harg7) K := by
    simp only [cc1__scatter_kernel_eq_skeleton]; unfold cc1__scatter_kernel_skel
    simp only [k1_part1_eq_skeleton]
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HS0]
    · iexists _; isplitr
      swap; · iexact HS0
      ipureintro
      sl_unfold_words
      rw [sc_store2 arg6 sc_hz2, sc_load arg4 harg4 sc_hz3, sc_load arg3 harg3 sc_hz3, View.readCov_unit_zero (S := S64x4096) _ sc_hz2]
    iexists _; isplitr
    swap; · iexact HS1
    ipureintro
    sl_unfold_words
    rw [sc_store2 arg7 sc_hz2, sc_load arg4 harg4 sc_hz3, View.readCov_unit_zero (S := S1x4096) _ sc_hz2]

set_option maxHeartbeats 1000000 in
/-- The body at a point whose point tile is the last: the accumulators get this tile's contribution, and the output
    block, found at anything, is stored whole with the quotient of the new sums by the clamped new counts. -/
theorem kernel1_C (c : Dev nD) (i : grid1.Coords) (arg3 : Memref sig .tc .vmem S1x64x1024 .bf16) (harg3 : arg3.IsWhole) (arg4 : Memref sig .tc .vmem S1x1x1024 .i32) (harg4 : arg4.IsWhole) (arg5 : Memref sig .tc .vmem S1x64x4096 .f32) (harg5 : arg5.IsWhole) (arg6 : Memref sig .tc .vmem S64x4096 .f32) (harg6 : arg6.IsWhole) (arg7 : Memref sig .tc .vmem S1x4096 .f32) (harg7 : arg7.IsWhole) (hc0 : ¬cond1_0 i) (hc1 : cond1_1 i)
    (x0 : Vec F S1x64x1024 .bf16) (x1 : Vec F S1x1x1024 .i32) (xs0 : Vec F S64x4096 .f32) (xs1 : Vec F S1x4096 .f32)
    (E : Set ℕ) (K : PUnit → sProp 𝕄) :
        iprop(owns (c : Thread nD τ) arg3 fullShare x0 ∗ owns (c : Thread nD τ) arg4 fullShare x1 ∗ (∃ d, owns (c : Thread nD τ) arg5 fullShare d) ∗ owns (c : Thread nD τ) arg6 fullShare xs0 ∗ owns (c : Thread nD τ) arg7 fullShare xs1
            ∗ (iprop(owns (c : Thread nD τ) arg3 fullShare x0 ∗ owns (c : Thread nD τ) arg4 fullShare x1 ∗ owns (c : Thread nD τ) arg5 fullShare (k1_pay1 (k1_pay5 i x1 x0 xs0) (k1_pay6 i x1 xs1)) ∗ owns (c : Thread nD τ) arg6 fullShare (k1_pay5 i x1 x0 xs0) ∗ owns (c : Thread nD τ) arg7 fullShare (k1_pay6 i x1 xs1)) -∗ K ⟨⟩))
          ⊢ wp frame (wpE (defs₀ (F := F)) Variants.none c none) E (cc1__scatter_kernel i arg3 harg3 arg4 harg4 arg5 harg5 arg6 harg6 arg7 harg7) K := by
    simp only [cc1__scatter_kernel_eq_skeleton]; unfold cc1__scatter_kernel_skel
    simp only [k1_part1_eq_skeleton]
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg3.eq_unread hf0; obtain rfl := harg4.eq_unread hf1
    obtain rfl := harg6.eq_unread hfs0; obtain rfl := harg7.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr
      swap; · iexact H2
      ipureintro
      sl_unfold_words
      rw [sc_store1 (S := S1x64x4096) arg5 sc_hz3, View.readCov_unit_zero (S := S64x4096) _ sc_hz2, View.readCov_unit_zero (S := S1x4096) _ sc_hz2, sc_load arg4 harg4 sc_hz3, sc_load arg3 harg3 sc_hz3, sc_load arg6 harg6 sc_hz2, sc_load arg7 harg7 sc_hz2]
    isplitl [HS0]
    · iexists _; isplitr
      swap; · iexact HS0
      ipureintro
      sl_unfold_words
      rw [sc_store1 arg6 sc_hz2, sc_load arg4 harg4 sc_hz3, sc_load arg3 harg3 sc_hz3, sc_load arg6 harg6 sc_hz2]
    iexists _; isplitr
    swap; · iexact HS1
    ipureintro
    sl_unfold_words
    rw [sc_store1 arg7 sc_hz2, sc_load arg4 harg4 sc_hz3, sc_load arg7 harg7 sc_hz2]

/-! ## What the region holds, at any contents of the core's buffers when it is entered -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The two accumulators (sums, counts) after the body at position `n` of the grid: at the first
    point tile of a (batch, voxel tile) the tile's contribution added to zeros, elsewhere added to
    what the position before left. -/
def accAt (c : Dev nD) : (n : ℕ) → n < cfg1.N → Vec F S64x4096 .f32 × Vec F S1x4096 .f32
  | 0, hn =>
    (k1_pay5 (grid1.coords ⟨0, hn⟩) (iblk1 V c 1 ⟨0, hn⟩) (iblk1 V c 0 ⟨0, hn⟩) (k1_pay2 (F := F)),
     k1_pay6 (grid1.coords ⟨0, hn⟩) (iblk1 V c 1 ⟨0, hn⟩) (k1_pay3 (F := F)))
  | n + 1, hn =>
    if (n + 1) % 98 = 0 then
      (k1_pay5 (grid1.coords ⟨n + 1, hn⟩) (iblk1 V c 1 ⟨n + 1, hn⟩) (iblk1 V c 0 ⟨n + 1, hn⟩) (k1_pay2 (F := F)),
       k1_pay6 (grid1.coords ⟨n + 1, hn⟩) (iblk1 V c 1 ⟨n + 1, hn⟩) (k1_pay3 (F := F)))
    else
      (k1_pay5 (grid1.coords ⟨n + 1, hn⟩) (iblk1 V c 1 ⟨n + 1, hn⟩) (iblk1 V c 0 ⟨n + 1, hn⟩) (accAt c n (Nat.lt_of_succ_lt hn)).1,
       k1_pay6 (grid1.coords ⟨n + 1, hn⟩) (iblk1 V c 1 ⟨n + 1, hn⟩) (accAt c n (Nat.lt_of_succ_lt hn)).2)

/-- `accAt` at a point whose point tile is the first: the contribution over zeros. -/
theorem accAt_first (c : Dev nD) (t : Fin cfg1.N) (h : t.val % 98 = 0) :
    accAt V c t.val t.isLt =
      (k1_pay5 (grid1.coords t) (iblk1 V c 1 t) (iblk1 V c 0 t) (k1_pay2 (F := F)),
       k1_pay6 (grid1.coords t) (iblk1 V c 1 t) (k1_pay3 (F := F))) := by
  obtain ⟨n, hn⟩ := t
  cases n with
  | zero => exact rfl
  | succ n => exact (if_pos h).trans rfl

/-- `accAt` at any other point: the contribution over what the point before left. -/
theorem accAt_next (c : Dev nD) (t : Fin cfg1.N) (h : ¬ t.val % 98 = 0) :
    accAt V c t.val t.isLt =
      (k1_pay5 (grid1.coords t) (iblk1 V c 1 t) (iblk1 V c 0 t) (accAt V c (t.val - 1) (Nat.lt_of_le_of_lt (Nat.sub_le _ _) t.isLt)).1,
       k1_pay6 (grid1.coords t) (iblk1 V c 1 t) (accAt V c (t.val - 1) (Nat.lt_of_le_of_lt (Nat.sub_le _ _) t.isLt)).2) := by
  obtain ⟨n, hn⟩ := t
  cases n with
  | zero => exact absurd (Nat.zero_mod _) h
  | succ n => exact (if_neg h).trans rfl

/-- What the output block's staging buffer holds after the body at a point whose point tile is the
    last (elsewhere the body stores nothing there and the value is not consulted). -/
def out1_2 (c : Dev nD) (t : Fin cfg1.N) : Vec F S1x64x4096 .f32 :=
  k1_pay1 (accAt V c t.val t.isLt).1 (accAt V c t.val t.isLt).2

/-- The scratch operands, whole. -/
abbrev scM0 : Memref sig .tc .vmem S64x4096 .f32 := Memref.whole cc1_scratch0
abbrev scM1 : Memref sig .tc .vmem S1x4096 .f32 := Memref.whole cc1_scratch1

/-- The scoped buffers of the core that are neither this region's staging buffers nor its scratch, each at some contents. -/
def otherScoped (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))

/-- The region's invariant before position `n`: before the first point the class's (every scoped
    buffer that is no staging buffer at anything, the generator register at some state); afterwards
    the two accumulators at what the position before left. -/
def PhiS (c : Dev nD) : (n : ℕ) → n ≤ cfg1.N → sProp 𝕄
  | 0, _ => Pipeline.ΦA spec1 c
  | n + 1, hn => iprop(iprop(otherScoped (F := F) c ∗ owns (c : Thread nD τ) scM0 fullShare (accAt V c n hn).1 ∗ owns (c : Thread nD τ) scM1 fullShare (accAt V c n hn).2) ∗ (∃ r, prngReg c r))

/-- The region's proof data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 V c t
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 V c t := by dsimp only [dat1]

/-! ## The invariant, position by position -/

theorem PhiS_zero (c : Dev nD) (n : ℕ) (h : n ≤ cfg1.N) (hz : n = 0) : PhiS V c n h = Pipeline.ΦA spec1 c := by
  subst hz; rfl

/-- After position `n`: the accumulators at that position's contents. -/
theorem PhiS_succ (c : Dev nD) (n : ℕ) (hn : n < cfg1.N) :
    PhiS V c (n + 1) hn = iprop(iprop(otherScoped (F := F) c ∗ owns (c : Thread nD τ) scM0 fullShare (accAt V c n hn).1 ∗ owns (c : Thread nD τ) scM1 fullShare (accAt V c n hn).2) ∗ (∃ r, prngReg c r)) := rfl

/-- Before a position that is not the first: the accumulators at what the position before left. -/
theorem PhiS_pos (c : Dev nD) (n : ℕ) (h : n ≤ cfg1.N) (hz : n ≠ 0) :
    PhiS V c n h = iprop(iprop(otherScoped (F := F) c ∗ owns (c : Thread nD τ) scM0 fullShare (accAt V c (n - 1) (by omega)).1 ∗ owns (c : Thread nD τ) scM1 fullShare (accAt V c (n - 1) (by omega)).2) ∗ (∃ r, prngReg c r)) := by
  cases n with
  | zero => exact absurd rfl hz
  | succ n => rfl

theorem PhiS_castSucc (c : Dev nD) (t : Fin cfg1.N) :
    (dat1 V c).Φ t.castSucc = PhiS V c t.val (Nat.le_of_lt t.isLt) := by
  dsimp only [dat1]; simp only [Fin.coe_castSucc]

/-- What the region is entered with, its scoped buffers listed: the other region's six staging buffers and the
    two accumulators, each at some contents, and the generator register at some state. -/
theorem PhiA1_split (c : Dev nD) :
    (Pipeline.ΦA spec1 c : sProp 𝕄) ⊢ iprop(iprop(otherScoped (F := F) c ∗ (∃ d, owns (c : Thread nD τ) scM0 fullShare d) ∗ (∃ d, owns (c : Thread nD τ) scM1 fullShare d)) ∗ (∃ r, prngReg c r)) := by
  unfold Pipeline.ΦA; rw [scopedRest1_eq]; unfold otherScoped; simp only [scM0, scM1, owns_whole]
  iintro ⟨⟨H1, H2, H3, H4, H5, H6, HS0, HS1⟩, Hg⟩
  isplitr [Hg]
  · isplitr [HS0 HS1]
    · isplitl [H1]; · iexact H1
      isplitl [H2]; · iexact H2
      isplitl [H3]; · iexact H3
      isplitl [H4]; · iexact H4
      isplitl [H5]; · iexact H5
      iexact H6
    isplitl [HS0]; · iexact HS0
    iexact HS1
  iexact Hg

/-- And back. -/
theorem PhiA1_join (c : Dev nD) :
    iprop(iprop(otherScoped (F := F) c ∗ (∃ d, owns (c : Thread nD τ) scM0 fullShare d) ∗ (∃ d, owns (c : Thread nD τ) scM1 fullShare d)) ∗ (∃ r, prngReg c r)) ⊢ (Pipeline.ΦA spec1 c : sProp 𝕄) := by
  unfold Pipeline.ΦA; rw [scopedRest1_eq]; unfold otherScoped; simp only [scM0, scM1, owns_whole]
  iintro ⟨⟨⟨H1, H2, H3, H4, H5, H6⟩, HS0, HS1⟩, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [HS0]; · iexact HS0
    iexact HS1
  iexact Hg

/-! ## The body obligation -/

/-- Each input's current staging buffer holds its block at every point, fetched there or not: an input window is
    never idle and the body leaves its block in place. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

/-- Each window's current staging memref at point `t`, as the pipeline passes it to the body, and its wholeness. -/
abbrev ms1_0 (t : Fin cfg1.N) : Memref sig .tc .vmem S1x64x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1x1024 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x64x4096 .f32 := win1_2.stage (cfg1.slots t 2)
abbrev hs1_2 (t : Fin cfg1.N) : (ms1_2 t).IsWhole := hstage1_2 ((cfg1.slots t 2).cast nbuf1_2)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The inputs' buffers hold their blocks; the position's residue mod 98 says which of the
    three cases the point is in. The invariant hands the body the accumulators at what the position before left
    (at anything before the first position, which is of the resetting case) and takes them back at this position's
    contents; where the output window is idle its buffer goes back as it came, at the last point tile it is left at
    the quotient of this position's accumulators. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  have hN : t.val < 6272 := lt_of_lt_of_eq t.isLt (show cfg1.N = 6272 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 98 = 0
  · have h1 : ¬t.val % 98 = 97 := by omega
    have hc0 : cond1_0 (grid1.coords t) := (hcond1_0 t).mpr h0
    have hc1 : ¬cond1_1 (grid1.coords t) := fun h => h1 ((hcond1_1 t).mp h)
    rw [Dat.leavesExact_idle (dat1 V c) 2 t (idleAt1_2 t hc1) (noFlush1_2 t hc1)]
    rw [accAt_first V c t h0]; dsimp only
    by_cases hz : t.val = 0
    · rw [PhiS_castSucc V c t, PhiS_zero V c _ _ hz]
      iintro ⟨HP, Ho, ⟨%d0, H0⟩, ⟨%d1, H1⟩, ⟨%d2, H2⟩⟩
      ihave HP' := (PhiA1_split c) $$ HP
      icases HP' with ⟨⟨Hoth, HS0, HS1⟩, Hg⟩
      iapply (kernel1_A c (grid1.coords t) _ (hs1_0 t) _ (hs1_1 t) _ (hs1_2 t) _ _ _ _ hc0 hc1 (iblk1 V c 0 t) (iblk1 V c 1 t) _ Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [Hoth HS0 HS1 Hg]
      · isplitr [Hg]
        · isplitl [Hoth]; · iexact Hoth
          isplitl [HS0]; · iexact HS0
          iexact HS1
        iexact Hg
      isplitl [Ho]; · iexact Ho
      isplitl [H0]; · iexact H0
      isplitl [H1]; · iexact H1
      iexists _; iexact H2
    · rw [PhiS_castSucc V c t, PhiS_pos V c _ _ hz]
      iintro ⟨⟨⟨Hoth, HS0, HS1⟩, Hg⟩, Ho, ⟨%d0, H0⟩, ⟨%d1, H1⟩, ⟨%d2, H2⟩⟩
      iapply (kernel1_A c (grid1.coords t) _ (hs1_0 t) _ (hs1_1 t) _ (hs1_2 t) _ _ _ _ hc0 hc1 (iblk1 V c 0 t) (iblk1 V c 1 t) _ Set.univ _)
      isplitl [H0]; · iexact H0
      isplitl [H1]; · iexact H1
      isplitl [H2]; · iexact H2
      isplitl [HS0]; · iexists _; iexact HS0
      isplitl [HS1]; · iexists _; iexact HS1
      iintro ⟨H0, H1, H2, HS0, HS1⟩
      isplitl [Hoth HS0 HS1 Hg]
      · isplitr [Hg]
        · isplitl [Hoth]; · iexact Hoth
          isplitl [HS0]; · iexact HS0
          iexact HS1
        iexact Hg
      isplitl [Ho]; · iexact Ho
      isplitl [H0]; · iexact H0
      isplitl [H1]; · iexact H1
      iexists _; iexact H2
  · have hz : t.val ≠ 0 := fun h => h0 (by rw [h])
    have hc0 : ¬cond1_0 (grid1.coords t) := fun h => h0 ((hcond1_0 t).mp h)
    rw [accAt_next V c t h0]; dsimp only
    rw [PhiS_castSucc V c t, PhiS_pos V c _ _ hz]
    by_cases h1 : t.val % 98 = 97
    · have hc1 : cond1_1 (grid1.coords t) := (hcond1_1 t).mpr h1
      rw [show (dat1 V c).leavesExact 2 t = owns (c : Thread nD τ) (ms1_2 t) fullShare ((dat1 V c).after 2 t) from by
        unfold Dat.leavesExact; rw [liveAt1_2 t hc1], after1_2]
      unfold out1_2
      rw [accAt_next V c t h0]; dsimp only
      iintro ⟨⟨⟨Hoth, HS0, HS1⟩, Hg⟩, Ho, ⟨%d0, H0⟩, ⟨%d1, H1⟩, ⟨%d2, H2⟩⟩
      iapply (kernel1_C c (grid1.coords t) _ (hs1_0 t) _ (hs1_1 t) _ (hs1_2 t) _ _ _ _ hc0 hc1 (iblk1 V c 0 t) (iblk1 V c 1 t) _ _ Set.univ _)
      isplitl [H0]; · iexact H0
      isplitl [H1]; · iexact H1
      isplitl [H2]; · iexists _; iexact H2
      isplitl [HS0]; · iexact HS0
      isplitl [HS1]; · iexact HS1
      iintro ⟨H0, H1, H2, HS0, HS1⟩
      isplitl [Hoth HS0 HS1 Hg]
      · isplitr [Hg]
        · isplitl [Hoth]; · iexact Hoth
          isplitl [HS0]; · iexact HS0
          iexact HS1
        iexact Hg
      isplitl [Ho]; · iexact Ho
      isplitl [H0]; · iexact H0
      isplitl [H1]; · iexact H1
      iexact H2
    · have hc1 : ¬cond1_1 (grid1.coords t) := fun h => h1 ((hcond1_1 t).mp h)
      rw [Dat.leavesExact_idle (dat1 V c) 2 t (idleAt1_2 t hc1) (noFlush1_2 t hc1)]
      iintro ⟨⟨⟨Hoth, HS0, HS1⟩, Hg⟩, Ho, ⟨%d0, H0⟩, ⟨%d1, H1⟩, ⟨%d2, H2⟩⟩
      iapply (kernel1_B c (grid1.coords t) _ (hs1_0 t) _ (hs1_1 t) _ (hs1_2 t) _ _ _ _ hc0 hc1 (iblk1 V c 0 t) (iblk1 V c 1 t) _ _ _ Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [Hoth HS0 HS1 Hg]
      · isplitr [Hg]
        · isplitl [Hoth]; · iexact Hoth
          isplitl [HS0]; · iexact HS0
          iexact HS1
        iexact Hg
      isplitl [Ho]; · iexact Ho
      isplitl [H0]; · iexact H0
      isplitl [H1]; · iexact H1
      iexists _; iexact H2

/-- The body obligation of the region at every point. -/
theorem body_obligation1 (c : Dev nD) : BodyObligation (dat1 (F := F) V c) (defs₀ (F := F)) Variants.none () Set.univ := by
  intro t
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]

/-- After the last point the invariant gives the class's back: the accumulators' named contents are forgotten. -/
theorem hout1 (c : Dev nD) : (dat1 V c).Φ (Fin.last cfg1.N) ⊢ Pipeline.ΦA spec1 c := by
  have hN : (Fin.last cfg1.N).val ≠ 0 := by rw [Fin.val_last]; have : cfg1.N = 6272 := N_1; omega
  rw [show (dat1 V c).Φ (Fin.last cfg1.N) = PhiS V c (Fin.last cfg1.N).val (Nat.le_of_lt_succ (Fin.last cfg1.N).isLt) from rfl, PhiS_pos V c _ _ hN]
  refine BIBase.Entails.trans ?_ (PhiA1_join c)
  iintro ⟨⟨Hoth, HS0, HS1⟩, Hg⟩
  isplitr [Hg]
  · isplitl [Hoth]; · iexact Hoth
    isplitl [HS0]; · iexists _; iexact HS0
    iexists _; iexact HS1
  iexact Hg

end Cert.Kernel.Hand

end
-- ==== Proof.RunK.lean ====
/- The run of @main: the coordinate kernel's region, four stretches of host operations (the features
   cast to bf16 and padded, the voxel index padded), the scatter kernel's region, and the closing
   reshape. The contents of the core's buffers at every boundary between two of these, as a fold
   from the launch memory; the argument arrays read back through the fold to their launch contents;
   each result buffer read back to the region or host operation that wrote it; and the run itself:
   every weakly fair execution of @main terminates and ends with every unscoped buffer at the last
   boundary's contents. -/
import proofs.«136429_j63960652972185_1_alg».proof.Proof.FrAK
import proofs.«136429_j63960652972185_1_alg».proof.Proof.FrBK
import proofs.«136429_j63960652972185_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through @main -/

/-- Core `c`'s buffers at launch (the first region's entry). -/
abbrev W0 : Dev nD → Valuation τ sig (Elt F) := fun c b => (s₀ m ρ).mem ((c : Dev nD), b)
/-- The same read at the TensorCore's references (what the first region's proof data take). -/
abbrev V0 : (c : Dev nD) → (b : Ref sig .tc) → Buf (Elt F) ((c : Thread nD τ).loc b) := fun c b => W0 m ρ c b
/-- At the first region's exit: its arrays at what the pipeline leaves (the input as entered, each output's
    write-backs folded), every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references (the first region's exit contents). -/
abbrev V1 : (c : Dev nD) → (b : Ref sig .tc) → Buf (Elt F) ((c : Thread nD τ).loc b) := fun c b => W1 m ρ c b
/-- At the first region's exit each of its arrays holds what the pipeline leaves, and every other buffer what it
    held at entry. -/
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the features' cast and the pad value's constant, -/
abbrev W2 : Dev nD → Valuation τ sig (Elt F) := fun c => StableHlo.after hostOps1 (W1 m ρ c)
/-- after the features' pad, -/
abbrev W3 : Dev nD → Valuation τ sig (Elt F) := fun c => StableHlo.after hostOps1_1 (W2 m ρ c)
/-- after the index pad value's constant, -/
abbrev W4 : Dev nD → Valuation τ sig (Elt F) := fun c => StableHlo.after hostOps1_2 (W3 m ρ c)
/-- after the voxel index's pad (the second region's entry). -/
abbrev W5 : Dev nD → Valuation τ sig (Elt F) := fun c => StableHlo.after hostOps1_3 (W4 m ρ c)
/-- The same read at the TensorCore's references (what the second region's proof data take). -/
abbrev V5 : (c : Dev nD) → (b : Ref sig .tc) → Buf (Elt F) ((c : Thread nD τ).loc b) := fun c b => W5 m ρ c b
/-- At the second region's exit: its arrays at what the pipeline leaves, every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
/-- The same read at the TensorCore's references (the second region's exit contents). -/
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)
/-- After the closing reshape (what the launch reads at the end). -/
abbrev W7 : Dev nD → Valuation τ sig (Elt F) := fun c => StableHlo.after hostOps2 (W6 m ρ c)

/-! ## What each stretch leaves unchanged -/

theorem W2_of (c : Dev nD) (r : Ref sig .tc) (h : r ∉ hostOps1_W) : W2 m ρ c (Proc.devRef .tc r) = W1 m ρ c (Proc.devRef .tc r) :=
  StableHlo.after_of_writes_sub hostOps1 _ hostOps1_writes h
theorem W3_of (c : Dev nD) (r : Ref sig .tc) (h : r ∉ hostOps1_1_W) : W3 m ρ c (Proc.devRef .tc r) = W2 m ρ c (Proc.devRef .tc r) :=
  StableHlo.after_of_writes_sub hostOps1_1 _ hostOps1_1_writes h
theorem W4_of (c : Dev nD) (r : Ref sig .tc) (h : r ∉ hostOps1_2_W) : W4 m ρ c (Proc.devRef .tc r) = W3 m ρ c (Proc.devRef .tc r) :=
  StableHlo.after_of_writes_sub hostOps1_2 _ hostOps1_2_writes h
theorem W5_of (c : Dev nD) (r : Ref sig .tc) (h : r ∉ hostOps1_3_W) : W5 m ρ c (Proc.devRef .tc r) = W4 m ρ c (Proc.devRef .tc r) :=
  StableHlo.after_of_writes_sub hostOps1_3 _ hostOps1_3_writes h
theorem W7_of (c : Dev nD) (r : Ref sig .tc) (h : r ∉ hostOps2_W) : W7 m ρ c (Proc.devRef .tc r) = W6 m ρ c (Proc.devRef .tc r) :=
  StableHlo.after_of_writes_sub hostOps2 _ hostOps2_writes h

/-! ## The arguments end as launched -/

/-- No host operation writes the features and no region has them as a window. -/
theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := W7_of m ρ c main_arg0 (by decide)
    _ = W5 m ρ c (Proc.devRef .tc main_arg0) := W6_of_ne m ρ c main_arg0 (by decide)
    _ = W4 m ρ c (Proc.devRef .tc main_arg0) := W5_of m ρ c main_arg0 (by decide)
    _ = W3 m ρ c (Proc.devRef .tc main_arg0) := W4_of m ρ c main_arg0 (by decide)
    _ = W2 m ρ c (Proc.devRef .tc main_arg0) := W3_of m ρ c main_arg0 (by decide)
    _ = W1 m ρ c (Proc.devRef .tc main_arg0) := W2_of m ρ c main_arg0 (by decide)
    _ = W0 m ρ c (Proc.devRef .tc main_arg0) := W1_of_ne m ρ c main_arg0 (by decide)
    _ = m ((c : Thread nD τ).loc main_arg0) := rfl

/-- No host operation writes the coordinates; the first region reads them through an input window, whose array
    the pipeline leaves as entered. -/
theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := W7_of m ρ c main_arg1 (by decide)
    _ = W5 m ρ c (Proc.devRef .tc main_arg1) := W6_of_ne m ρ c main_arg1 (by decide)
    _ = W4 m ρ c (Proc.devRef .tc main_arg1) := W5_of m ρ c main_arg1 (by decide)
    _ = W3 m ρ c (Proc.devRef .tc main_arg1) := W4_of m ρ c main_arg1 (by decide)
    _ = W2 m ρ c (Proc.devRef .tc main_arg1) := W3_of m ρ c main_arg1 (by decide)
    _ = W1 m ρ c (Proc.devRef .tc main_arg1) := W2_of m ρ c main_arg1 (by decide)
    _ = W0 m ρ c (Proc.devRef .tc main_arg1) := (W1_arr m ρ c 0).trans (((dat0 (V0 m ρ) c).arrAt_in 0 rfl _).trans (A_eq0 (V0 m ρ) c 0))
    _ = m ((c : Thread nD τ).loc main_arg1) := rfl

/-! ## The results, read back to what wrote them -/

/-- The normalized coordinates: the first region's first output array, untouched afterwards. -/
theorem W7_main_v0_0 (c : Dev nD) : W7 m ρ c (Proc.devRef .tc main_v0_0) = (dat0 (V0 m ρ) c).arrAt 1 cfg0.N :=
  calc W7 m ρ c (Proc.devRef .tc main_v0_0)
    _ = W6 m ρ c (Proc.devRef .tc main_v0_0) := W7_of m ρ c main_v0_0 (by decide)
    _ = W5 m ρ c (Proc.devRef .tc main_v0_0) := W6_of_ne m ρ c main_v0_0 (by decide)
    _ = W4 m ρ c (Proc.devRef .tc main_v0_0) := W5_of m ρ c main_v0_0 (by decide)
    _ = W3 m ρ c (Proc.devRef .tc main_v0_0) := W4_of m ρ c main_v0_0 (by decide)
    _ = W2 m ρ c (Proc.devRef .tc main_v0_0) := W3_of m ρ c main_v0_0 (by decide)
    _ = W1 m ρ c (Proc.devRef .tc main_v0_0) := W2_of m ρ c main_v0_0 (by decide)
    _ = (dat0 (V0 m ρ) c).arrAt 1 cfg0.N := W1_arr m ρ c 1

/-- The voxel index when the second region is entered: the first region's second output array. -/
theorem W5_main_v0_1 (c : Dev nD) : W5 m ρ c (Proc.devRef .tc main_v0_1) = (dat0 (V0 m ρ) c).arrAt 2 cfg0.N :=
  calc W5 m ρ c (Proc.devRef .tc main_v0_1)
    _ = W4 m ρ c (Proc.devRef .tc main_v0_1) := W5_of m ρ c main_v0_1 (by decide)
    _ = W3 m ρ c (Proc.devRef .tc main_v0_1) := W4_of m ρ c main_v0_1 (by decide)
    _ = W2 m ρ c (Proc.devRef .tc main_v0_1) := W3_of m ρ c main_v0_1 (by decide)
    _ = W1 m ρ c (Proc.devRef .tc main_v0_1) := W2_of m ρ c main_v0_1 (by decide)
    _ = (dat0 (V0 m ρ) c).arrAt 2 cfg0.N := W1_arr m ρ c 2

/-- The bf16 features after the first stretch: the launch features cast. -/
theorem W2_main_v1 (c : Dev nD) :
    (W2 m ρ c (Proc.devRef .tc main_v1) : Vec F S8x64x100000 .bf16) = truncf .bf16 (m ((c.tc : Thread nD τ).loc main_arg0)) bitsLt_bf16_f32 := by
  have e : W1 m ρ c (Proc.devRef .tc main_arg0) = m ((c.tc : Thread nD τ).loc main_arg0) :=
    (W1_of_ne m ρ c main_arg0 (by decide)).trans rfl
  show StableHlo.after hostOps1 _ (Proc.devRef .tc main_v1) = _
  after_results
  rw [e]

/-- The features' pad value's integer constant after the first stretch. -/
theorem W2_main_c (c : Dev nD) : (W2 m ρ c (Proc.devRef .tc main_c) : IVec S_ 32) = constantI S_ 32 0#32 := by
  show StableHlo.after hostOps1 _ (Proc.devRef .tc main_c) = _
  after_results

/-- The second region's first input array: the bf16 features padded with zeros along the points. -/
theorem V5_main_v2 (c : Dev nD) : V5 m ρ c main_v2 = pad S8x64x100352 ![0, 0, 0] ![0, 0, 352] ![0, 0, 0] (truncf .bf16 (m ((c.tc : Thread nD τ).loc main_arg0)) bitsLt_bf16_f32) (sitofp .bf16 (constantI S_ 32 0#32)) pads_S8x64x100000_S8x64x100352_000_000_03520 h_S_ := by
  have e3 : W3 m ρ c (Proc.devRef .tc main_v2) = pad S8x64x100352 ![0, 0, 0] ![0, 0, 352] ![0, 0, 0] (W2 m ρ c (Proc.devRef .tc main_v1) : Vec F S8x64x100000 .bf16) (sitofp .bf16 (W2 m ρ c (Proc.devRef .tc main_c) : IVec S_ 32)) pads_S8x64x100000_S8x64x100352_000_000_03520 h_S_ := by
    show StableHlo.after hostOps1_1 _ (Proc.devRef .tc main_v2) = _
    after_results
    rfl
  calc V5 m ρ c main_v2
    _ = W4 m ρ c (Proc.devRef .tc main_v2) := W5_of m ρ c main_v2 (by decide)
    _ = W3 m ρ c (Proc.devRef .tc main_v2) := W4_of m ρ c main_v2 (by decide)
    _ = _ := by rw [e3, W2_main_v1, W2_main_c]

/-- The index's pad value's constant after the third stretch. -/
theorem W4_main_c_0 (c : Dev nD) : (W4 m ρ c (Proc.devRef .tc main_c_0) : IVec S_ 32) = constantI S_ 32 4294967295#32 := by
  show StableHlo.after hostOps1_2 _ (Proc.devRef .tc main_c_0) = _
  after_results

/-- The second region's second input array: the voxel index padded with −1 along the points. -/
theorem V5_main_v3 (c : Dev nD) : V5 m ρ c main_v3 = pad S8x1x100352 ![0, 0, 0] ![0, 0, 352] ![0, 0, 0] ((dat0 (V0 m ρ) c).arrAt 2 cfg0.N) (constantI S_ 32 4294967295#32) pads_S8x1x100000_S8x1x100352_000_000_03520 h_S_ := by
  have e4 : W4 m ρ c (Proc.devRef .tc main_v0_1) = (dat0 (V0 m ρ) c).arrAt 2 cfg0.N :=
    calc W4 m ρ c (Proc.devRef .tc main_v0_1)
      _ = W3 m ρ c (Proc.devRef .tc main_v0_1) := W4_of m ρ c main_v0_1 (by decide)
      _ = W2 m ρ c (Proc.devRef .tc main_v0_1) := W3_of m ρ c main_v0_1 (by decide)
      _ = W1 m ρ c (Proc.devRef .tc main_v0_1) := W2_of m ρ c main_v0_1 (by decide)
      _ = (dat0 (V0 m ρ) c).arrAt 2 cfg0.N := W1_arr m ρ c 2
  have e5 : W5 m ρ c (Proc.devRef .tc main_v3) = pad S8x1x100352 ![0, 0, 0] ![0, 0, 352] ![0, 0, 0] (W4 m ρ c (Proc.devRef .tc main_v0_1) : IVec S8x1x100000 32) (W4 m ρ c (Proc.devRef .tc main_c_0) : IVec S_ 32) pads_S8x1x100000_S8x1x100352_000_000_03520 h_S_ := by
    show StableHlo.after hostOps1_3 _ (Proc.devRef .tc main_v3) = _
    after_results
    rfl
  show W5 m ρ c (Proc.devRef .tc main_v3) = _
  rw [e5, W4_main_c_0, e4]

/-- The scattered features: the second region's output array, reshaped to the voxel grid. -/
theorem W7_main_v5 (c : Dev nD) : W7 m ρ c (Proc.devRef .tc main_v5) = shapeCast S8x64x32x32x32 ((dat1 (V5 m ρ) c).arrAt 2 cfg1.N) shapeCasts_S8x64x32768_S8x64x32x32x32 := by
  have e6 : W6 m ρ c (Proc.devRef .tc main_v4) = (dat1 (V5 m ρ) c).arrAt 2 cfg1.N := W6_arr m ρ c 2
  show StableHlo.after hostOps2 _ (Proc.devRef .tc main_v5) = _
  after_results
  rw [e6]
  rfl

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    debts, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it is left
    with those references at the contents the stretch's operations make of `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last boundary's contents, the generator
    register at some state. -/
abbrev Tₙ (c : Dev nD) : sProp 𝕄 := iprop(StableHlo.held (c : Thread nD τ) (Pipeline.ucRefs τ sig) (W7 m ρ c) ∗ ∃ r, prngReg c r)

/-- The state the last stretch leaves IS the last thread state beside the core's debts, regrouped. -/
theorem last_state (c : Dev nD) :
    iprop(StableHlo.held (c : Thread nD τ) (Pipeline.ucRefs τ sig) (W7 m ρ c) ∗ R c)
      ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

/-! ## The regions as segments -/

set_option backward.isDefEq.respectTransparency.types false in
/-- The first region over the thread state: entered from every unscoped buffer at `W0`, left at `W1`. Its arrays
    split out of the unscoped buffers and put back at the exit contents; the generator register into the class
    invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at `W5`, left at `W6`. Its arrays
    split out of the unscoped buffers and put back at the exit contents; the generator register and the scoped rest
    make the class invariant, which is the region's invariant before its first point, and after its last point the
    region's invariant gives the class's back; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec1 c ⊢ (pdats m ρ 1 c).Φ 0 from hin1 (V5 m ρ) c)
    unfold Pipeline.ΦA
    iintro ⟨Hp, -, Hr⟩
    isplitl [Hr]; · iexact Hr
    iexact Hp
  hout c := by
    rw [Pipeline.ownSems0_none]
    refine BIBase.Entails.trans (show (pdats m ρ 1 c).Φ (Fin.last _) ⊢ Pipeline.ΦA spec1 c from hout1 (V5 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's seven segments in order: a region per pallas_call, a host segment per stretch from its boundary's contents. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .host (hseg hostOps1_1 hostOps1_1_sub hostOps1_1_fresh (W2 m ρ)),
    .host (hseg hostOps1_2 hostOps1_2_sub hostOps1_2_fresh (W3 m ρ)),
    .host (hseg hostOps1_3 hostOps1_3_sub hostOps1_3_fresh (W4 m ρ)),
    .region (reg1 m ρ),
    .host (hseg hostOps2 hostOps2_sub hostOps2_fresh (W6 m ρ)) ]
/-- @main IS the run of the segments: its chain of items, then the segments' run against that chain. -/
theorem main_run (c : Dev nD) : main (F := F) c = Pipeline.Seg.run (segs m ρ) := (main_chain c).trans (by chain_rfl)

set_option backward.isDefEq.respectTransparency.types false in
/-- THE RUN: from any memory with zero counters, every weakly fair execution of @main on the TensorCores
    terminates, nothing faulting, and every final state has every unscoped buffer at the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => last_state m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-- The frame: every weakly fair execution of @main terminates and leaves both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W7_main_arg0 m ρ c),
     (h c _ (mem_uc main_arg1 (by decide))).trans (W7_main_arg1 m ρ c)⟩) (run_all m ρ)

end Cert.Kernel.Hand

end
-- ==== Proof.FrA.lean ====
/- The coordinate kernel's region (the first pallas_call): one grid point per batch; the point's
   block of the coordinates is loaded whole, the normalized coordinates and the flat voxel index are
   each stored whole. What the two output buffers hold after the body, the region's proof data and
   its body obligation, at any contents `V` of the core's buffers when the region is entered. -/
import proofs.«136429_j63960652972185_1_alg».proof.Proof.Gen.KernelIdeal.Launch
import proofs.«136429_j63960652972185_1_alg».proof.Proof.Gen.KernelIdeal.Skeleton
import proofs.«136429_j63960652972185_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangles the body loads and stores through. -/
abbrev rA3 : Rect S1x3x100000 := Rect.unit (s := S1x3x100000) ![0, 0, 0] S1x3x100000.size inb_S1x3x100000_S1x3x100000_0_0_0
abbrev rA1 : Rect S1x1x100000 := Rect.unit (s := S1x1x100000) ![0, 0, 0] S1x1x100000.size inb_S1x1x100000_S1x1x100000_0_0_0

/-- The normalized coordinates' staging buffer after the body: its one store as a piece. -/
def out0_1 (x0 : Vec F S1x3x100000 .f32) : Vec F S1x3x100000 .f32 :=
  View.canon [⟨rA3, k0_pay3 (View.ld x0 rA3)⟩]

/-- The voxel index's staging buffer after the body: its one store as a piece. -/
def out0_2 (x0 : Vec F S1x3x100000 .f32) : Vec F S1x1x100000 .i32 :=
  View.canon [⟨rA1, k0_pay1 (k0_pay4 (View.ld x0 rA3))⟩]

/-- The rectangles' offsets are all zero. -/
theorem hz3 : (![0, 0, 0] : Fin 3 → Nat) = fun _ => 0 := funext fun a => by fin_cases a <;> rfl

/-- The single whole-buffer piece IS the payload of the block. -/
theorem out0_1_eq (x0 : Vec F S1x3x100000 .f32) : out0_1 x0 = k0_pay3 x0 := by
  unfold out0_1
  rw [View.canon_unit_zero hz3]
  simp only [View.ld_unit_zero (S := S1x3x100000) hz3]

theorem out0_2_eq (x0 : Vec F S1x3x100000 .f32) : out0_2 x0 = k0_pay1 (k0_pay4 x0) := by
  unfold out0_2
  rw [View.canon_unit_zero hz3]
  simp only [View.ld_unit_zero (S := S1x3x100000) hz3]

/-- The one store of each output covers its buffer: every index lies in the whole-buffer rectangle. -/
theorem cover0_1 (p0 : Vec F S1x3x100000 .f32) (y : S1x3x100000.Idx) :
    ∃ pc ∈ ([⟨rA3, p0⟩] : List (View.Piece (Elt F) S1x3x100000 .f32)), y ∈ pc.1.set :=
  ⟨_, List.mem_singleton_self _, View.mem_set_unit_zero hz3 inb_S1x3x100000_S1x3x100000_0_0_0 y⟩

theorem cover0_2 (p0 : Vec F S1x1x100000 .i32) (y : S1x1x100000.Idx) :
    ∃ pc ∈ ([⟨rA1, p0⟩] : List (View.Piece (Elt F) S1x1x100000 .i32)), y ∈ pc.1.set :=
  ⟨_, List.mem_singleton_self _, View.mem_set_unit_zero hz3 inb_S1x1x100000_S1x1x100000_0_0_0 y⟩

/-- The input window's current staging buffer holds its block at every point, fetched there or not, for any
    proof data whose array is `V`'s and whose body leaves the block in place: unfetched, the index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

set_option maxHeartbeats 1000000 in
/-- The body on whole staging memrefs, the input's at contents `x0` and the outputs' at anything, runs to the
    continuation holding the input's as it was and each output's at its payload of `x0`: the body reads each
    output buffer once before its one covering store, and what it read there is not used. -/
theorem sound_kernel0 (c : Dev nD) (E : Set ℕ) (i : grid0.Coords)
    (arg1 : Memref sig .tc .vmem S1x3x100000 .f32) (harg1 : arg1.IsWhole)
    (arg2 : Memref sig .tc .vmem S1x3x100000 .f32) (harg2 : arg2.IsWhole)
    (arg3 : Memref sig .tc .vmem S1x1x100000 .i32) (harg3 : arg3.IsWhole)
    (x0 : Vec F S1x3x100000 .f32) (K : PUnit → sProp 𝕄) :
    iprop(owns (c : Thread nD τ) arg1 fullShare x0 ∗ (∃ d, owns (c : Thread nD τ) arg2 fullShare d)
        ∗ (∃ d, owns (c : Thread nD τ) arg3 fullShare d)
        ∗ (iprop(owns (c : Thread nD τ) arg1 fullShare x0 ∗ owns (c : Thread nD τ) arg2 fullShare (out0_1 x0)
            ∗ owns (c : Thread nD τ) arg3 fullShare (out0_2 x0)) -∗ K ⟨⟩))
      ⊢ wp frame (wpE (defs₀ (F := F)) Variants.none c none) E (cc0__coords_kernel i arg1 harg1 arg2 harg2 arg3 harg3) K := by
  simp only [cc0__coords_kernel_eq_skeleton]; unfold cc0__coords_kernel_skel
  simp only [k0_part1_eq_skeleton]; unfold k0_part1_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover0_1 _)
  iexists _; isplitr
  swap; · iexact H2
  ipureintro
  exact View.read_writes_eq_canon _ _ _ (cover0_2 _)

/-- The region's proof data on core `c`: arrays as found; the input's buffer keeps its block, each
    output's holds the body's payload of the input block; the invariant is the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = out0_2 (iblk0 V c 0 t) := by dsimp only [dat0]

/-- The input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input's memref holds its block, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the region at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.FrB.lean ====
/- The scatter kernel's region (the second pallas_call): grid (batch, voxel tile, point tile), the
   point tile innermost. At a point the body resets the two scratch accumulators when the point
   tile is the first, adds the tile's masked products to them, and when the point tile is the last
   stores the quotient of the sums by the clamped counts into the output block. What the scratch
   buffers hold after each point, the region's proof data, its body obligation and the two ends of
   its invariant, at any contents `V` of the core's buffers when the region is entered. -/
import proofs.«136429_j63960652972185_1_alg».proof.Proof.Gen.KernelIdeal.Launch
import proofs.«136429_j63960652972185_1_alg».proof.Proof.Gen.KernelIdeal.Skeleton
import proofs.«136429_j63960652972185_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions, and where the output window is idle -/

/-- The point tile is the first: the body's first branch is taken. -/
abbrev cond1_0 (i : grid1.Coords) : Prop := (Scalar.cmpi .ne (Scalar.extui (Scalar.cmpi .eq (BitVec.ofNat 32 (i 2).val) 0#32)) 0#32) = 1#1
/-- The point tile is the last: the body's second branch is taken. -/
abbrev cond1_1 (i : grid1.Coords) : Prop := k1_cond2 i = 1#1

/-- The first branch is taken exactly at the positions ≡ 0 (mod 98): the point tile is the position's last coordinate. -/
theorem hcond1_0 : ∀ t : Fin cfg1.N, cond1_0 (grid1.coords t) ↔ t.val % 98 = 0 :=
  (by decide +kernel : ∀ t : Fin grid1.N, cond1_0 (grid1.coords t) ↔ t.val % 98 = 0)
/-- The second branch is taken exactly at the positions ≡ 97 (mod 98). -/
theorem hcond1_1 : ∀ t : Fin cfg1.N, cond1_1 (grid1.coords t) ↔ t.val % 98 = 97 :=
  (by decide +kernel : ∀ t : Fin grid1.N, cond1_1 (grid1.coords t) ↔ t.val % 98 = 97)

/-- The two input windows are never idle. -/
theorem liveAt1_0 (t : Fin cfg1.N) : cfg1.idle 0 (grid1.coords t) = false := rfl
theorem liveAt1_1 (t : Fin cfg1.N) : cfg1.idle 1 (grid1.coords t) = false := rfl
/-- The output window is idle where the second branch is not taken, -/
theorem idleAt1_2 (t : Fin cfg1.N) (h : ¬cond1_1 (grid1.coords t)) : cfg1.idle 2 (grid1.coords t) = true := by
  show (!(k1_cond2 (grid1.coords t) == 1#1)) = true
  rw [Bool.not_eq_true', beq_eq_false_iff_ne]; exact h
/-- live where it is, -/
theorem liveAt1_2 (t : Fin cfg1.N) (h : cond1_1 (grid1.coords t)) : cfg1.idle 2 (grid1.coords t) = false := by
  show (!(k1_cond2 (grid1.coords t) == 1#1)) = false
  rw [Bool.not_eq_false', beq_iff_eq]; exact h
/-- and not written back where it is idle. -/
theorem noFlush1_2 (t : Fin cfg1.N) (h : ¬cond1_1 (grid1.coords t)) : (cfg1.win 2).flush t = false :=
  Bool.eq_false_iff.mpr fun hf => h ((hcond1_1 t).mpr ((flush1_2 t).mp hf))

/-! ## The body on whole buffers, case by case -/
/-- The zero offsets of a whole-buffer rectangle, of rank two and of rank three. -/
theorem sc_hz2 : (![0, 0] : Fin 2 → Nat) = fun _ => 0 := funext fun a => by fin_cases a <;> rfl
theorem sc_hz3 : (![0, 0, 0] : Fin 3 → Nat) = fun _ => 0 := funext fun a => by fin_cases a <;> rfl

section whole
variable {S : Shape} {e : EltTy} (m : Memref sig .tc .vmem S e) (hm : m.IsWhole)

/-- One store over the whole buffer leaves its payload. -/
theorem sc_store1 {off : Fin S.rank → Nat} (hz : off = fun _ => 0) (inb : ∀ a, off a + S.size a ≤ S.size a)
    (f : m.view.ty.Contents (Elt F)) (w : S.Idx → Elt F e) :
    m.view.read (Elt F) (m.view.writes (Elt F) f [(⟨Rect.unit off S.size inb, w⟩ : View.Piece (Elt F) S e)]) = w := by
  rw [View.read_writes_eq_canon _ _ _ (fun y => ⟨_, List.mem_singleton_self _, View.mem_set_unit_zero hz inb y⟩), View.canon_unit_zero hz]

/-- A later store over the whole buffer leaves its payload, whatever was stored before. -/
theorem sc_store2 {off : Fin S.rank → Nat} (hz : off = fun _ => 0) (inb : ∀ a, off a + S.size a ≤ S.size a)
    (f : m.view.ty.Contents (Elt F)) (w : S.Idx → Elt F e) (L : List (View.Piece (Elt F) S e)) :
    m.view.read (Elt F) (m.view.writes (Elt F) f ((⟨Rect.unit off S.size inb, w⟩ : View.Piece (Elt F) S e) :: L)) = w := by
  rw [View.read_writes_eq_canon _ _ _ (fun y => ⟨_, List.mem_cons_self, View.mem_set_unit_zero hz inb y⟩), View.canon_cons_unit_zero hz]

/-- A load of the whole buffer reads its contents. -/
theorem sc_load {off : Fin S.rank → Nat} (hz : off = fun _ => 0) (inb : ∀ a, off a + S.size a ≤ S.size a) (X : S.Idx → Elt F e) :
    m.view.readAt (Elt F) (Rect.unit off S.size inb).toLoadRect (hm.unread X) = X := by
  rw [View.readAt_eq_ld, hm.read_unread, View.ld_unit_zero hz]
end whole

set_option maxHeartbeats 1000000 in
/-- The body at a point whose point tile is neither the first nor the last: on whole buffers, the two inputs at
    their blocks, the output block at anything `xi2` (handed back untouched), the accumulators at what the point
    before left, it leaves the accumulators with this tile's contribution added. -/
theorem kernel1_B (c : Dev nD) (i : grid1.Coords) (arg3 : Memref sig .tc .vmem S1x64x1024 .bf16) (harg3 : arg3.IsWhole) (arg4 : Memref sig .tc .vmem S1x1x1024 .i32) (harg4 : arg4.IsWhole) (arg5 : Memref sig .tc .vmem S1x64x4096 .f32) (harg5 : arg5.IsWhole) (arg6 : Memref sig .tc .vmem S64x4096 .f32) (harg6 : arg6.IsWhole) (arg7 : Memref sig .tc .vmem S1x4096 .f32) (harg7 : arg7.IsWhole) (hc0 : ¬cond1_0 i) (hc1 : ¬cond1_1 i)
    (x0 : Vec F S1x64x1024 .bf16) (x1 : Vec F S1x1x1024 .i32) (xs0 : Vec F S64x4096 .f32) (xs1 : Vec F S1x4096 .f32)
    (xi2 : Vec F S1x64x4096 .f32) (E : Set ℕ) (K : PUnit → sProp 𝕄) :
        iprop(owns (c : Thread nD τ) arg3 fullShare x0 ∗ owns (c : Thread nD τ) arg4 fullShare x1 ∗ owns (c : Thread nD τ) arg5 fullShare xi2 ∗ owns (c : Thread nD τ) arg6 fullShare xs0 ∗ owns (c : Thread nD τ) arg7 fullShare xs1
            ∗ (iprop(owns (c : Thread nD τ) arg3 fullShare x0 ∗ owns (c : Thread nD τ) arg4 fullShare x1 ∗ owns (c : Thread nD τ) arg5 fullShare xi2 ∗ owns (c : Thread nD τ) arg6 fullShare (k1_pay5 i x1 x0 xs0) ∗ owns (c : Thread nD τ) arg7 fullShare (k1_pay6 i x1 xs1)) -∗ K ⟨⟩))
          ⊢ wp frame (wpE (defs₀ (F := F)) Variants.none c none) E (cc1__scatter_kernel i arg3 harg3 arg4 harg4 arg5 harg5 arg6 harg6 arg7 harg7) K := by
    simp only [cc1__scatter_kernel_eq_skeleton]; unfold cc1__scatter_kernel_skel
    simp only [k1_part1_eq_skeleton]
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg3.eq_unread hf0; obtain rfl := harg4.eq_unread hf1; obtain rfl := harg5.eq_unread hf2
    obtain rfl := harg6.eq_unread hfs0; obtain rfl := harg7.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HS0]
    · iexists _; isplitr
      swap; · iexact HS0
      ipureintro
      rw [sc_store1 arg6 sc_hz2, sc_load arg4 harg4 sc_hz3, sc_load arg3 harg3 sc_hz3, sc_load arg6 harg6 sc_hz2]
    iexists _; isplitr
    swap; · iexact HS1
    ipureintro
    rw [sc_store1 arg7 sc_hz2, sc_load arg4 harg4 sc_hz3, sc_load arg7 harg7 sc_hz2]

set_option maxHeartbeats 1000000 in
/-- The body at a point whose point tile is the first: the accumulators, found at anything, are reset to zeros and
    then hold this tile's contribution added to the zeros; the output block is handed back untouched. -/
theorem kernel1_A (c : Dev nD) (i : grid1.Coords) (arg3 : Memref sig .tc .vmem S1x64x1024 .bf16) (harg3 : arg3.IsWhole) (arg4 : Memref sig .tc .vmem S1x1x1024 .i32) (harg4 : arg4.IsWhole) (arg5 : Memref sig .tc .vmem S1x64x4096 .f32) (harg5 : arg5.IsWhole) (arg6 : Memref sig .tc .vmem S64x4096 .f32) (harg6 : arg6.IsWhole) (arg7 : Memref sig .tc .vmem S1x4096 .f32) (harg7 : arg7.IsWhole) (hc0 : cond1_0 i) (hc1 : ¬cond1_1 i)
    (x0 : Vec F S1x64x1024 .bf16) (x1 : Vec F S1x1x1024 .i32)
    (xi2 : Vec F S1x64x4096 .f32) (E : Set ℕ) (K : PUnit → sProp 𝕄) :
        iprop(owns (c : Thread nD τ) arg3 fullShare x0 ∗ owns (c : Thread nD τ) arg4 fullShare x1 ∗ owns (c : Thread nD τ) arg5 fullShare xi2 ∗ (∃ d, owns (c : Thread nD τ) arg6 fullShare d) ∗ (∃ d, owns (c : Thread nD τ) arg7 fullShare d)
            ∗ (iprop(owns (c : Thread nD τ) arg3 fullShare x0 ∗ owns (c : Thread nD τ) arg4 fullShare x1 ∗ owns (c : Thread nD τ) arg5 fullShare xi2 ∗ owns (c : Thread nD τ) arg6 fullShare (k1_pay5 i x1 x0 (k1_pay2 (F := F))) ∗ owns (c : Thread nD τ) arg7 fullShare (k1_pay6 i x1 (k1_pay3 (F := F)))) -∗ K ⟨⟩))
          ⊢ wp frame (wpE (defs₀ (F := F)) Variants.none c none) E (cc1__scatter_kernel i arg3 harg3 arg4 harg4 arg5 harg5 arg6 harg6 arg7 harg7) K := by
    simp only [cc1__scatter_kernel_eq_skeleton]; unfold cc1__scatter_kernel_skel
    simp only [k1_part1_eq_skeleton]
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HS0]
    · iexists _; isplitr
      swap; · iexact HS0
      ipureintro
      sl_unfold_words
      rw [sc_store2 arg6 sc_hz2, sc_load arg4 harg4 sc_hz3, sc_load arg3 harg3 sc_hz3, View.readCov_unit_zero (S := S64x4096) _ sc_hz2]
    iexists _; isplitr
    swap; · iexact HS1
    ipureintro
    sl_unfold_words
    rw [sc_store2 arg7 sc_hz2, sc_load arg4 harg4 sc_hz3, View.readCov_unit_zero (S := S1x4096) _ sc_hz2]

set_option maxHeartbeats 1000000 in
/-- The body at a point whose point tile is the last: the accumulators get this tile's contribution, and the output
    block, found at anything, is stored whole with the quotient of the new sums by the clamped new counts. -/
theorem kernel1_C (c : Dev nD) (i : grid1.Coords) (arg3 : Memref sig .tc .vmem S1x64x1024 .bf16) (harg3 : arg3.IsWhole) (arg4 : Memref sig .tc .vmem S1x1x1024 .i32) (harg4 : arg4.IsWhole) (arg5 : Memref sig .tc .vmem S1x64x4096 .f32) (harg5 : arg5.IsWhole) (arg6 : Memref sig .tc .vmem S64x4096 .f32) (harg6 : arg6.IsWhole) (arg7 : Memref sig .tc .vmem S1x4096 .f32) (harg7 : arg7.IsWhole) (hc0 : ¬cond1_0 i) (hc1 : cond1_1 i)
    (x0 : Vec F S1x64x1024 .bf16) (x1 : Vec F S1x1x1024 .i32) (xs0 : Vec F S64x4096 .f32) (xs1 : Vec F S1x4096 .f32)
    (E : Set ℕ) (K : PUnit → sProp 𝕄) :
        iprop(owns (c : Thread nD τ) arg3 fullShare x0 ∗ owns (c : Thread nD τ) arg4 fullShare x1 ∗ (∃ d, owns (c : Thread nD τ) arg5 fullShare d) ∗ owns (c : Thread nD τ) arg6 fullShare xs0 ∗ owns (c : Thread nD τ) arg7 fullShare xs1
            ∗ (iprop(owns (c : Thread nD τ) arg3 fullShare x0 ∗ owns (c : Thread nD τ) arg4 fullShare x1 ∗ owns (c : Thread nD τ) arg5 fullShare (k1_pay1 (k1_pay5 i x1 x0 xs0) (k1_pay6 i x1 xs1)) ∗ owns (c : Thread nD τ) arg6 fullShare (k1_pay5 i x1 x0 xs0) ∗ owns (c : Thread nD τ) arg7 fullShare (k1_pay6 i x1 xs1)) -∗ K ⟨⟩))
          ⊢ wp frame (wpE (defs₀ (F := F)) Variants.none c none) E (cc1__scatter_kernel i arg3 harg3 arg4 harg4 arg5 harg5 arg6 harg6 arg7 harg7) K := by
    simp only [cc1__scatter_kernel_eq_skeleton]; unfold cc1__scatter_kernel_skel
    simp only [k1_part1_eq_skeleton]
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg3.eq_unread hf0; obtain rfl := harg4.eq_unread hf1
    obtain rfl := harg6.eq_unread hfs0; obtain rfl := harg7.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr
      swap; · iexact H2
      ipureintro
      sl_unfold_words
      rw [sc_store1 (S := S1x64x4096) arg5 sc_hz3, View.readCov_unit_zero (S := S64x4096) _ sc_hz2, View.readCov_unit_zero (S := S1x4096) _ sc_hz2, sc_load arg4 harg4 sc_hz3, sc_load arg3 harg3 sc_hz3, sc_load arg6 harg6 sc_hz2, sc_load arg7 harg7 sc_hz2]
    isplitl [HS0]
    · iexists _; isplitr
      swap; · iexact HS0
      ipureintro
      sl_unfold_words
      rw [sc_store1 arg6 sc_hz2, sc_load arg4 harg4 sc_hz3, sc_load arg3 harg3 sc_hz3, sc_load arg6 harg6 sc_hz2]
    iexists _; isplitr
    swap; · iexact HS1
    ipureintro
    sl_unfold_words
    rw [sc_store1 arg7 sc_hz2, sc_load arg4 harg4 sc_hz3, sc_load arg7 harg7 sc_hz2]

/-! ## What the region holds, at any contents of the core's buffers when it is entered -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The two accumulators (sums, counts) after the body at position `n` of the grid: at the first
    point tile of a (batch, voxel tile) the tile's contribution added to zeros, elsewhere added to
    what the position before left. -/
def accAt (c : Dev nD) : (n : ℕ) → n < cfg1.N → Vec F S64x4096 .f32 × Vec F S1x4096 .f32
  | 0, hn =>
    (k1_pay5 (grid1.coords ⟨0, hn⟩) (iblk1 V c 1 ⟨0, hn⟩) (iblk1 V c 0 ⟨0, hn⟩) (k1_pay2 (F := F)),
     k1_pay6 (grid1.coords ⟨0, hn⟩) (iblk1 V c 1 ⟨0, hn⟩) (k1_pay3 (F := F)))
  | n + 1, hn =>
    if (n + 1) % 98 = 0 then
      (k1_pay5 (grid1.coords ⟨n + 1, hn⟩) (iblk1 V c 1 ⟨n + 1, hn⟩) (iblk1 V c 0 ⟨n + 1, hn⟩) (k1_pay2 (F := F)),
       k1_pay6 (grid1.coords ⟨n + 1, hn⟩) (iblk1 V c 1 ⟨n + 1, hn⟩) (k1_pay3 (F := F)))
    else
      (k1_pay5 (grid1.coords ⟨n + 1, hn⟩) (iblk1 V c 1 ⟨n + 1, hn⟩) (iblk1 V c 0 ⟨n + 1, hn⟩) (accAt c n (Nat.lt_of_succ_lt hn)).1,
       k1_pay6 (grid1.coords ⟨n + 1, hn⟩) (iblk1 V c 1 ⟨n + 1, hn⟩) (accAt c n (Nat.lt_of_succ_lt hn)).2)

/-- `accAt` at a point whose point tile is the first: the contribution over zeros. -/
theorem accAt_first (c : Dev nD) (t : Fin cfg1.N) (h : t.val % 98 = 0) :
    accAt V c t.val t.isLt =
      (k1_pay5 (grid1.coords t) (iblk1 V c 1 t) (iblk1 V c 0 t) (k1_pay2 (F := F)),
       k1_pay6 (grid1.coords t) (iblk1 V c 1 t) (k1_pay3 (F := F))) := by
  obtain ⟨n, hn⟩ := t
  cases n with
  | zero => exact rfl
  | succ n => exact (if_pos h).trans rfl

/-- `accAt` at any other point: the contribution over what the point before left. -/
theorem accAt_next (c : Dev nD) (t : Fin cfg1.N) (h : ¬ t.val % 98 = 0) :
    accAt V c t.val t.isLt =
      (k1_pay5 (grid1.coords t) (iblk1 V c 1 t) (iblk1 V c 0 t) (accAt V c (t.val - 1) (Nat.lt_of_le_of_lt (Nat.sub_le _ _) t.isLt)).1,
       k1_pay6 (grid1.coords t) (iblk1 V c 1 t) (accAt V c (t.val - 1) (Nat.lt_of_le_of_lt (Nat.sub_le _ _) t.isLt)).2) := by
  obtain ⟨n, hn⟩ := t
  cases n with
  | zero => exact absurd (Nat.zero_mod _) h
  | succ n => exact (if_neg h).trans rfl

/-- What the output block's staging buffer holds after the body at a point whose point tile is the
    last (elsewhere the body stores nothing there and the value is not consulted). -/
def out1_2 (c : Dev nD) (t : Fin cfg1.N) : Vec F S1x64x4096 .f32 :=
  k1_pay1 (accAt V c t.val t.isLt).1 (accAt V c t.val t.isLt).2

/-- The scratch operands, whole. -/
abbrev scM0 : Memref sig .tc .vmem S64x4096 .f32 := Memref.whole cc1_scratch0
abbrev scM1 : Memref sig .tc .vmem S1x4096 .f32 := Memref.whole cc1_scratch1

/-- The scoped buffers of the core that are neither this region's staging buffers nor its scratch, each at some contents. -/
def otherScoped (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))

/-- The region's invariant before position `n`: before the first point the class's (every scoped
    buffer that is no staging buffer at anything, the generator register at some state); afterwards
    the two accumulators at what the position before left. -/
def PhiS (c : Dev nD) : (n : ℕ) → n ≤ cfg1.N → sProp 𝕄
  | 0, _ => Pipeline.ΦA spec1 c
  | n + 1, hn => iprop(iprop(otherScoped (F := F) c ∗ owns (c : Thread nD τ) scM0 fullShare (accAt V c n hn).1 ∗ owns (c : Thread nD τ) scM1 fullShare (accAt V c n hn).2) ∗ (∃ r, prngReg c r))

/-- The region's proof data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 V c t
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 V c t := by dsimp only [dat1]

/-! ## The invariant, position by position -/

theorem PhiS_zero (c : Dev nD) (n : ℕ) (h : n ≤ cfg1.N) (hz : n = 0) : PhiS V c n h = Pipeline.ΦA spec1 c := by
  subst hz; rfl

/-- After position `n`: the accumulators at that position's contents. -/
theorem PhiS_succ (c : Dev nD) (n : ℕ) (hn : n < cfg1.N) :
    PhiS V c (n + 1) hn = iprop(iprop(otherScoped (F := F) c ∗ owns (c : Thread nD τ) scM0 fullShare (accAt V c n hn).1 ∗ owns (c : Thread nD τ) scM1 fullShare (accAt V c n hn).2) ∗ (∃ r, prngReg c r)) := rfl

/-- Before a position that is not the first: the accumulators at what the position before left. -/
theorem PhiS_pos (c : Dev nD) (n : ℕ) (h : n ≤ cfg1.N) (hz : n ≠ 0) :
    PhiS V c n h = iprop(iprop(otherScoped (F := F) c ∗ owns (c : Thread nD τ) scM0 fullShare (accAt V c (n - 1) (by omega)).1 ∗ owns (c : Thread nD τ) scM1 fullShare (accAt V c (n - 1) (by omega)).2) ∗ (∃ r, prngReg c r)) := by
  cases n with
  | zero => exact absurd rfl hz
  | succ n => rfl

theorem PhiS_castSucc (c : Dev nD) (t : Fin cfg1.N) :
    (dat1 V c).Φ t.castSucc = PhiS V c t.val (Nat.le_of_lt t.isLt) := by
  dsimp only [dat1]; simp only [Fin.coe_castSucc]

/-- What the region is entered with, its scoped buffers listed: the other region's six staging buffers and the
    two accumulators, each at some contents, and the generator register at some state. -/
theorem PhiA1_split (c : Dev nD) :
    (Pipeline.ΦA spec1 c : sProp 𝕄) ⊢ iprop(iprop(otherScoped (F := F) c ∗ (∃ d, owns (c : Thread nD τ) scM0 fullShare d) ∗ (∃ d, owns (c : Thread nD τ) scM1 fullShare d)) ∗ (∃ r, prngReg c r)) := by
  unfold Pipeline.ΦA; rw [scopedRest1_eq]; unfold otherScoped; simp only [scM0, scM1, owns_whole]
  iintro ⟨⟨H1, H2, H3, H4, H5, H6, HS0, HS1⟩, Hg⟩
  isplitr [Hg]
  · isplitr [HS0 HS1]
    · isplitl [H1]; · iexact H1
      isplitl [H2]; · iexact H2
      isplitl [H3]; · iexact H3
      isplitl [H4]; · iexact H4
      isplitl [H5]; · iexact H5
      iexact H6
    isplitl [HS0]; · iexact HS0
    iexact HS1
  iexact Hg

/-- And back. -/
theorem PhiA1_join (c : Dev nD) :
    iprop(iprop(otherScoped (F := F) c ∗ (∃ d, owns (c : Thread nD τ) scM0 fullShare d) ∗ (∃ d, owns (c : Thread nD τ) scM1 fullShare d)) ∗ (∃ r, prngReg c r)) ⊢ (Pipeline.ΦA spec1 c : sProp 𝕄) := by
  unfold Pipeline.ΦA; rw [scopedRest1_eq]; unfold otherScoped; simp only [scM0, scM1, owns_whole]
  iintro ⟨⟨⟨H1, H2, H3, H4, H5, H6⟩, HS0, HS1⟩, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [HS0]; · iexact HS0
    iexact HS1
  iexact Hg

/-! ## The body obligation -/

/-- Each input's current staging buffer holds its block at every point, fetched there or not: an input window is
    never idle and the body leaves its block in place. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

/-- Each window's current staging memref at point `t`, as the pipeline passes it to the body, and its wholeness. -/
abbrev ms1_0 (t : Fin cfg1.N) : Memref sig .tc .vmem S1x64x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1x1024 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x64x4096 .f32 := win1_2.stage (cfg1.slots t 2)
abbrev hs1_2 (t : Fin cfg1.N) : (ms1_2 t).IsWhole := hstage1_2 ((cfg1.slots t 2).cast nbuf1_2)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The inputs' buffers hold their blocks; the position's residue mod 98 says which of the
    three cases the point is in. The invariant hands the body the accumulators at what the position before left
    (at anything before the first position, which is of the resetting case) and takes them back at this position's
    contents; where the output window is idle its buffer goes back as it came, at the last point tile it is left at
    the quotient of this position's accumulators. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  have hN : t.val < 6272 := lt_of_lt_of_eq t.isLt (show cfg1.N = 6272 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 98 = 0
  · have h1 : ¬t.val % 98 = 97 := by omega
    have hc0 : cond1_0 (grid1.coords t) := (hcond1_0 t).mpr h0
    have hc1 : ¬cond1_1 (grid1.coords t) := fun h => h1 ((hcond1_1 t).mp h)
    rw [Dat.leavesExact_idle (dat1 V c) 2 t (idleAt1_2 t hc1) (noFlush1_2 t hc1)]
    rw [accAt_first V c t h0]; dsimp only
    by_cases hz : t.val = 0
    · rw [PhiS_castSucc V c t, PhiS_zero V c _ _ hz]
      iintro ⟨HP, Ho, ⟨%d0, H0⟩, ⟨%d1, H1⟩, ⟨%d2, H2⟩⟩
      ihave HP' := (PhiA1_split c) $$ HP
      icases HP' with ⟨⟨Hoth, HS0, HS1⟩, Hg⟩
      iapply (kernel1_A c (grid1.coords t) _ (hs1_0 t) _ (hs1_1 t) _ (hs1_2 t) _ _ _ _ hc0 hc1 (iblk1 V c 0 t) (iblk1 V c 1 t) _ Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [Hoth HS0 HS1 Hg]
      · isplitr [Hg]
        · isplitl [Hoth]; · iexact Hoth
          isplitl [HS0]; · iexact HS0
          iexact HS1
        iexact Hg
      isplitl [Ho]; · iexact Ho
      isplitl [H0]; · iexact H0
      isplitl [H1]; · iexact H1
      iexists _; iexact H2
    · rw [PhiS_castSucc V c t, PhiS_pos V c _ _ hz]
      iintro ⟨⟨⟨Hoth, HS0, HS1⟩, Hg⟩, Ho, ⟨%d0, H0⟩, ⟨%d1, H1⟩, ⟨%d2, H2⟩⟩
      iapply (kernel1_A c (grid1.coords t) _ (hs1_0 t) _ (hs1_1 t) _ (hs1_2 t) _ _ _ _ hc0 hc1 (iblk1 V c 0 t) (iblk1 V c 1 t) _ Set.univ _)
      isplitl [H0]; · iexact H0
      isplitl [H1]; · iexact H1
      isplitl [H2]; · iexact H2
      isplitl [HS0]; · iexists _; iexact HS0
      isplitl [HS1]; · iexists _; iexact HS1
      iintro ⟨H0, H1, H2, HS0, HS1⟩
      isplitl [Hoth HS0 HS1 Hg]
      · isplitr [Hg]
        · isplitl [Hoth]; · iexact Hoth
          isplitl [HS0]; · iexact HS0
          iexact HS1
        iexact Hg
      isplitl [Ho]; · iexact Ho
      isplitl [H0]; · iexact H0
      isplitl [H1]; · iexact H1
      iexists _; iexact H2
  · have hz : t.val ≠ 0 := fun h => h0 (by rw [h])
    have hc0 : ¬cond1_0 (grid1.coords t) := fun h => h0 ((hcond1_0 t).mp h)
    rw [accAt_next V c t h0]; dsimp only
    rw [PhiS_castSucc V c t, PhiS_pos V c _ _ hz]
    by_cases h1 : t.val % 98 = 97
    · have hc1 : cond1_1 (grid1.coords t) := (hcond1_1 t).mpr h1
      rw [show (dat1 V c).leavesExact 2 t = owns (c : Thread nD τ) (ms1_2 t) fullShare ((dat1 V c).after 2 t) from by
        unfold Dat.leavesExact; rw [liveAt1_2 t hc1], after1_2]
      unfold out1_2
      rw [accAt_next V c t h0]; dsimp only
      iintro ⟨⟨⟨Hoth, HS0, HS1⟩, Hg⟩, Ho, ⟨%d0, H0⟩, ⟨%d1, H1⟩, ⟨%d2, H2⟩⟩
      iapply (kernel1_C c (grid1.coords t) _ (hs1_0 t) _ (hs1_1 t) _ (hs1_2 t) _ _ _ _ hc0 hc1 (iblk1 V c 0 t) (iblk1 V c 1 t) _ _ Set.univ _)
      isplitl [H0]; · iexact H0
      isplitl [H1]; · iexact H1
      isplitl [H2]; · iexists _; iexact H2
      isplitl [HS0]; · iexact HS0
      isplitl [HS1]; · iexact HS1
      iintro ⟨H0, H1, H2, HS0, HS1⟩
      isplitl [Hoth HS0 HS1 Hg]
      · isplitr [Hg]
        · isplitl [Hoth]; · iexact Hoth
          isplitl [HS0]; · iexact HS0
          iexact HS1
        iexact Hg
      isplitl [Ho]; · iexact Ho
      isplitl [H0]; · iexact H0
      isplitl [H1]; · iexact H1
      iexact H2
    · have hc1 : ¬cond1_1 (grid1.coords t) := fun h => h1 ((hcond1_1 t).mp h)
      rw [Dat.leavesExact_idle (dat1 V c) 2 t (idleAt1_2 t hc1) (noFlush1_2 t hc1)]
      iintro ⟨⟨⟨Hoth, HS0, HS1⟩, Hg⟩, Ho, ⟨%d0, H0⟩, ⟨%d1, H1⟩, ⟨%d2, H2⟩⟩
      iapply (kernel1_B c (grid1.coords t) _ (hs1_0 t) _ (hs1_1 t) _ (hs1_2 t) _ _ _ _ hc0 hc1 (iblk1 V c 0 t) (iblk1 V c 1 t) _ _ _ Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [Hoth HS0 HS1 Hg]
      · isplitr [Hg]
        · isplitl [Hoth]; · iexact Hoth
          isplitl [HS0]; · iexact HS0
          iexact HS1
        iexact Hg
      isplitl [Ho]; · iexact Ho
      isplitl [H0]; · iexact H0
      isplitl [H1]; · iexact H1
      iexists _; iexact H2

/-- The body obligation of the region at every point. -/
theorem body_obligation1 (c : Dev nD) : BodyObligation (dat1 (F := F) V c) (defs₀ (F := F)) Variants.none () Set.univ := by
  intro t
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]

/-- After the last point the invariant gives the class's back: the accumulators' named contents are forgotten. -/
theorem hout1 (c : Dev nD) : (dat1 V c).Φ (Fin.last cfg1.N) ⊢ Pipeline.ΦA spec1 c := by
  have hN : (Fin.last cfg1.N).val ≠ 0 := by rw [Fin.val_last]; have : cfg1.N = 6272 := N_1; omega
  rw [show (dat1 V c).Φ (Fin.last cfg1.N) = PhiS V c (Fin.last cfg1.N).val (Nat.le_of_lt_succ (Fin.last cfg1.N).isLt) from rfl, PhiS_pos V c _ _ hN]
  refine BIBase.Entails.trans ?_ (PhiA1_join c)
  iintro ⟨⟨Hoth, HS0, HS1⟩, Hg⟩
  isplitr [Hg]
  · isplitl [Hoth]; · iexact Hoth
    isplitl [HS0]; · iexists _; iexact HS0
    iexists _; iexact HS1
  iexact Hg

end Cert.KernelIdeal.Hand

end
-- ==== Proof.Run.lean ====
/- The run of @main: the coordinate kernel's region, four stretches of host operations (the features
   cast to bf16 and padded, the voxel index padded), the scatter kernel's region, and the closing
   reshape. The contents of the core's buffers at every boundary between two of these, as a fold
   from the launch memory; the argument arrays read back through the fold to their launch contents;
   each result buffer read back to the region or host operation that wrote it; and the run itself:
   every weakly fair execution of @main terminates and ends with every unscoped buffer at the last
   boundary's contents. -/
import proofs.«136429_j63960652972185_1_alg».proof.Proof.FrA
import proofs.«136429_j63960652972185_1_alg».proof.Proof.FrB
import proofs.«136429_j63960652972185_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through @main -/

/-- Core `c`'s buffers at launch (the first region's entry). -/
abbrev W0 : Dev nD → Valuation τ sig (Elt F) := fun c b => (s₀ m ρ).mem ((c : Dev nD), b)
/-- The same read at the TensorCore's references (what the first region's proof data take). -/
abbrev V0 : (c : Dev nD) → (b : Ref sig .tc) → Buf (Elt F) ((c : Thread nD τ).loc b) := fun c b => W0 m ρ c b
/-- At the first region's exit: its arrays at what the pipeline leaves (the input as entered, each output's
    write-backs folded), every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references (the first region's exit contents). -/
abbrev V1 : (c : Dev nD) → (b : Ref sig .tc) → Buf (Elt F) ((c : Thread nD τ).loc b) := fun c b => W1 m ρ c b
/-- At the first region's exit each of its arrays holds what the pipeline leaves, and every other buffer what it
    held at entry. -/
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the features' cast and the pad value's constant, -/
abbrev W2 : Dev nD → Valuation τ sig (Elt F) := fun c => StableHlo.after hostOps1 (W1 m ρ c)
/-- after the features' pad, -/
abbrev W3 : Dev nD → Valuation τ sig (Elt F) := fun c => StableHlo.after hostOps1_1 (W2 m ρ c)
/-- after the index pad value's constant, -/
abbrev W4 : Dev nD → Valuation τ sig (Elt F) := fun c => StableHlo.after hostOps1_2 (W3 m ρ c)
/-- after the voxel index's pad (the second region's entry). -/
abbrev W5 : Dev nD → Valuation τ sig (Elt F) := fun c => StableHlo.after hostOps1_3 (W4 m ρ c)
/-- The same read at the TensorCore's references (what the second region's proof data take). -/
abbrev V5 : (c : Dev nD) → (b : Ref sig .tc) → Buf (Elt F) ((c : Thread nD τ).loc b) := fun c b => W5 m ρ c b
/-- At the second region's exit: its arrays at what the pipeline leaves, every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
/-- The same read at the TensorCore's references (the second region's exit contents). -/
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)
/-- After the closing reshape (what the launch reads at the end). -/
abbrev W7 : Dev nD → Valuation τ sig (Elt F) := fun c => StableHlo.after hostOps2 (W6 m ρ c)

/-! ## What each stretch leaves unchanged -/

theorem W2_of (c : Dev nD) (r : Ref sig .tc) (h : r ∉ hostOps1_W) : W2 m ρ c (Proc.devRef .tc r) = W1 m ρ c (Proc.devRef .tc r) :=
  StableHlo.after_of_writes_sub hostOps1 _ hostOps1_writes h
theorem W3_of (c : Dev nD) (r : Ref sig .tc) (h : r ∉ hostOps1_1_W) : W3 m ρ c (Proc.devRef .tc r) = W2 m ρ c (Proc.devRef .tc r) :=
  StableHlo.after_of_writes_sub hostOps1_1 _ hostOps1_1_writes h
theorem W4_of (c : Dev nD) (r : Ref sig .tc) (h : r ∉ hostOps1_2_W) : W4 m ρ c (Proc.devRef .tc r) = W3 m ρ c (Proc.devRef .tc r) :=
  StableHlo.after_of_writes_sub hostOps1_2 _ hostOps1_2_writes h
theorem W5_of (c : Dev nD) (r : Ref sig .tc) (h : r ∉ hostOps1_3_W) : W5 m ρ c (Proc.devRef .tc r) = W4 m ρ c (Proc.devRef .tc r) :=
  StableHlo.after_of_writes_sub hostOps1_3 _ hostOps1_3_writes h
theorem W7_of (c : Dev nD) (r : Ref sig .tc) (h : r ∉ hostOps2_W) : W7 m ρ c (Proc.devRef .tc r) = W6 m ρ c (Proc.devRef .tc r) :=
  StableHlo.after_of_writes_sub hostOps2 _ hostOps2_writes h

/-! ## The arguments end as launched -/

/-- No host operation writes the features and no region has them as a window. -/
theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := W7_of m ρ c main_arg0 (by decide)
    _ = W5 m ρ c (Proc.devRef .tc main_arg0) := W6_of_ne m ρ c main_arg0 (by decide)
    _ = W4 m ρ c (Proc.devRef .tc main_arg0) := W5_of m ρ c main_arg0 (by decide)
    _ = W3 m ρ c (Proc.devRef .tc main_arg0) := W4_of m ρ c main_arg0 (by decide)
    _ = W2 m ρ c (Proc.devRef .tc main_arg0) := W3_of m ρ c main_arg0 (by decide)
    _ = W1 m ρ c (Proc.devRef .tc main_arg0) := W2_of m ρ c main_arg0 (by decide)
    _ = W0 m ρ c (Proc.devRef .tc main_arg0) := W1_of_ne m ρ c main_arg0 (by decide)
    _ = m ((c : Thread nD τ).loc main_arg0) := rfl

/-- No host operation writes the coordinates; the first region reads them through an input window, whose array
    the pipeline leaves as entered. -/
theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := W7_of m ρ c main_arg1 (by decide)
    _ = W5 m ρ c (Proc.devRef .tc main_arg1) := W6_of_ne m ρ c main_arg1 (by decide)
    _ = W4 m ρ c (Proc.devRef .tc main_arg1) := W5_of m ρ c main_arg1 (by decide)
    _ = W3 m ρ c (Proc.devRef .tc main_arg1) := W4_of m ρ c main_arg1 (by decide)
    _ = W2 m ρ c (Proc.devRef .tc main_arg1) := W3_of m ρ c main_arg1 (by decide)
    _ = W1 m ρ c (Proc.devRef .tc main_arg1) := W2_of m ρ c main_arg1 (by decide)
    _ = W0 m ρ c (Proc.devRef .tc main_arg1) := (W1_arr m ρ c 0).trans (((dat0 (V0 m ρ) c).arrAt_in 0 rfl _).trans (A_eq0 (V0 m ρ) c 0))
    _ = m ((c : Thread nD τ).loc main_arg1) := rfl

/-! ## The results, read back to what wrote them -/

/-- The normalized coordinates: the first region's first output array, untouched afterwards. -/
theorem W7_main_v0_0 (c : Dev nD) : W7 m ρ c (Proc.devRef .tc main_v0_0) = (dat0 (V0 m ρ) c).arrAt 1 cfg0.N :=
  calc W7 m ρ c (Proc.devRef .tc main_v0_0)
    _ = W6 m ρ c (Proc.devRef .tc main_v0_0) := W7_of m ρ c main_v0_0 (by decide)
    _ = W5 m ρ c (Proc.devRef .tc main_v0_0) := W6_of_ne m ρ c main_v0_0 (by decide)
    _ = W4 m ρ c (Proc.devRef .tc main_v0_0) := W5_of m ρ c main_v0_0 (by decide)
    _ = W3 m ρ c (Proc.devRef .tc main_v0_0) := W4_of m ρ c main_v0_0 (by decide)
    _ = W2 m ρ c (Proc.devRef .tc main_v0_0) := W3_of m ρ c main_v0_0 (by decide)
    _ = W1 m ρ c (Proc.devRef .tc main_v0_0) := W2_of m ρ c main_v0_0 (by decide)
    _ = (dat0 (V0 m ρ) c).arrAt 1 cfg0.N := W1_arr m ρ c 1

/-- The voxel index when the second region is entered: the first region's second output array. -/
theorem W5_main_v0_1 (c : Dev nD) : W5 m ρ c (Proc.devRef .tc main_v0_1) = (dat0 (V0 m ρ) c).arrAt 2 cfg0.N :=
  calc W5 m ρ c (Proc.devRef .tc main_v0_1)
    _ = W4 m ρ c (Proc.devRef .tc main_v0_1) := W5_of m ρ c main_v0_1 (by decide)
    _ = W3 m ρ c (Proc.devRef .tc main_v0_1) := W4_of m ρ c main_v0_1 (by decide)
    _ = W2 m ρ c (Proc.devRef .tc main_v0_1) := W3_of m ρ c main_v0_1 (by decide)
    _ = W1 m ρ c (Proc.devRef .tc main_v0_1) := W2_of m ρ c main_v0_1 (by decide)
    _ = (dat0 (V0 m ρ) c).arrAt 2 cfg0.N := W1_arr m ρ c 2

/-- The bf16 features after the first stretch: the launch features cast. -/
theorem W2_main_v1 (c : Dev nD) :
    (W2 m ρ c (Proc.devRef .tc main_v1) : Vec F S8x64x100000 .bf16) = truncf .bf16 (m ((c.tc : Thread nD τ).loc main_arg0)) bitsLt_bf16_f32 := by
  have e : W1 m ρ c (Proc.devRef .tc main_arg0) = m ((c.tc : Thread nD τ).loc main_arg0) :=
    (W1_of_ne m ρ c main_arg0 (by decide)).trans rfl
  show StableHlo.after hostOps1 _ (Proc.devRef .tc main_v1) = _
  after_results
  rw [e]

/-- The features' pad value's integer constant after the first stretch. -/
theorem W2_main_c (c : Dev nD) : (W2 m ρ c (Proc.devRef .tc main_c) : IVec S_ 32) = constantI S_ 32 0#32 := by
  show StableHlo.after hostOps1 _ (Proc.devRef .tc main_c) = _
  after_results

/-- The second region's first input array: the bf16 features padded with zeros along the points. -/
theorem V5_main_v2 (c : Dev nD) : V5 m ρ c main_v2 = pad S8x64x100352 ![0, 0, 0] ![0, 0, 352] ![0, 0, 0] (truncf .bf16 (m ((c.tc : Thread nD τ).loc main_arg0)) bitsLt_bf16_f32) (sitofp .bf16 (constantI S_ 32 0#32)) pads_S8x64x100000_S8x64x100352_000_000_03520 h_S_ := by
  have e3 : W3 m ρ c (Proc.devRef .tc main_v2) = pad S8x64x100352 ![0, 0, 0] ![0, 0, 352] ![0, 0, 0] (W2 m ρ c (Proc.devRef .tc main_v1) : Vec F S8x64x100000 .bf16) (sitofp .bf16 (W2 m ρ c (Proc.devRef .tc main_c) : IVec S_ 32)) pads_S8x64x100000_S8x64x100352_000_000_03520 h_S_ := by
    show StableHlo.after hostOps1_1 _ (Proc.devRef .tc main_v2) = _
    after_results
    rfl
  calc V5 m ρ c main_v2
    _ = W4 m ρ c (Proc.devRef .tc main_v2) := W5_of m ρ c main_v2 (by decide)
    _ = W3 m ρ c (Proc.devRef .tc main_v2) := W4_of m ρ c main_v2 (by decide)
    _ = _ := by rw [e3, W2_main_v1, W2_main_c]

/-- The index's pad value's constant after the third stretch. -/
theorem W4_main_c_0 (c : Dev nD) : (W4 m ρ c (Proc.devRef .tc main_c_0) : IVec S_ 32) = constantI S_ 32 4294967295#32 := by
  show StableHlo.after hostOps1_2 _ (Proc.devRef .tc main_c_0) = _
  after_results

/-- The second region's second input array: the voxel index padded with −1 along the points. -/
theorem V5_main_v3 (c : Dev nD) : V5 m ρ c main_v3 = pad S8x1x100352 ![0, 0, 0] ![0, 0, 352] ![0, 0, 0] ((dat0 (V0 m ρ) c).arrAt 2 cfg0.N) (constantI S_ 32 4294967295#32) pads_S8x1x100000_S8x1x100352_000_000_03520 h_S_ := by
  have e4 : W4 m ρ c (Proc.devRef .tc main_v0_1) = (dat0 (V0 m ρ) c).arrAt 2 cfg0.N :=
    calc W4 m ρ c (Proc.devRef .tc main_v0_1)
      _ = W3 m ρ c (Proc.devRef .tc main_v0_1) := W4_of m ρ c main_v0_1 (by decide)
      _ = W2 m ρ c (Proc.devRef .tc main_v0_1) := W3_of m ρ c main_v0_1 (by decide)
      _ = W1 m ρ c (Proc.devRef .tc main_v0_1) := W2_of m ρ c main_v0_1 (by decide)
      _ = (dat0 (V0 m ρ) c).arrAt 2 cfg0.N := W1_arr m ρ c 2
  have e5 : W5 m ρ c (Proc.devRef .tc main_v3) = pad S8x1x100352 ![0, 0, 0] ![0, 0, 352] ![0, 0, 0] (W4 m ρ c (Proc.devRef .tc main_v0_1) : IVec S8x1x100000 32) (W4 m ρ c (Proc.devRef .tc main_c_0) : IVec S_ 32) pads_S8x1x100000_S8x1x100352_000_000_03520 h_S_ := by
    show StableHlo.after hostOps1_3 _ (Proc.devRef .tc main_v3) = _
    after_results
    rfl
  show W5 m ρ c (Proc.devRef .tc main_v3) = _
  rw [e5, W4_main_c_0, e4]

/-- The scattered features: the second region's output array, reshaped to the voxel grid. -/
theorem W7_main_v5 (c : Dev nD) : W7 m ρ c (Proc.devRef .tc main_v5) = shapeCast S8x64x32x32x32 ((dat1 (V5 m ρ) c).arrAt 2 cfg1.N) shapeCasts_S8x64x32768_S8x64x32x32x32 := by
  have e6 : W6 m ρ c (Proc.devRef .tc main_v4) = (dat1 (V5 m ρ) c).arrAt 2 cfg1.N := W6_arr m ρ c 2
  show StableHlo.after hostOps2 _ (Proc.devRef .tc main_v5) = _
  after_results
  rw [e6]
  rfl

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    debts, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it is left
    with those references at the contents the stretch's operations make of `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last boundary's contents, the generator
    register at some state. -/
abbrev Tₙ (c : Dev nD) : sProp 𝕄 := iprop(StableHlo.held (c : Thread nD τ) (Pipeline.ucRefs τ sig) (W7 m ρ c) ∗ ∃ r, prngReg c r)

/-- The state the last stretch leaves IS the last thread state beside the core's debts, regrouped. -/
theorem last_state (c : Dev nD) :
    iprop(StableHlo.held (c : Thread nD τ) (Pipeline.ucRefs τ sig) (W7 m ρ c) ∗ R c)
      ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

/-! ## The regions as segments -/

set_option backward.isDefEq.respectTransparency.types false in
/-- The first region over the thread state: entered from every unscoped buffer at `W0`, left at `W1`. Its arrays
    split out of the unscoped buffers and put back at the exit contents; the generator register into the class
    invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at `W5`, left at `W6`. Its arrays
    split out of the unscoped buffers and put back at the exit contents; the generator register and the scoped rest
    make the class invariant, which is the region's invariant before its first point, and after its last point the
    region's invariant gives the class's back; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec1 c ⊢ (pdats m ρ 1 c).Φ 0 from hin1 (V5 m ρ) c)
    unfold Pipeline.ΦA
    iintro ⟨Hp, -, Hr⟩
    isplitl [Hr]; · iexact Hr
    iexact Hp
  hout c := by
    rw [Pipeline.ownSems0_none]
    refine BIBase.Entails.trans (show (pdats m ρ 1 c).Φ (Fin.last _) ⊢ Pipeline.ΦA spec1 c from hout1 (V5 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's seven segments in order: a region per pallas_call, a host segment per stretch from its boundary's contents. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .host (hseg hostOps1_1 hostOps1_1_sub hostOps1_1_fresh (W2 m ρ)),
    .host (hseg hostOps1_2 hostOps1_2_sub hostOps1_2_fresh (W3 m ρ)),
    .host (hseg hostOps1_3 hostOps1_3_sub hostOps1_3_fresh (W4 m ρ)),
    .region (reg1 m ρ),
    .host (hseg hostOps2 hostOps2_sub hostOps2_fresh (W6 m ρ)) ]
/-- @main IS the run of the segments: its chain of items, then the segments' run against that chain. -/
theorem main_run (c : Dev nD) : main (F := F) c = Pipeline.Seg.run (segs m ρ) := (main_chain c).trans (by chain_rfl)

set_option backward.isDefEq.respectTransparency.types false in
/-- THE RUN: from any memory with zero counters, every weakly fair execution of @main on the TensorCores
    terminates, nothing faulting, and every final state has every unscoped buffer at the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => last_state m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-- The frame: every weakly fair execution of @main terminates and leaves both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W7_main_arg0 m ρ c),
     (h c _ (mem_uc main_arg1 (by decide))).trans (W7_main_arg1 m ρ c)⟩) (run_all m ρ)

end Cert.KernelIdeal.Hand

end
-- ==== Proof.Blk.lean ====
/- A batch's block of a coordinate array: the 1 × 3 × 100000 slab the coordinate kernel is handed at
   the grid point of batch `b`. -/
import proofs.«136429_j63960652972185_1_alg».proof.KernelIdeal
import Idealize.ShloMosaic.Lib.ValueIdx

noncomputable section

namespace Cert.KernelIdeal.Hand

open Cert.KernelIdeal Idealize.ShloMosaic

variable {F : FTy → Type} [FloatOps F]

/-- Batch `b`'s slab of an array of coordinates: entry (0, a, n) of the slab is entry (b, a, n) of the array. -/
def cblk (Cc : Vec F S8x3x100000 .f32) (b : Fin 8) : Vec F S1x3x100000 .f32 :=
  fun y => Cc (ValueIdx.ix3 b ⟨(y 1).val, (y 1).isLt⟩ ⟨(y 2).val, (y 2).isLt⟩)

theorem cblk_apply (Cc : Vec F S8x3x100000 .f32) (b : Fin 8) (a : Fin 3) (n : Fin 100000) :
    cblk Cc b (ValueIdx.ix3 0 a n) = Cc (ValueIdx.ix3 b a n) := rfl

end Cert.KernelIdeal.Hand

end
-- ==== Proof.ValA.lean ====
/- What the coordinate kernel's region leaves in its two output arrays, entry by entry. The grid has
   one point per batch; the point of batch `b` is handed batch `b`'s slab of the coordinates and
   writes back, whole, the slab of normalized coordinates and the slab of flat voxel numbers it
   computes from it. Each output array is therefore ONE function of the coordinate array: entry
   (b, a, n) is the body's payload of batch `b`'s slab at (0, a, n). -/
import proofs.«136429_j63960652972185_1_alg».proof.Proof.FrA
import proofs.«136429_j63960652972185_1_alg».proof.Proof.Blk
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The index maps -/

/-- The printed index maps, decided over the grid: at point `t` every window's block index is `t` on the
    batch axis and zero on the other two. -/
theorem batch_index : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- The grid point of batch `b`. -/
def ptOf (b : Fin 8) : Fin cfg0.N := ⟨b.val, Nat.lt_of_lt_of_eq b.isLt N_0.symm⟩

/-- A grid point's batch. -/
def batchOf (t : Fin cfg0.N) : Fin 8 := ⟨t.val, Nat.lt_of_lt_of_eq t.isLt N_0⟩

/-! ## The input block at a point -/

/-- The coordinates' block at point `t` is the slab of `t`'s batch. -/
theorem iblk0_eq (c : Dev nD) (t : Fin cfg0.N) : iblk0 V c 0 t = cblk (V c main_arg1) (batchOf t) := by
  obtain ⟨e0, e1, e2, -⟩ := batch_index t
  funext y
  show V c main_arg1 (((cfg0.win 0).blk t).view.emb y) = V c main_arg1 (ValueIdx.ix3 (batchOf t) ⟨(y 1).val, (y 1).isLt⟩ ⟨(y 2).val, (y 2).isLt⟩)
  congr 1
  funext a; apply Fin.ext
  match a with
  | ⟨0, _⟩ => show win0_0.index t (0 : Fin 3) * 1 + 1 * (y 0).val = t.val; have hj : (y 0).val < 1 := (y 0).isLt; omega
  | ⟨1, _⟩ => show win0_0.index t (1 : Fin 3) * 3 + 1 * (y 1).val = (y 1).val; omega
  | ⟨2, _⟩ => show win0_0.index t (2 : Fin 3) * 100000 + 1 * (y 2).val = (y 2).val; omega

/-! ## The normalized coordinates (window 1) -/

/-- What the array of normalized coordinates ends holding: at (b, a, n), the body's payload of batch `b`'s slab of
    the coordinates, read at (0, a, n). -/
def G1 (Cc : Vec F S8x3x100000 .f32) : Vec F S8x3x100000 .f32 :=
  fun i => k0_pay3 (cblk Cc ⟨(i 0).val, (i 0).isLt⟩) (ValueIdx.ix3 0 ⟨(i 1).val, (i 1).isLt⟩ ⟨(i 2).val, (i 2).isLt⟩)

/-- `G1` at an array index whose batch is `b` and whose other two coordinates are those of the slab index `j`. -/
theorem G1_at (Cc : Vec F S8x3x100000 .f32) (b : Fin 8) (i : S8x3x100000.Idx) (j : S1x3x100000.Idx)
    (h0 : (i 0).val = b.val) (h1 : (i 1).val = (j 1).val) (h2 : (i 2).val = (j 2).val) :
    G1 Cc i = k0_pay3 (cblk Cc b) j := by
  have eb : (⟨(i 0).val, (i 0).isLt⟩ : Fin 8) = b := Fin.ext h0
  have ej : (ValueIdx.ix3 0 ⟨(i 1).val, (i 1).isLt⟩ ⟨(i 2).val, (i 2).isLt⟩ : S1x3x100000.Idx) = j := by
    funext a; apply Fin.ext
    match a with
    | ⟨0, _⟩ => show 0 = (j 0).val; have hj : (j 0).val < 1 := (j 0).isLt; omega
    | ⟨1, _⟩ => exact h1
    | ⟨2, _⟩ => exact h2
  unfold G1
  rw [eb, ej]

/-- What point `t` writes back is block `t` of `G1` of the coordinates as the region finds them. -/
theorem flushed1_eq (c : Dev nD) (t : Fin cfg0.N) :
    (dat0 V c).flushed 1 t = ((cfg0.win 1).blk t).view.read (Elt F) (G1 (V c main_arg1)) := by
  show (cfg0.win 1).cut (grid0.coords t) ((dat0 V c).after 1 t) = _
  rw [after0_1, out0_1_eq, iblk0_eq]
  obtain ⟨-, -, -, e0, e1, e2, -⟩ := batch_index t
  funext j
  show k0_pay3 (cblk (V c main_arg1) (batchOf t)) j = G1 (V c main_arg1) (((cfg0.win 1).blk t).view.emb j)
  refine (G1_at (V c main_arg1) (batchOf t) _ j ?_ ?_ ?_).symm
  · show win0_1.index t (0 : Fin 3) * 1 + 1 * (j 0).val = t.val; have hj : (j 0).val < 1 := (j 0).isLt; omega
  · show win0_1.index t (1 : Fin 3) * 3 + 1 * (j 1).val = (j 1).val; omega
  · show win0_1.index t (2 : Fin 3) * 100000 + 1 * (j 2).val = (j 2).val; omega

/-- An index of the array is in point `t`'s block iff each coordinate is in the block's range on its axis. -/
theorem mem_blk1 (t : Fin cfg0.N) (i : S8x3x100000.Idx) :
    i ∈ ((cfg0.win 1).blk t).view.set ↔ ∀ a : Fin 3, win0_1.index t a * S1x3x100000.size a ≤ (i a).val ∧ (i a).val < win0_1.index t a * S1x3x100000.size a + S1x3x100000.size a := by
  show i ∈ ((View.whole main_v0_0).slice (win0_1.rect t)).set ↔ _
  rw [View.set_slice_whole, Rect.mem_set_unit]
  exact Iff.rfl

/-- Every index of the array lies in the block of its batch's point. -/
theorem cover1 (i : S8x3x100000.Idx) :
    ∃ t : Fin cfg0.N, (cfg0.win 1).flush t = true ∧ i ∈ ((cfg0.win 1).blk t).view.set := by
  have hi0 : (i 0).val < 8 := (i 0).isLt
  have hi1 : (i 1).val < 3 := (i 1).isLt
  have hi2 : (i 2).val < 100000 := (i 2).isLt
  refine ⟨ptOf ⟨(i 0).val, hi0⟩, flush0_1 _, ?_⟩
  obtain ⟨-, -, -, e0, e1, e2, -⟩ := batch_index (ptOf ⟨(i 0).val, hi0⟩)
  have e0' : win0_1.index (ptOf ⟨(i 0).val, hi0⟩) (0 : Fin 3) = (i 0).val := e0
  rw [mem_blk1]
  intro a
  match a with
  | ⟨0, _⟩ => show win0_1.index (ptOf ⟨(i 0).val, hi0⟩) (0 : Fin 3) * 1 ≤ (i 0).val ∧ (i 0).val < win0_1.index (ptOf ⟨(i 0).val, hi0⟩) (0 : Fin 3) * 1 + 1; omega
  | ⟨1, _⟩ => show win0_1.index (ptOf ⟨(i 0).val, hi0⟩) (1 : Fin 3) * 3 ≤ (i 1).val ∧ (i 1).val < win0_1.index (ptOf ⟨(i 0).val, hi0⟩) (1 : Fin 3) * 3 + 3; omega
  | ⟨2, _⟩ => show win0_1.index (ptOf ⟨(i 0).val, hi0⟩) (2 : Fin 3) * 100000 ≤ (i 2).val ∧ (i 2).val < win0_1.index (ptOf ⟨(i 0).val, hi0⟩) (2 : Fin 3) * 100000 + 100000; omega

/-- The array of normalized coordinates after the region is `G1` of the coordinates. -/
theorem arr0_1 (c : Dev nD) : (dat0 V c).arrAt 1 cfg0.N = G1 (V c main_arg1) :=
  (dat0 V c).arrAt_eq_of_cover 1 (G1 (V c main_arg1)) (fun t _ => flushed1_eq V c t) cover1

/-- Entry (b, a, n) of the normalized coordinates after the region. -/
theorem arrAt0_1 (c : Dev nD) (b : Fin 8) (a : Fin 3) (n : Fin 100000) :
    (dat0 V c).arrAt 1 cfg0.N (ValueIdx.ix3 b a n) = k0_pay3 (cblk (V c main_arg1) b) (ValueIdx.ix3 0 a n) := by
  rw [arr0_1]
  exact G1_at (V c main_arg1) b _ _ rfl rfl rfl

/-! ## The flat voxel numbers (window 2) -/

/-- What the array of flat voxel numbers ends holding: at (b, 0, n), the body's voxel-number payload of batch `b`'s
    slab of the coordinates, read at (0, 0, n). -/
def G2 (Cc : Vec F S8x3x100000 .f32) : Vec F S8x1x100000 .i32 :=
  fun i => k0_pay1 (k0_pay4 (cblk Cc ⟨(i 0).val, (i 0).isLt⟩)) (ValueIdx.ix3 0 ⟨(i 1).val, (i 1).isLt⟩ ⟨(i 2).val, (i 2).isLt⟩)

/-- `G2` at an array index whose batch is `b` and whose other two coordinates are those of the slab index `j`. -/
theorem G2_at (Cc : Vec F S8x3x100000 .f32) (b : Fin 8) (i : S8x1x100000.Idx) (j : S1x1x100000.Idx)
    (h0 : (i 0).val = b.val) (h1 : (i 1).val = (j 1).val) (h2 : (i 2).val = (j 2).val) :
    G2 Cc i = k0_pay1 (k0_pay4 (cblk Cc b)) j := by
  have eb : (⟨(i 0).val, (i 0).isLt⟩ : Fin 8) = b := Fin.ext h0
  have ej : (ValueIdx.ix3 0 ⟨(i 1).val, (i 1).isLt⟩ ⟨(i 2).val, (i 2).isLt⟩ : S1x1x100000.Idx) = j := by
    funext a; apply Fin.ext
    match a with
    | ⟨0, _⟩ => show 0 = (j 0).val; have hj : (j 0).val < 1 := (j 0).isLt; omega
    | ⟨1, _⟩ => exact h1
    | ⟨2, _⟩ => exact h2
  unfold G2
  rw [eb, ej]

/-- What point `t` writes back is block `t` of `G2` of the coordinates as the region finds them. -/
theorem flushed2_eq (c : Dev nD) (t : Fin cfg0.N) :
    (dat0 V c).flushed 2 t = ((cfg0.win 2).blk t).view.read (Elt F) (G2 (V c main_arg1)) := by
  show (cfg0.win 2).cut (grid0.coords t) ((dat0 V c).after 2 t) = _
  rw [after0_2, out0_2_eq, iblk0_eq]
  obtain ⟨-, -, -, -, -, -, e0, e1, e2⟩ := batch_index t
  funext j
  show k0_pay1 (k0_pay4 (cblk (V c main_arg1) (batchOf t))) j = G2 (V c main_arg1) (((cfg0.win 2).blk t).view.emb j)
  refine (G2_at (V c main_arg1) (batchOf t) _ j ?_ ?_ ?_).symm
  · show win0_2.index t (0 : Fin 3) * 1 + 1 * (j 0).val = t.val; have hj : (j 0).val < 1 := (j 0).isLt; omega
  · show win0_2.index t (1 : Fin 3) * 1 + 1 * (j 1).val = (j 1).val; omega
  · show win0_2.index t (2 : Fin 3) * 100000 + 1 * (j 2).val = (j 2).val; omega

/-- An index of the array is in point `t`'s block iff each coordinate is in the block's range on its axis. -/
theorem mem_blk2 (t : Fin cfg0.N) (i : S8x1x100000.Idx) :
    i ∈ ((cfg0.win 2).blk t).view.set ↔ ∀ a : Fin 3, win0_2.index t a * S1x1x100000.size a ≤ (i a).val ∧ (i a).val < win0_2.index t a * S1x1x100000.size a + S1x1x100000.size a := by
  show i ∈ ((View.whole main_v0_1).slice (win0_2.rect t)).set ↔ _
  rw [View.set_slice_whole, Rect.mem_set_unit]
  exact Iff.rfl

/-- Every index of the array lies in the block of its batch's point. -/
theorem cover2 (i : S8x1x100000.Idx) :
    ∃ t : Fin cfg0.N, (cfg0.win 2).flush t = true ∧ i ∈ ((cfg0.win 2).blk t).view.set := by
  have hi0 : (i 0).val < 8 := (i 0).isLt
  have hi1 : (i 1).val < 1 := (i 1).isLt
  have hi2 : (i 2).val < 100000 := (i 2).isLt
  refine ⟨ptOf ⟨(i 0).val, hi0⟩, flush0_2 _, ?_⟩
  obtain ⟨-, -, -, -, -, -, e0, e1, e2⟩ := batch_index (ptOf ⟨(i 0).val, hi0⟩)
  have e0' : win0_2.index (ptOf ⟨(i 0).val, hi0⟩) (0 : Fin 3) = (i 0).val := e0
  rw [mem_blk2]
  intro a
  match a with
  | ⟨0, _⟩ => show win0_2.index (ptOf ⟨(i 0).val, hi0⟩) (0 : Fin 3) * 1 ≤ (i 0).val ∧ (i 0).val < win0_2.index (ptOf ⟨(i 0).val, hi0⟩) (0 : Fin 3) * 1 + 1; omega
  | ⟨1, _⟩ => show win0_2.index (ptOf ⟨(i 0).val, hi0⟩) (1 : Fin 3) * 1 ≤ (i 1).val ∧ (i 1).val < win0_2.index (ptOf ⟨(i 0).val, hi0⟩) (1 : Fin 3) * 1 + 1; omega
  | ⟨2, _⟩ => show win0_2.index (ptOf ⟨(i 0).val, hi0⟩) (2 : Fin 3) * 100000 ≤ (i 2).val ∧ (i 2).val < win0_2.index (ptOf ⟨(i 0).val, hi0⟩) (2 : Fin 3) * 100000 + 100000; omega

/-- The array of flat voxel numbers after the region is `G2` of the coordinates. -/
theorem arr0_2 (c : Dev nD) : (dat0 V c).arrAt 2 cfg0.N = G2 (V c main_arg1) :=
  (dat0 V c).arrAt_eq_of_cover 2 (G2 (V c main_arg1)) (fun t _ => flushed2_eq V c t) cover2

/-- Entry (b, 0, n) of the flat voxel numbers after the region. -/
theorem arrAt0_2 (c : Dev nD) (b : Fin 8) (n : Fin 100000) :
    (dat0 V c).arrAt 2 cfg0.N (ValueIdx.ix3 b 0 n) = k0_pay1 (k0_pay4 (cblk (V c main_arg1) b)) (ValueIdx.ix3 0 0 n) := by
  rw [arr0_2]
  exact G2_at (V c main_arg1) b _ _ rfl rfl rfl

end Cert.KernelIdeal.Hand

end
-- ==== Proof.ValB.lean ====
/- The scatter kernel's region, read as values. Its grid is (batch b, voxel tile ct, point tile nt),
   the point tile running fastest, so the point (b, ct, nt) is reached at position
   b·784 + ct·98 + nt. At that point the feature block is rows nt·1024 … nt·1024 + 1023 of batch b
   of the padded features, the index block the same rows of the padded voxel numbers, and the
   output block is voxels ct·4096 … ct·4096 + 4095 of batch b, written back only when nt = 97.
   Every entry of the output array is covered by exactly the write-back at (b, ct, 97), so the
   array ends holding, entry by entry, what those points left in the output block. -/
import proofs.«136429_j63960652972185_1_alg».proof.Proof.FrB
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Positions and coordinates -/

/-- The position at which the grid reaches (batch, voxel tile, point tile). -/
def posOf (b ct : Fin 8) (nt : Fin 98) : Fin cfg1.N :=
  ⟨b.val * 784 + ct.val * 98 + nt.val, by have : cfg1.N = 6272 := N_1; omega⟩

theorem posOf_val (b ct : Fin 8) (nt : Fin 98) : (posOf b ct nt).val = b.val * 784 + ct.val * 98 + nt.val := rfl

/-- How many consecutive positions share a batch, a voxel tile, a point tile. -/
theorem stride1_0 : grid1.stride 0 = 784 := by decide
theorem stride1_1 : grid1.stride 1 = 98 := by decide
theorem stride1_2 : grid1.stride 2 = 1 := by decide

/-- The coordinates of a position in closed form. -/
theorem coords1_0 (t : Fin cfg1.N) : (grid1.coords t 0).val = t.val / 784 % 8 := by
  show t.val / grid1.stride 0 % 8 = _
  rw [stride1_0]
theorem coords1_1 (t : Fin cfg1.N) : (grid1.coords t 1).val = t.val / 98 % 8 := by
  show t.val / grid1.stride 1 % 8 = _
  rw [stride1_1]
theorem coords1_2 (t : Fin cfg1.N) : (grid1.coords t 2).val = t.val % 98 := by
  show t.val / grid1.stride 2 % 98 = _
  rw [stride1_2, Nat.div_one]

/-- The coordinates of the position of (b, ct, nt) are b, ct, nt. -/
theorem coords_posOf (b ct : Fin 8) (nt : Fin 98) :
    (grid1.coords (posOf b ct nt) 0).val = b.val ∧ (grid1.coords (posOf b ct nt) 1).val = ct.val
      ∧ (grid1.coords (posOf b ct nt) 2).val = nt.val := by
  rw [coords1_0, coords1_1, coords1_2, posOf_val]
  have hb := b.isLt; have hc := ct.isLt; have hn := nt.isLt
  refine ⟨?_, ?_, ?_⟩ <;> omega

/-- A position whose point tile is the last is the position of its batch and voxel tile at point tile 97. -/
theorem eq_posOf_of_last (t : Fin cfg1.N) (ht : t.val % 98 = 97) (b ct : Fin 8)
    (hb : b.val = (grid1.coords t 0).val) (hc : ct.val = (grid1.coords t 1).val) : posOf b ct 97 = t := by
  apply Fin.ext
  rw [posOf_val, hb, hc, coords1_0, coords1_1]
  have hN : cfg1.N = 6272 := N_1
  have := t.isLt
  show _ + 97 = _
  omega

/-! ## The index maps in closed form -/

/-- A grid coordinate, as the 32-bit word the index maps take it as, is itself. -/
theorem word_coord (n : Nat) (h : n < 98) : (BitVec.ofNat 32 n).toNat = n := by
  rw [BitVec.toNat_ofNat]; exact Nat.mod_eq_of_lt (by omega)

/-- The feature window moves with (batch, point tile), … -/
theorem index1_0 (t : Fin cfg1.N) : win1_0.index t (0 : Fin 3) = (grid1.coords t 0).val
    ∧ win1_0.index t (1 : Fin 3) = 0 ∧ win1_0.index t (2 : Fin 3) = (grid1.coords t 2).val := by
  have h0 : (grid1.coords t 0).val < 8 := (grid1.coords t 0).isLt
  have h2 : (grid1.coords t 2).val < 98 := (grid1.coords t 2).isLt
  refine ⟨?_, ?_, ?_⟩
  · show (BitVec.ofNat 32 (grid1.coords t 0).val).toNat = _
    exact word_coord _ (by omega)
  · rfl
  · show (BitVec.ofNat 32 (grid1.coords t 2).val).toNat = _
    exact word_coord _ h2

/-- … the index window the same, … -/
theorem index1_1 (t : Fin cfg1.N) : win1_1.index t (0 : Fin 3) = (grid1.coords t 0).val
    ∧ win1_1.index t (1 : Fin 3) = 0 ∧ win1_1.index t (2 : Fin 3) = (grid1.coords t 2).val := by
  have h0 : (grid1.coords t 0).val < 8 := (grid1.coords t 0).isLt
  have h2 : (grid1.coords t 2).val < 98 := (grid1.coords t 2).isLt
  refine ⟨?_, ?_, ?_⟩
  · show (BitVec.ofNat 32 (grid1.coords t 0).val).toNat = _
    exact word_coord _ (by omega)
  · rfl
  · show (BitVec.ofNat 32 (grid1.coords t 2).val).toNat = _
    exact word_coord _ h2

/-- … and the output window with (batch, voxel tile). -/
theorem index1_2 (t : Fin cfg1.N) : win1_2.index t (0 : Fin 3) = (grid1.coords t 0).val
    ∧ win1_2.index t (1 : Fin 3) = 0 ∧ win1_2.index t (2 : Fin 3) = (grid1.coords t 1).val := by
  have h0 : (grid1.coords t 0).val < 8 := (grid1.coords t 0).isLt
  have h1 : (grid1.coords t 1).val < 8 := (grid1.coords t 1).isLt
  refine ⟨?_, ?_, ?_⟩
  · show (BitVec.ofNat 32 (grid1.coords t 0).val).toNat = _
    exact word_coord _ (by omega)
  · rfl
  · show (BitVec.ofNat 32 (grid1.coords t 1).val).toNat = _
    exact word_coord _ (by omega)

/-! ## The input blocks, entry by entry -/

/-- Entry (channel, k) of the feature block at (b, ct, nt) is row nt·1024 + k of batch b of the padded features. -/
theorem iblk1_0_apply (c : Dev nD) (b ct : Fin 8) (nt : Fin 98) (ch : Fin 64) (k : Fin 1024) :
    iblk1 V c 0 (posOf b ct nt) (ValueIdx.ix3 (0 : Fin 1) ch k)
      = V c main_v2 (ValueIdx.ix3 b ch ⟨nt.val * 1024 + k.val, by have := nt.isLt; have := k.isLt; omega⟩) := by
  obtain ⟨e0, e1, e2⟩ := index1_0 (posOf b ct nt)
  obtain ⟨c0, c1, c2⟩ := coords_posOf b ct nt
  show V c main_v2 (((cfg1.win 0).blk (posOf b ct nt)).view.emb (ValueIdx.ix3 (0 : Fin 1) ch k)) = _
  congr 1
  funext a; apply Fin.ext
  match a with
  | ⟨0, _⟩ => show win1_0.index (posOf b ct nt) (0 : Fin 3) * 1 + 1 * 0 = b.val; omega
  | ⟨1, _⟩ => show win1_0.index (posOf b ct nt) (1 : Fin 3) * 64 + 1 * ch.val = ch.val; omega
  | ⟨2, _⟩ => show win1_0.index (posOf b ct nt) (2 : Fin 3) * 1024 + 1 * k.val = nt.val * 1024 + k.val; omega

/-- Entry k of the index block at (b, ct, nt) is row nt·1024 + k of batch b of the padded voxel numbers. -/
theorem iblk1_1_apply (c : Dev nD) (b ct : Fin 8) (nt : Fin 98) (k : Fin 1024) :
    iblk1 V c 1 (posOf b ct nt) (ValueIdx.ix3 (0 : Fin 1) (0 : Fin 1) k)
      = V c main_v3 (ValueIdx.ix3 b (0 : Fin 1) ⟨nt.val * 1024 + k.val, by have := nt.isLt; have := k.isLt; omega⟩) := by
  obtain ⟨e0, e1, e2⟩ := index1_1 (posOf b ct nt)
  obtain ⟨c0, c1, c2⟩ := coords_posOf b ct nt
  show V c main_v3 (((cfg1.win 1).blk (posOf b ct nt)).view.emb (ValueIdx.ix3 (0 : Fin 1) (0 : Fin 1) k)) = _
  congr 1
  funext a; apply Fin.ext
  match a with
  | ⟨0, _⟩ => show win1_1.index (posOf b ct nt) (0 : Fin 3) * 1 + 1 * 0 = b.val; omega
  | ⟨1, _⟩ => show win1_1.index (posOf b ct nt) (1 : Fin 3) * 1 + 1 * 0 = 0; omega
  | ⟨2, _⟩ => show win1_1.index (posOf b ct nt) (2 : Fin 3) * 1024 + 1 * k.val = nt.val * 1024 + k.val; omega

/-! ## The output array -/

/-- The output array as one function of the region's data: entry (b, channel, r) is entry
    (channel, r mod 4096) of what the point (b, r / 4096, 97) left in the output block. -/
def outArr (c : Dev nD) : Buf (Elt F) ((c : Thread nD τ).loc main_v4) := fun i =>
  out1_2 V c
    (posOf ⟨(i 0).val, (i 0).isLt⟩ ⟨(i 2).val / 4096, by have h : (i 2).val < 32768 := (i 2).isLt; omega⟩ 97)
    (ValueIdx.ix3 (0 : Fin 1) (⟨(i 1).val, (i 1).isLt⟩ : Fin 64)
      (⟨(i 2).val % 4096, Nat.mod_lt _ (by decide)⟩ : Fin 4096))

/-- `outArr` at an entry that sits in the output block of a position whose point tile is the last,
    at the block's entry `y`, is what that position left there. -/
theorem outArr_of_block (c : Dev nD) (t : Fin cfg1.N) (ht : t.val % 98 = 97)
    (i : S8x64x32768.Idx) (y : S1x64x4096.Idx)
    (h0 : (i 0).val = (grid1.coords t 0).val) (h1 : (i 1).val = (y 1).val)
    (h2 : (i 2).val = (grid1.coords t 1).val * 4096 + (y 2).val) :
    outArr V c i = out1_2 V c t y := by
  have hy0 : (y 0).val < 1 := (y 0).isLt
  have hy2 : (y 2).val < 4096 := (y 2).isLt
  have hc1 : (grid1.coords t 1).val < 8 := (grid1.coords t 1).isLt
  have hp : posOf (⟨(i 0).val, (i 0).isLt⟩ : Fin 8)
      (⟨(i 2).val / 4096, by have h : (i 2).val < 32768 := (i 2).isLt; omega⟩ : Fin 8) 97 = t :=
    eq_posOf_of_last t ht _ _ h0 (by show (i 2).val / 4096 = _; omega)
  unfold outArr
  rw [hp]
  congr 1
  funext a; apply Fin.ext
  match a with
  | ⟨0, _⟩ => show 0 = (y 0).val; omega
  | ⟨1, _⟩ => exact h1
  | ⟨2, _⟩ => show (i 2).val % 4096 = (y 2).val; omega

/-- What a position whose point tile is the last writes back is its block of `outArr`. -/
theorem flushed1_2_eq (c : Dev nD) (t : Fin cfg1.N) (hf : (cfg1.win 2).flush t = true) :
    (dat1 V c).flushed 2 t = ((cfg1.win 2).blk t).view.read (Elt F) (outArr V c) := by
  have ht : t.val % 98 = 97 := (flush1_2 t).mp hf
  obtain ⟨e0, e1, e2⟩ := index1_2 t
  show (cfg1.win 2).cut (grid1.coords t) ((dat1 V c).after 2 t) = _
  rw [after1_2]
  funext j
  show out1_2 V c t ((cfg1.win 2).xinj (grid1.coords t) j) = outArr V c (((cfg1.win 2).blk t).view.emb j)
  have hj0 : (j 0).val < 1 := (j 0).isLt
  refine (outArr_of_block V c t ht _ _ ?_ ?_ ?_).symm
  · show win1_2.index t (0 : Fin 3) * 1 + 1 * (j 0).val = _; omega
  · show win1_2.index t (1 : Fin 3) * 64 + 1 * (j 1).val = (j 1).val; omega
  · show win1_2.index t (2 : Fin 3) * 4096 + 1 * (j 2).val = (grid1.coords t 1).val * 4096 + (j 2).val; omega

/-- An entry of the output array is in a position's block iff each coordinate is in the block's range. -/
theorem mem_blk1_2 (t : Fin cfg1.N) (i : S8x64x32768.Idx) :
    i ∈ ((cfg1.win 2).blk t).view.set ↔ ∀ a : Fin 3, win1_2.index t a * S1x64x4096.size a ≤ (i a).val
      ∧ (i a).val < win1_2.index t a * S1x64x4096.size a + S1x64x4096.size a := by
  show i ∈ ((View.whole main_v4).slice (win1_2.rect t)).set ↔ _
  rw [View.set_slice_whole, Rect.mem_set_unit]
  exact Iff.rfl

/-- Every entry (b, channel, r) is in the block written back at (b, r / 4096, 97). -/
theorem cover1_2 (i : S8x64x32768.Idx) :
    ∃ t : Fin cfg1.N, (cfg1.win 2).flush t = true ∧ i ∈ ((cfg1.win 2).blk t).view.set := by
  have hi0 : (i 0).val < 8 := (i 0).isLt
  have hi1 : (i 1).val < 64 := (i 1).isLt
  have hi2 : (i 2).val < 32768 := (i 2).isLt
  refine ⟨posOf ⟨(i 0).val, hi0⟩ ⟨(i 2).val / 4096, by omega⟩ 97, ?_, ?_⟩
  · rw [flush1_2, posOf_val]; show (_ + 97) % 98 = 97; omega
  · obtain ⟨e0, e1, e2⟩ := index1_2 (posOf ⟨(i 0).val, hi0⟩ ⟨(i 2).val / 4096, by omega⟩ 97)
    obtain ⟨c0, c1, c2⟩ := coords_posOf ⟨(i 0).val, hi0⟩ ⟨(i 2).val / 4096, by omega⟩ 97
    rw [mem_blk1_2]
    intro a
    match a with
    | ⟨0, _⟩ =>
      show win1_2.index _ (0 : Fin 3) * 1 ≤ (i 0).val ∧ (i 0).val < win1_2.index _ (0 : Fin 3) * 1 + 1
      rw [e0, c0]; show (i 0).val * 1 ≤ (i 0).val ∧ (i 0).val < (i 0).val * 1 + 1; omega
    | ⟨1, _⟩ =>
      show win1_2.index _ (1 : Fin 3) * 64 ≤ (i 1).val ∧ (i 1).val < win1_2.index _ (1 : Fin 3) * 64 + 64
      rw [e1]; omega
    | ⟨2, _⟩ =>
      show win1_2.index _ (2 : Fin 3) * 4096 ≤ (i 2).val ∧ (i 2).val < win1_2.index _ (2 : Fin 3) * 4096 + 4096
      rw [e2, c1]; show (i 2).val / 4096 * 4096 ≤ (i 2).val ∧ (i 2).val < (i 2).val / 4096 * 4096 + 4096; omega

/-- So the output array ends holding `outArr`. -/
theorem arrAt1_2_eq (c : Dev nD) : (dat1 V c).arrAt 2 cfg1.N = outArr V c :=
  (dat1 V c).arrAt_eq_of_cover 2 (outArr V c) (flushed1_2_eq V c) cover1_2

/-- Entry (b, channel, ct·4096 + r') of the output array after the region is entry (channel, r') of
    what the point (b, ct, 97) left in the output block. -/
theorem arrAt1_2 (c : Dev nD) (b : Fin 8) (ch : Fin 64) (ct : Fin 8) (r' : Fin 4096) :
    (dat1 V c).arrAt 2 cfg1.N (ValueIdx.ix3 b ch ⟨ct.val * 4096 + r'.val, by have := ct.isLt; have := r'.isLt; omega⟩)
      = out1_2 V c (posOf b ct 97) (ValueIdx.ix3 (0 : Fin 1) ch r') := by
  rw [arrAt1_2_eq]
  obtain ⟨c0, c1, c2⟩ := coords_posOf b ct 97
  refine outArr_of_block V c (posOf b ct 97) (by rw [posOf_val]; show (_ + 97) % 98 = 97; omega) _ _ ?_ ?_ ?_
  · show b.val = _; omega
  · rfl
  · show ct.val * 4096 + r'.val = _ * 4096 + r'.val; rw [c1]

end Cert.KernelIdeal.Hand

end
-- ==== Proof.Spec.lean ====
/- The voxelization, stated over the extended reals as plain functions of the two argument arrays:
   the coordinates `C` (8 batches × 3 axes × 100000 points) and the features `X` (8 × 64 × 100000).

   Per batch the coordinates are centred on their mean, divided by twice the largest distance of a
   centred point from the origin, shifted by one half, scaled by 32 and clamped to [0, 31]: the
   normalized coordinates, the program's second result. Rounded to the nearest integer (ties to
   even) they give a voxel (vx, vy, vz) and its flat number (vx·32 + vy)·32 + vz. The first result
   is, per batch, channel and voxel, the sum of the features of the points that fall in the voxel
   divided by the larger of their number and one. -/
import Idealize.ShloMosaic.PureOps.Ideal
import Idealize.ShloMosaic.PureOps.Ideal.Laws
import Idealize.ShloMosaic.Lib.ValueIdx

noncomputable section

namespace Cert.Spec

open Idealize.ShloMosaic

/-- The coordinates' shape, the features' shape. -/
abbrev SC : Shape := ⟨3, ![8, 3, 100000]⟩
abbrev SX : Shape := ⟨3, ![8, 64, 100000]⟩

/-- An index of the coordinates from (batch, axis, point), of the features from (batch, channel, point). -/
def cIx (b : Fin 8) (a : Fin 3) (n : Fin 100000) : SC.Idx := ValueIdx.ix3 b a n
def xIx (b : Fin 8) (ch : Fin 64) (n : Fin 100000) : SX.Idx := ValueIdx.ix3 b ch n

variable (C : SC.Idx → EReal) (X : SX.Idx → EReal)

/-- The float literals of the two programs, as the words both print. -/
def zero : EReal := Ideal.ofBits .f32 0x00000000#32
def nPts : EReal := Ideal.ofBits .f32 0x47C35000#32      -- 100000
def negInf : EReal := Ideal.ofBits .f32 0xFF800000#32
def two : EReal := Ideal.ofBits .f32 0x40000000#32
def half : EReal := Ideal.ofBits .f32 0x3F000000#32
def res : EReal := Ideal.ofBits .f32 0x42000000#32       -- 32
def top31 : EReal := Ideal.ofBits .f32 0x41F80000#32     -- 31
def one : EReal := Ideal.ofBits .f32 0x3F800000#32

/-- The mean of axis `a` over the points of batch `b`. -/
def mean (b : Fin 8) (a : Fin 3) : EReal :=
  Ideal.div (zero + ∑ n : Fin 100000, C (cIx b a n)) nPts

/-- A centred coordinate. -/
def cen (b : Fin 8) (a : Fin 3) (n : Fin 100000) : EReal := C (cIx b a n) - mean C b a

/-- The distance of the centred point `n` from the origin. -/
def rad (b : Fin 8) (n : Fin 100000) : EReal :=
  Ideal.sqrt (zero + ∑ a : Fin 3, cen C b a n * cen C b a n)

/-- The largest such distance in batch `b`. -/
def maxRad (b : Fin 8) : EReal :=
  (Finset.univ : Finset (Fin 100000)).fold max negInf (fun n => rad C b n)

/-- The normalized coordinate: the program's second result at (b, a, n). -/
def norm (b : Fin 8) (a : Fin 3) (n : Fin 100000) : EReal :=
  min top31 (max zero ((Ideal.div (cen C b a n) (maxRad C b * two) + half) * res))

/-- The voxel coordinate along axis `a`, as a 32-bit word. -/
def vox (b : Fin 8) (a : Fin 3) (n : Fin 100000) : BitVec 32 :=
  Ideal.fptosi 32 (Ideal.liftRound Ideal.roundHalfEven (norm C b a n))

/-- The flat voxel number of point `n`, in 32-bit arithmetic as both programs compute it. -/
def flat (b : Fin 8) (n : Fin 100000) : BitVec 32 :=
  (vox C b 0 n * 32#32 + vox C b 1 n) * 32#32 + vox C b 2 n

/-- The sum of channel `ch` over the points of batch `b` in voxel `r`, and their number. -/
def sums (b : Fin 8) (ch : Fin 64) (r : BitVec 32) : EReal :=
  ∑ n : Fin 100000, if flat C b n = r then X (xIx b ch n) else 0
def cnt (b : Fin 8) (r : BitVec 32) : EReal :=
  ∑ n : Fin 100000, if flat C b n = r then (1 : EReal) else 0

/-- The averaged grid: the program's first result at (b, ch, voxel r), r < 32768. -/
def avg (b : Fin 8) (ch : Fin 64) (r : BitVec 32) : EReal :=
  Ideal.div (sums C X b ch r) (max (cnt C b r) one)

end Cert.Spec

end
-- ==== Proof.MathNormK.lean ====
/- The coordinate kernel's two stored values, read entry by entry on the block of one batch, are the
   specification's: the normalized coordinates and the flat voxel numbers of that batch.

   The kernel views the batch's 1 × 3 × 100000 block as a 3 × 100000 array, subtracts from each axis its
   mean over the points, takes the distance of each centred point from the origin, divides the centred
   coordinates by twice the largest distance, adds one half, multiplies by 32 and clamps to [0, 31]. Each
   of these stages is read here at an entry — a sum along an axis as a finite sum over that axis's
   coordinates, a maximum as a fold of max from −∞, a change of shape or a repetition as a change of
   index — and joined to the specification's mean, centred coordinate, distance and largest distance,
   whose sums start from a zero summand that the law 0 + x = x removes. The flat voxel number is then
   the three rounded rows combined in 32-bit arithmetic as the specification combines them. -/
import proofs.«136429_j63960652972185_1_alg».proof.Proof.Spec
import proofs.«136429_j63960652972185_1_alg».proof.Proof.Blk
import proofs.«136429_j63960652972185_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx

namespace NormK

/-! ## Changes of shape, repetitions and reductions read at an entry -/
section Layout
variable {α : Type}

/-- A vector viewed as a column: entry (i, 0) of the column is entry i of the vector. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column repeated along the rows: entry (p, c) is the column's entry (p, 0). -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A single entry repeated everywhere. -/
theorem broadcastTo_11_ab_apply {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

end Layout

/-- The sum along the points of a 3 × 100000 array, at axis a. -/
theorem sum_points_apply (v : FVec Ideal S3x100000 .f32) (h : S3x100000.Reduces [1] S3) (hφ : FKind.Formats .f32)
    (hacc : (0x00000000#32 : BitVec 32) = 0x00000000#32) (a : Fin 3) :
    multiReduction (F := Ideal) .add [1] S3 v 0x00000000#32 h hφ hacc (ix1 a) = ∑ k : Fin 100000, v (ix2 a k) := by
  refine (Ideal.multiReduction_add_single v 0x00000000#32 h hφ hacc (ix1 a)).trans ?_
  refine Finset.sum_congr rfl fun k _ => ?_
  exact congrArg v (funext fun c => Fin.ext (by match c with | ⟨0, _⟩ => rfl | ⟨1, _⟩ => rfl))

/-- The sum along the three axes of a 3 × 100000 array, at point n. -/
theorem sum_axes_apply (v : FVec Ideal S3x100000 .f32) (h : S3x100000.Reduces [0] S100000) (hφ : FKind.Formats .f32)
    (hacc : (0x00000000#32 : BitVec 32) = 0x00000000#32) (n : Fin 100000) :
    multiReduction (F := Ideal) .add [0] S100000 v 0x00000000#32 h hφ hacc (ix1 n) = ∑ k : Fin 3, v (ix2 k n) := by
  refine (Ideal.multiReduction_add_single v 0x00000000#32 h hφ hacc (ix1 n)).trans ?_
  refine Finset.sum_congr rfl fun k _ => ?_
  exact congrArg v (funext fun c => Fin.ext (by match c with | ⟨0, _⟩ => rfl | ⟨1, _⟩ => rfl))

/-- The maximum along the points of a 1 × 100000 array. -/
theorem max_points_apply (v : FVec Ideal S1x100000 .f32) (h : S1x100000.Reduces [1] S1) (hφ : FKind.Formats .f32)
    (hacc : (0xFF800000#32 : BitVec 32) = 0xFF800000#32) (u : Fin 1) :
    multiReduction (F := Ideal) .maximumf [1] S1 v 0xFF800000#32 h hφ hacc (ix1 u)
      = (Finset.univ : Finset (Fin 100000)).fold max (Ideal.ofBits .f32 0xFF800000#32) (fun k => v (ix2 u k)) := by
  refine (Ideal.multiReduction_maximumf_single v 0xFF800000#32 h hφ hacc (ix1 u)).trans ?_
  refine congrArg (Finset.fold max _ · _) (funext fun k => ?_)
  exact congrArg v (funext fun c => Fin.ext (by match c with | ⟨0, _⟩ => rfl | ⟨1, _⟩ => rfl))

/-! ## The kernel's arithmetic, stage by stage -/

/-- The column of means: each axis summed over the points, divided by the number of points. -/
def k0n_meanCol (v1 : FVec Ideal S3x100000 .f32) : FVec Ideal S3x1 .f32 :=
  divf (shapeCast S3x1 (multiReduction (F := Ideal) .add [1] S3 v1 0x00000000#32 Gen.reduces_S3x100000_S3 (.inl rfl) rfl)
      Gen.shapeCasts_S3_S3x1)
    (broadcast S3x1 (Scalar.ofBits .f32 0x47C35000#32))

/-- The centred coordinates: each entry minus its axis's mean. -/
def k0n_cen (v1 : FVec Ideal S3x100000 .f32) : FVec Ideal S3x100000 .f32 :=
  subf v1 (broadcastTo S3x100000 (k0n_meanCol v1) Gen.broadcasts_S3x1_S3x100000)

/-- The distance of each centred point from the origin. -/
def k0n_rad (v7 : FVec Ideal S3x100000 .f32) : FVec Ideal S1x100000 .f32 :=
  sqrt (shapeCast S1x100000
    (multiReduction (F := Ideal) .add [0] S100000 (mulf v7 v7) 0x00000000#32 Gen.reduces_S3x100000_S100000 (.inl rfl) rfl)
    Gen.shapeCasts_S100000_S1x100000)

/-- Twice the largest distance. -/
def k0n_diam (v11 : FVec Ideal S1x100000 .f32) : FVec Ideal S1x1 .f32 :=
  mulf (shapeCast S1x1 (multiReduction (F := Ideal) .maximumf [1] S1 v11 0xFF800000#32 Gen.reduces_S1x100000_S1 (.inl rfl) rfl)
      Gen.shapeCasts_S1_S1x1)
    (broadcast S1x1 (Scalar.ofBits .f32 0x40000000#32))

/-- The centred coordinates divided by the diameter, shifted by one half, scaled by 32 and clamped to [0, 31]. -/
def k0n_clamp (v7 : FVec Ideal S3x100000 .f32) (v15 : FVec Ideal S1x1 .f32) : FVec Ideal S3x100000 .f32 :=
  minimumf (broadcast S3x100000 (Scalar.ofBits .f32 0x41F80000#32))
    (maximumf (broadcast S3x100000 (Scalar.ofBits .f32 0x00000000#32))
      (mulf (addf (divf v7 (broadcastTo S3x100000 v15 Gen.broadcasts_S1x1_S3x100000))
          (broadcast S3x100000 (Scalar.ofBits .f32 0x3F000000#32)))
        (broadcast S3x100000 (Scalar.ofBits .f32 0x42000000#32))))

/-- The normalized block is the composition of these stages on the block viewed as 3 × 100000. -/
theorem k0_pay2_eq_stages (v0 : Vec Ideal S1x3x100000 .f32) :
    k0_pay2 (F := Ideal) v0
      = k0n_clamp (k0n_cen (shapeCast S3x100000 v0 Gen.shapeCasts_S1x3x100000_S3x100000))
          (k0n_diam (k0n_rad (k0n_cen (shapeCast S3x100000 v0 Gen.shapeCasts_S1x3x100000_S3x100000)))) := rfl

/-! ## Each stage read at an entry -/

/-- A square root, a rounding and a conversion to an integer act entry by entry. -/
theorem sqrt_apply {s : Shape} {φ : FTy} (x : FVec Ideal s φ) (i : s.Idx) : sqrt x i = Ideal.sqrt (x i) := rfl
theorem roundeven_apply {s : Shape} {φ : FTy} (x : FVec Ideal s φ) (i : s.Idx) :
    roundeven x i = Ideal.liftRound Ideal.roundHalfEven (x i) := rfl
theorem fptosi_apply {s : Shape} {φ : FTy} (w : ℕ) (x : FVec Ideal s φ) (i : s.Idx) :
    fptosi w x i = Ideal.fptosi w (x i) := rfl

/-- The mean column at axis a: the sum of the axis over the points, divided by 100000. -/
theorem k0n_meanCol_apply (v1 : FVec Ideal S3x100000 .f32) (a : Fin 3) (u : Fin 1) :
    k0n_meanCol v1 (ix2 a u) = Ideal.div (∑ k : Fin 100000, v1 (ix2 a k)) (Ideal.ofBits .f32 0x47C35000#32) := by
  unfold k0n_meanCol
  rw [divf_apply, shapeCast_a_a1_apply, sum_points_apply, broadcast_apply]
  rfl

/-- A centred entry: the entry minus the mean of its axis. -/
theorem k0n_cen_apply (v1 : FVec Ideal S3x100000 .f32) (a : Fin 3) (n : Fin 100000) :
    k0n_cen v1 (ix2 a n)
      = v1 (ix2 a n) - Ideal.div (∑ k : Fin 100000, v1 (ix2 a k)) (Ideal.ofBits .f32 0x47C35000#32) := by
  unfold k0n_cen
  rw [subf_apply, broadcastTo_a1_ab_apply, k0n_meanCol_apply]

/-- The distance of point n: the root of the sum over the three axes of the squared entries. -/
theorem k0n_rad_apply (v7 : FVec Ideal S3x100000 .f32) (u : Fin 1) (n : Fin 100000) :
    k0n_rad v7 (ix2 u n) = Ideal.sqrt (∑ k : Fin 3, v7 (ix2 k n) * v7 (ix2 k n)) := by
  unfold k0n_rad
  rw [sqrt_apply, shapeCast_a_1a_apply, sum_axes_apply]
  exact congrArg Ideal.sqrt (Finset.sum_congr rfl fun k _ => mulf_apply v7 v7 (ix2 k n))

/-- Twice the largest distance: the fold of max over the points from −∞, times two. -/
theorem k0n_diam_apply (v11 : FVec Ideal S1x100000 .f32) (u u' : Fin 1) :
    k0n_diam v11 (ix2 u u')
      = (Finset.univ : Finset (Fin 100000)).fold max (Ideal.ofBits .f32 0xFF800000#32) (fun k => v11 (ix2 u' k))
          * Ideal.ofBits .f32 0x40000000#32 := by
  unfold k0n_diam
  rw [mulf_apply, shapeCast_a_1a_apply, max_points_apply, broadcast_apply]
  rfl

/-- The clamped entry. -/
theorem k0n_clamp_apply (v7 : FVec Ideal S3x100000 .f32) (v15 : FVec Ideal S1x1 .f32) (a : Fin 3) (n : Fin 100000) :
    k0n_clamp v7 v15 (ix2 a n)
      = min (Ideal.ofBits .f32 0x41F80000#32) (max (Ideal.ofBits .f32 0x00000000#32)
          ((Ideal.div (v7 (ix2 a n)) (v15 (ix2 (0 : Fin 1) (0 : Fin 1))) + Ideal.ofBits .f32 0x3F000000#32)
            * Ideal.ofBits .f32 0x42000000#32)) := by
  unfold k0n_clamp
  rw [minimumf_apply, maximumf_apply, mulf_apply, addf_apply, divf_apply, broadcastTo_11_ab_apply]
  rfl

/-! ## The block of batch b gives the specification's quantities -/

section Spec
variable (C : Vec Ideal S8x3x100000 .f32) (b : Fin 8)

/-- The batch's block viewed as 3 × 100000: entry (a, n) is the array's entry (b, a, n). -/
theorem slab_apply (a : Fin 3) (n : Fin 100000) :
    shapeCast S3x100000 (cblk C b) Gen.shapeCasts_S1x3x100000_S3x100000 (ix2 a n) = C (Cert.Spec.cIx b a n) :=
  (shapeCast_1ab_ab_apply _ _ a n).trans (cblk_apply C b a n)

/-- The specification's mean without its zero summand. -/
theorem spec_mean (a : Fin 3) :
    Cert.Spec.mean C b a
      = Ideal.div (∑ k : Fin 100000, C (Cert.Spec.cIx b a k)) (Ideal.ofBits .f32 0x47C35000#32) := by
  unfold Cert.Spec.mean Cert.Spec.zero Cert.Spec.nPts
  rw [Ideal.ofBits_zero_f32, zero_add]

/-- On an array whose entries are the batch's, the centred entries are the specification's. -/
theorem cen_eq (v1 : FVec Ideal S3x100000 .f32) (hv : ∀ a n, v1 (ix2 a n) = C (Cert.Spec.cIx b a n))
    (a : Fin 3) (n : Fin 100000) : k0n_cen v1 (ix2 a n) = Cert.Spec.cen C b a n := by
  have hs : ∑ k : Fin 100000, v1 (ix2 a k) = ∑ k : Fin 100000, C (Cert.Spec.cIx b a k) :=
    Finset.sum_congr rfl fun k _ => hv a k
  rw [k0n_cen_apply, hv a n, hs]
  unfold Cert.Spec.cen
  rw [spec_mean]

/-- On centred entries that are the specification's, the distances are the specification's. -/
theorem rad_eq (v7 : FVec Ideal S3x100000 .f32) (hv : ∀ a n, v7 (ix2 a n) = Cert.Spec.cen C b a n)
    (u : Fin 1) (n : Fin 100000) : k0n_rad v7 (ix2 u n) = Cert.Spec.rad C b n := by
  have hs : ∑ k : Fin 3, v7 (ix2 k n) * v7 (ix2 k n) = ∑ k : Fin 3, Cert.Spec.cen C b k n * Cert.Spec.cen C b k n :=
    Finset.sum_congr rfl fun k _ => by rw [hv k n]
  rw [k0n_rad_apply, hs]
  unfold Cert.Spec.rad Cert.Spec.zero
  rw [Ideal.ofBits_zero_f32, zero_add]

/-- On distances that are the specification's, twice the largest is the specification's divisor. -/
theorem diam_eq (v11 : FVec Ideal S1x100000 .f32) (hv : ∀ u n, v11 (ix2 u n) = Cert.Spec.rad C b n)
    (u u' : Fin 1) : k0n_diam v11 (ix2 u u') = Cert.Spec.maxRad C b * Cert.Spec.two := by
  have hf : (fun k : Fin 100000 => v11 (ix2 u' k)) = fun k => Cert.Spec.rad C b k := funext fun k => hv u' k
  rw [k0n_diam_apply, hf]
  rfl

/-- The normalized block of batch b, entry (a, n), is the specification's normalized coordinate. -/
theorem k0_pay2_cblk (a : Fin 3) (n : Fin 100000) :
    k0_pay2 (F := Ideal) (cblk C b) (ix2 a n) = Cert.Spec.norm C b a n := by
  rw [k0_pay2_eq_stages, k0n_clamp_apply, cen_eq C b _ (slab_apply C b),
    diam_eq C b _ (rad_eq C b _ (cen_eq C b _ (slab_apply C b)))]
  rfl

end Spec

/-! ## The two stored values -/

/-- Integer sums and products act entry by entry. -/
theorem addi_apply {s : Shape} {w : ℕ} (x y : IVec s w) (i : s.Idx) : addi x y i = x i + y i := rfl
theorem muli_apply {s : Shape} {w : ℕ} (x y : IVec s w) (i : s.Idx) : muli x y i = x i * y i := rfl

/-- Row k of a 3 × 100000 array, cut out as a 1 × 100000 array. -/
theorem row_apply {α : Type} (o : ℕ) (v : S3x100000.Idx → α) (h : S3x100000.Slices ![o, 0] S1x100000)
    (u : Fin 1) (n : Fin 100000) (k : Fin 3) (hk : k.val = o) :
    extractStridedSlice S1x100000 ![o, 0] v h (ix2 u n) = v (ix2 k n) :=
  slice2_axis0_apply o v h u n k (by have := u.isLt; omega)

/-- The rounded normalized coordinate as a 32-bit word is the specification's voxel coordinate. -/
theorem vox_apply (C : Vec Ideal S8x3x100000 .f32) (b : Fin 8) (a : Fin 3) (n : Fin 100000) :
    fptosi 32 (roundeven (k0_pay2 (F := Ideal) (cblk C b))) (ix2 a n) = Cert.Spec.vox C b a n := by
  rw [fptosi_apply, roundeven_apply, k0_pay2_cblk]
  rfl

end NormK

open NormK

/-- The first stored value of the coordinate kernel at batch b: the specification's normalized coordinates. -/
theorem k0_norm_apply (C : Vec Ideal S8x3x100000 .f32) (b : Fin 8) (a : Fin 3) (n : Fin 100000) :
    k0_pay3 (F := Ideal) (cblk C b) (ValueIdx.ix3 0 a n) = Cert.Spec.norm C b a n := by
  unfold k0_pay3
  rw [shapeCast_ab_1ab_apply]
  exact k0_pay2_cblk C b a n

/-- The second stored value at batch b: the specification's flat voxel number,
    (vx · 32 + vy) · 32 + vz over the three rounded rows. -/
theorem k0_flat_apply (C : Vec Ideal S8x3x100000 .f32) (b : Fin 8) (n : Fin 100000) :
    k0_pay1 (k0_pay4 (F := Ideal) (cblk C b)) (ValueIdx.ix3 0 0 n) = Cert.Spec.flat C b n := by
  unfold k0_pay1
  rw [shapeCast_ab_1ab_apply]
  unfold k0_pay4
  rw [addi_apply, muli_apply, addi_apply, muli_apply, row_apply 0 _ _ 0 n 0 rfl, row_apply 1 _ _ 0 n 1 rfl,
    row_apply 2 _ _ 0 n 2 rfl, vox_apply, vox_apply, vox_apply, broadcast_apply]
  rfl

end Cert.KernelIdeal.Hand

end
-- ==== Proof.Hot.lean ====
/- The class of a voxel row and the one-hot entry the scatter kernel multiplies by. -/
import Idealize.ShloMosaic.PureOps.Ideal

noncomputable section

namespace Cert.KernelIdeal.Hand

/-- The voxel number of row `r'` of voxel tile `ct`, as the kernel forms it: ct·4096 + r' in 32-bit arithmetic. -/
def cls (ct : ℕ) (r' : Fin 4096) : BitVec 32 := BitVec.ofNat 32 ct * 4096#32 + BitVec.ofNat 32 r'.val

/-- The one-hot entry: 1 where the point's index word `w` is the class `q`, else 0. -/
def hot (w q : BitVec 32) : EReal := if q = w then 1 else 0

end Cert.KernelIdeal.Hand

end
-- ==== Proof.MathAccK.lean ====
/- The scatter kernel's values read at an index, over the extended reals.

   One grid point of the scatter kernel holds a tile of 1024 points (their 64 feature channels and
   their flat voxel numbers) and a tile of 4096 voxels. It forms the 4096 × 1024 matrix whose entry
   (r', k) is one where point k's voxel number is the tile's voxel r' and zero elsewhere, multiplies
   the features by it (a sum over the 1024 points of the features that fall in voxel r') and the
   all-ones row by it (their number), and adds both to running totals; the last point tile divides
   the sums by the larger of the number and one. Over the point tiles the running total is one sum. -/
import proofs.«136429_j63960652972185_1_alg».proof.Proof.Gen.KernelIdeal.Skeleton
import proofs.«136429_j63960652972185_1_alg».proof.Proof.Spec
import proofs.«136429_j63960652972185_1_alg».proof.Proof.Hot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx

/-! ## The zero totals a voxel tile starts from -/

theorem k1_pay2_apply (j : S64x4096.Idx) : k1_pay2 (F := Ideal) j = 0 := by
  unfold k1_pay2
  rw [shapeCast_self]
  exact Ideal.ofBits_zero_f32

theorem k1_pay3_apply (j : S1x4096.Idx) : k1_pay3 (F := Ideal) j = 0 := by
  unfold k1_pay3
  rw [shapeCast_self]
  exact Ideal.ofBits_zero_f32

/-! ## The average the last point tile writes -/

theorem k1_pay1_apply (S : Vec Ideal S64x4096 .f32) (Cn : Vec Ideal S1x4096 .f32) (ch : Fin 64) (r' : Fin 4096) :
    k1_pay1 S Cn (ValueIdx.ix3 0 ch r') = Ideal.div (S (ValueIdx.ix2 ch r')) (max (Cn (ValueIdx.ix2 0 r')) Cert.Spec.one) := by
  unfold k1_pay1
  rw [shapeCast_ab_1ab_apply, divf_apply, broadcastTo_1b_ab_apply, maximumf_apply]
  rfl

/-! ## The one-hot matrix -/

/-- A column broadcast along the rows: a [a, 1] array broadcast to [a, b] reads, at (p, c), the column at p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A one-bit word widened and read as a signed integer is one when the bit is set, zero when it is clear. -/
theorem sitofp_extui_ofBool (b : Bool) :
    (FloatOps.sitofp (F := Ideal) .f32 ((BitVec.ofBool b).setWidth 32) : EReal) = if b then 1 else 0 := by
  cases b
  · show (((((BitVec.ofBool false).setWidth 32).toInt : ℤ) : ℝ) : EReal) = _
    simp
  · show (((((BitVec.ofBool true).setWidth 32).toInt : ℤ) : ℝ) : EReal) = _
    simp

theorem k1_pay4_apply (i : grid1.Coords) (v7 : Vec Ideal S1x1x1024 .i32) (r' : Fin 4096) (k : Fin 1024) :
    k1_pay4 i v7 (ValueIdx.ix2 r' k) = hot (v7 (ValueIdx.ix3 0 0 k)) (cls (i 1).val r') := by
  unfold k1_pay4
  rw [truncf_apply, sitofp_apply, extui_apply]
  show FloatOps.sitofp (F := Ideal) .f32 ((IntOp.cmpi .eq (broadcastTo S4096x1024 _ broadcasts_S4096x1_S4096x1024 (ix2 r' k)) (broadcastTo S4096x1024 _ broadcasts_S1x1024_S4096x1024 (ix2 r' k))).setWidth 32) = _
  rw [broadcastTo_a1_ab_apply, broadcastTo_1b_ab_apply, shapeCast_1ab_ab_apply]
  show FloatOps.sitofp (F := Ideal) .f32 ((IntOp.cmpi .eq (IntOp.addi _ (iota .tc S4096x1 32 [0] iota_S4096x1_d0_w32 (ix2 r' 0))) _).setWidth 32) = _
  rw [iota_single_apply]
  show FloatOps.sitofp (F := Ideal) .f32 ((BitVec.ofBool (cls (i 1).val r' == v7 (ix3 0 0 k))).setWidth 32) = _
  rw [sitofp_extui_ofBool]
  unfold hot
  simp only [beq_iff_eq]

/-! ## The two products with the one-hot matrix

   Both contract the point axis (axis 1 of both operands); the result's row is the left operand's row,
   its column the one-hot matrix's row (the voxel). -/

theorem lhs_dotF_0 (i : S64x4096.Idx) (q : dot_S64x1024_S4096x1024_S64x4096_1_1_0_0_n_n.contr.Idx) :
    (dot_S64x1024_S4096x1024_S64x4096_1_1_0_0_n_n.lhsIdx i q 0).val = (i 0).val := by
  unfold DotDims.lhsIdx
  rw [dif_neg (show ¬(0 : Fin S64x1024.rank) ∈ dot_S64x1024_S4096x1024_S64x4096_1_1_0_0_n_n.lhsBatch by decide), dif_pos (show (0 : Fin S64x1024.rank) ∈ dot_S64x1024_S4096x1024_S64x4096_1_1_0_0_n_n.lhsNonContracting by decide)]
  rfl

theorem lhs_dotF_1 (i : S64x4096.Idx) (q : dot_S64x1024_S4096x1024_S64x4096_1_1_0_0_n_n.contr.Idx) :
    (dot_S64x1024_S4096x1024_S64x4096_1_1_0_0_n_n.lhsIdx i q 1).val = (q ⟨0, by decide⟩).val :=
  dot_S64x1024_S4096x1024_S64x4096_1_1_0_0_n_n.lhsIdx_val_of_single rfl i q

theorem rhs_dotF_0 (i : S64x4096.Idx) (q : dot_S64x1024_S4096x1024_S64x4096_1_1_0_0_n_n.contr.Idx) :
    (dot_S64x1024_S4096x1024_S64x4096_1_1_0_0_n_n.rhsIdx i q 0).val = (i 1).val := by
  unfold DotDims.rhsIdx
  rw [dif_neg (show ¬(0 : Fin S4096x1024.rank) ∈ dot_S64x1024_S4096x1024_S64x4096_1_1_0_0_n_n.rhsBatch by decide), dif_pos (show (0 : Fin S4096x1024.rank) ∈ dot_S64x1024_S4096x1024_S64x4096_1_1_0_0_n_n.rhsNonContracting by decide)]
  rfl

theorem rhs_dotF_1 (i : S64x4096.Idx) (q : dot_S64x1024_S4096x1024_S64x4096_1_1_0_0_n_n.contr.Idx) :
    (dot_S64x1024_S4096x1024_S64x4096_1_1_0_0_n_n.rhsIdx i q 1).val = (q ⟨0, by decide⟩).val :=
  dot_S64x1024_S4096x1024_S64x4096_1_1_0_0_n_n.rhsIdx_val_of_single rfl i q

theorem k1_pay5_apply (i : grid1.Coords) (v7 : Vec Ideal S1x1x1024 .i32) (v15 : Vec Ideal S1x64x1024 .bf16) (v20 : Vec Ideal S64x4096 .f32) (ch : Fin 64) (r' : Fin 4096) :
    k1_pay5 i v7 v15 v20 (ValueIdx.ix2 ch r') = v20 (ValueIdx.ix2 ch r') + ∑ k : Fin 1024, v15 (ValueIdx.ix3 0 ch k) * hot (v7 (ValueIdx.ix3 0 0 k)) (cls (i 1).val r') := by
  unfold k1_pay5
  rw [shapeCast_self, addf_apply]
  simp only [matmul]
  rw [Ideal.matmul_constant_zero_apply, ← Equiv.sum_comp (ValueIdx.contrEquiv1 dot_S64x1024_S4096x1024_S64x4096_1_1_0_0_n_n 1024 rfl rfl).symm]
  congr 1
  refine Finset.sum_congr rfl fun k _ => ?_
  have hk := ValueIdx.contrEquiv1_symm_val dot_S64x1024_S4096x1024_S64x4096_1_1_0_0_n_n 1024 rfl rfl k
  have el : dot_S64x1024_S4096x1024_S64x4096_1_1_0_0_n_n.lhsIdx (ix2 ch r') ((ValueIdx.contrEquiv1 dot_S64x1024_S4096x1024_S64x4096_1_1_0_0_n_n 1024 rfl rfl).symm k) = ix2 ch k := funext fun a => Fin.ext (by
    match a with
    | ⟨0, _⟩ => exact lhs_dotF_0 _ _
    | ⟨1, _⟩ => exact (lhs_dotF_1 _ _).trans hk)
  have er : dot_S64x1024_S4096x1024_S64x4096_1_1_0_0_n_n.rhsIdx (ix2 ch r') ((ValueIdx.contrEquiv1 dot_S64x1024_S4096x1024_S64x4096_1_1_0_0_n_n 1024 rfl rfl).symm k) = ix2 r' k := funext fun a => Fin.ext (by
    match a with
    | ⟨0, _⟩ => exact rhs_dotF_0 _ _
    | ⟨1, _⟩ => exact (rhs_dotF_1 _ _).trans hk)
  rw [el, er, shapeCast_1ab_ab_apply, k1_pay4_apply]

/-- The all-ones row's entry: the 16-bit word of one. -/
theorem ofBits_one_bf16 : Ideal.ofBits .bf16 0x3F80#16 = 1 := by
  simp [Ideal.ofBits, Ideal.ieee, -EReal.coe_mul]; norm_num

theorem rhs_dotC_0 (i : S1x4096.Idx) (q : dot_S1x1024_S4096x1024_S1x4096_1_1_0_0_n_n.contr.Idx) :
    (dot_S1x1024_S4096x1024_S1x4096_1_1_0_0_n_n.rhsIdx i q 0).val = (i 1).val := by
  unfold DotDims.rhsIdx
  rw [dif_neg (show ¬(0 : Fin S4096x1024.rank) ∈ dot_S1x1024_S4096x1024_S1x4096_1_1_0_0_n_n.rhsBatch by decide), dif_pos (show (0 : Fin S4096x1024.rank) ∈ dot_S1x1024_S4096x1024_S1x4096_1_1_0_0_n_n.rhsNonContracting by decide)]
  rfl

theorem rhs_dotC_1 (i : S1x4096.Idx) (q : dot_S1x1024_S4096x1024_S1x4096_1_1_0_0_n_n.contr.Idx) :
    (dot_S1x1024_S4096x1024_S1x4096_1_1_0_0_n_n.rhsIdx i q 1).val = (q ⟨0, by decide⟩).val :=
  dot_S1x1024_S4096x1024_S1x4096_1_1_0_0_n_n.rhsIdx_val_of_single rfl i q

theorem k1_pay6_apply (i : grid1.Coords) (v7 : Vec Ideal S1x1x1024 .i32) (v25 : Vec Ideal S1x4096 .f32) (r' : Fin 4096) :
    k1_pay6 i v7 v25 (ValueIdx.ix2 0 r') = v25 (ValueIdx.ix2 0 r') + ∑ k : Fin 1024, hot (v7 (ValueIdx.ix3 0 0 k)) (cls (i 1).val r') := by
  unfold k1_pay6
  rw [shapeCast_self, addf_apply]
  simp only [matmul]
  rw [Ideal.matmul_constant_zero_apply, ← Equiv.sum_comp (ValueIdx.contrEquiv1 dot_S1x1024_S4096x1024_S1x4096_1_1_0_0_n_n 1024 rfl rfl).symm]
  congr 1
  refine Finset.sum_congr rfl fun k _ => ?_
  have hk := ValueIdx.contrEquiv1_symm_val dot_S1x1024_S4096x1024_S1x4096_1_1_0_0_n_n 1024 rfl rfl k
  have er : dot_S1x1024_S4096x1024_S1x4096_1_1_0_0_n_n.rhsIdx (ix2 0 r') ((ValueIdx.contrEquiv1 dot_S1x1024_S4096x1024_S1x4096_1_1_0_0_n_n 1024 rfl rfl).symm k) = ix2 r' k := funext fun a => Fin.ext (by
    match a with
    | ⟨0, _⟩ => exact rhs_dotC_0 _ _
    | ⟨1, _⟩ => exact (rhs_dotC_1 _ _).trans hk)
  rw [er, broadcast_apply, k1_pay4_apply]
  show Ideal.ofBits .bf16 0x3F80#16 * _ = _
  rw [ofBits_one_bf16, one_mul]

/-! ## The running total over the point tiles is one sum -/

/-- A total that starts as zero plus the first term and adds one term a step is the sum of the terms. -/
theorem acc_fold {α : Type} [AddCommMonoid α] (g : ℕ → α) (s : ℕ → α) (h0 : s 0 = 0 + g 0) (hs : ∀ n, s (n + 1) = s n + g (n + 1)) (n : ℕ) :
    s n = ∑ k ∈ Finset.range (n + 1), g k := by
  induction n with
  | zero => rw [h0, zero_add, Finset.sum_range_one]
  | succ n ih => rw [hs, ih, Finset.sum_range_succ _ (n + 1)]

end Cert.KernelIdeal.Hand

end
-- ==== Proof.PadSum.lean ====
/- The host's zero-padding of the point axis read at an index, and the re-arrangement of sums over
   the padded point axis: a sum over 98 tiles of 1024 points is the sum over the 100352 padded
   points, and a summand that vanishes on the 352 padding points sums as over the 100000 points. -/
import proofs.«136429_j63960652972185_1_alg».proof.KernelIdeal
import Idealize.ShloMosaic.Lib.ValueIdx
import Idealize.ShloMosaic.Lib.KernelVsHost
import Mathlib.Algebra.BigOperators.Fin
import Mathlib.Algebra.BigOperators.Group.Finset.Basic
import Mathlib.Data.Fintype.BigOperators

noncomputable section

namespace Cert.KernelIdeal.Hand

open Cert.KernelIdeal Idealize.ShloMosaic

section Pad

variable {F : FTy → Type} [FloatOps F]
variable [Facts]
open Facts₀ Facts

/-- The scalar shape's first index is its only index. -/
theorem first_eq_ix0 (h : 0 < S_.numel) : Shape.Idx.first h = (ValueIdx.ix0 : S_.Idx) :=
  funext fun a => a.elim0

/-- Padding of 352 after the last axis only, no low padding, no interior padding: below 100000 on the
    point axis the padded array is the operand at the same coordinates. -/
theorem padF_lo (X : Vec F S8x64x100000 .bf16) (v : Vec F S_ .bf16) (b : Fin 8) (ch : Fin 64) (n : Fin 100352)
    (h : n.val < 100000) :
    pad S8x64x100352 ![0, 0, 0] ![0, 0, 352] ![0, 0, 0] X v pads_S8x64x100000_S8x64x100352_000_000_03520 h_S_
        (ValueIdx.ix3 b ch n)
      = X (ValueIdx.ix3 b ch ⟨n.val, h⟩) := by
  refine pad_apply_of_inside _ _ _ X v _ _ _ _ (fun a => ?_)
  match a with
  | ⟨0, _⟩ => show b.val = 0 + b.val * (0 + 1); omega
  | ⟨1, _⟩ => show ch.val = 0 + ch.val * (0 + 1); omega
  | ⟨2, _⟩ => show n.val = 0 + n.val * (0 + 1); omega

/-- From 100000 on, the point coordinate is outside the operand: the padded array is the padding value. -/
theorem padF_hi (X : Vec F S8x64x100000 .bf16) (v : Vec F S_ .bf16) (b : Fin 8) (ch : Fin 64) (n : Fin 100352)
    (h : 100000 ≤ n.val) :
    pad S8x64x100352 ![0, 0, 0] ![0, 0, 352] ![0, 0, 0] X v pads_S8x64x100000_S8x64x100352_000_000_03520 h_S_
        (ValueIdx.ix3 b ch n)
      = v ValueIdx.ix0 := by
  rw [pad_apply_of_not_inside _ _ _ X v _ _ _ ⟨2, by decide⟩ (by
    show ¬((0 : ℕ) ≤ n.val ∧ (n.val - 0) % (0 + 1) = 0 ∧ (n.val - 0) / (0 + 1) < 100000)
    omega), first_eq_ix0]

/-- The same two readings for the voxel numbers, one row per batch. -/
theorem padI_lo (I : Vec F S8x1x100000 .i32) (v : Vec F S_ .i32) (b : Fin 8) (n : Fin 100352) (h : n.val < 100000) :
    pad S8x1x100352 ![0, 0, 0] ![0, 0, 352] ![0, 0, 0] I v pads_S8x1x100000_S8x1x100352_000_000_03520 h_S_
        (ValueIdx.ix3 b 0 n)
      = I (ValueIdx.ix3 b 0 ⟨n.val, h⟩) := by
  refine pad_apply_of_inside _ _ _ I v _ _ _ _ (fun a => ?_)
  match a with
  | ⟨0, _⟩ => show b.val = 0 + b.val * (0 + 1); omega
  | ⟨1, _⟩ => show (0 : ℕ) = 0 + 0 * (0 + 1); omega
  | ⟨2, _⟩ => show n.val = 0 + n.val * (0 + 1); omega

theorem padI_hi (I : Vec F S8x1x100000 .i32) (v : Vec F S_ .i32) (b : Fin 8) (n : Fin 100352) (h : 100000 ≤ n.val) :
    pad S8x1x100352 ![0, 0, 0] ![0, 0, 352] ![0, 0, 0] I v pads_S8x1x100000_S8x1x100352_000_000_03520 h_S_
        (ValueIdx.ix3 b 0 n)
      = v ValueIdx.ix0 := by
  rw [pad_apply_of_not_inside _ _ _ I v _ _ _ ⟨2, by decide⟩ (by
    show ¬((0 : ℕ) ≤ n.val ∧ (n.val - 0) % (0 + 1) = 0 ∧ (n.val - 0) / (0 + 1) < 100000)
    omega), first_eq_ix0]

end Pad

section Sums

variable {α : Type} [AddCommMonoid α]

/-- A padded point is a tile and a place in it: n = nt · 1024 + k with nt < 98 and k < 1024, uniquely
    (quotient and remainder by 1024; 98 · 1024 = 100352). -/
def tileEquiv : Fin 98 × Fin 1024 ≃ Fin 100352 where
  toFun p := ⟨p.1.val * 1024 + p.2.val, by omega⟩
  invFun n := (⟨n.val / 1024, by omega⟩, ⟨n.val % 1024, by omega⟩)
  left_inv p := by
    refine Prod.ext (Fin.ext ?_) (Fin.ext ?_)
    · show (p.1.val * 1024 + p.2.val) / 1024 = p.1.val; omega
    · show (p.1.val * 1024 + p.2.val) % 1024 = p.2.val; omega
  right_inv n := by
    refine Fin.ext ?_
    show n.val / 1024 * 1024 + n.val % 1024 = n.val; omega

/-- The double sum over tiles and places is the sum over the padded points. -/
theorem sum_tiles_fin (g : Fin 100352 → α) :
    ∑ nt : Fin 98, ∑ k : Fin 1024, g ⟨nt.val * 1024 + k.val, by omega⟩ = ∑ n : Fin 100352, g n := by
  rw [← Fintype.sum_prod_type' (fun (nt : Fin 98) (k : Fin 1024) => g ⟨nt.val * 1024 + k.val, by omega⟩)]
  exact Fintype.sum_equiv tileEquiv _ _ (fun _ => rfl)

/-- The same with the tile a natural number below 98 and the bound of each point decided in place. -/
theorem sum_tiles (g : Fin 100352 → α) :
    ∑ nt ∈ Finset.range 98, ∑ k : Fin 1024,
        (if h : nt * 1024 + k.val < 100352 then g ⟨nt * 1024 + k.val, h⟩ else 0)
      = ∑ n : Fin 100352, g n := by
  rw [Finset.sum_range, ← sum_tiles_fin g]
  refine Finset.sum_congr rfl fun nt _ => Finset.sum_congr rfl fun k _ => ?_
  rw [dif_pos (by omega)]

/-- A summand that vanishes from point 100000 on sums over the first 100000 points alone. -/
theorem sum_drop_pad (g : Fin 100352 → α) (hz : ∀ n : Fin 100352, 100000 ≤ n.val → g n = 0) :
    ∑ n : Fin 100352, g n = ∑ n : Fin 100000, g ⟨n.val, by omega⟩ := by
  symm
  refine Fintype.sum_of_injective (fun n : Fin 100000 => (⟨n.val, by omega⟩ : Fin 100352)) ?_ _ _ ?_
    (fun _ => rfl)
  · intro a c hac
    exact Fin.ext (by simpa using congrArg Fin.val hac)
  · intro i hi
    exact hz i (Nat.le_of_not_lt fun hlt => hi ⟨⟨i.val, hlt⟩, rfl⟩)

end Sums

end Cert.KernelIdeal.Hand

end
-- ==== Proof.AccClosed.lean ====
/- The scatter kernel's running totals in closed form, over the extended reals. Along the point tiles
   of one (batch, voxel tile) the two accumulators start from zeros and each of the 98 positions adds
   its tile's contribution: for the sums, over the tile's 1024 points, the feature times the one-hot
   entry of the point's voxel number against the voxel row; for the counts, the one-hot entry alone.
   After the last point tile each accumulator entry is therefore one sum over all 100352 padded points. -/
import proofs.«136429_j63960652972185_1_alg».proof.Proof.FrB
import proofs.«136429_j63960652972185_1_alg».proof.Proof.ValB
import proofs.«136429_j63960652972185_1_alg».proof.Proof.MathAccK
import proofs.«136429_j63960652972185_1_alg».proof.Proof.Hot
import proofs.«136429_j63960652972185_1_alg».proof.Proof.PadSum
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe

variable (V : (c : Dev nD) → (b : Ref sig .tc) → Buf (Elt Ideal) ((c : Thread nD τ).loc b))

/-! ## Positions -/

/-- The accumulators at a position do not depend on how the position is written. -/
theorem accAt_congr (c : Dev nD) {n n' : ℕ} (h : n = n') (hn : n < cfg1.N) (hn' : n' < cfg1.N) :
    accAt V c n hn = accAt V c n' hn' := by
  subst h; rfl

/-- The position of point tile 0 of a (batch, voxel tile) is a multiple of 98 … -/
theorem posOf_first (b ct : Fin 8) (h : 0 < 98) : (posOf b ct ⟨0, h⟩).val % 98 = 0 := by
  rw [posOf_val]; show (b.val * 784 + ct.val * 98 + 0) % 98 = 0; omega

/-- … a later point tile's is not, … -/
theorem posOf_later (b ct : Fin 8) (nt : ℕ) (h : nt + 1 < 98) : ¬ (posOf b ct ⟨nt + 1, h⟩).val % 98 = 0 := by
  rw [posOf_val]; show ¬ (b.val * 784 + ct.val * 98 + (nt + 1)) % 98 = 0; omega

/-- … and the position before it is the point tile before. -/
theorem posOf_pred (b ct : Fin 8) (nt : ℕ) (h : nt + 1 < 98) :
    (posOf b ct ⟨nt + 1, h⟩).val - 1 = (posOf b ct ⟨nt, Nat.lt_of_succ_lt h⟩).val := by
  rw [posOf_val, posOf_val]; show b.val * 784 + ct.val * 98 + (nt + 1) - 1 = b.val * 784 + ct.val * 98 + nt; omega

/-! ## One tile's contribution -/

/-- The part of a sum over the padded points that falls in point tile `j`. -/
def tileSum (g : Fin 100352 → EReal) (j : ℕ) : EReal :=
  ∑ k : Fin 1024, if h : j * 1024 + k.val < 100352 then g ⟨j * 1024 + k.val, h⟩ else 0

/-- The 98 tiles' parts add up to the sum over the padded points. -/
theorem sum_tileSum (g : Fin 100352 → EReal) : ∑ j ∈ Finset.range 98, tileSum g j = ∑ n : Fin 100352, g n :=
  sum_tiles g

/-- The summand of the sums: the feature of padded point `n` times the one-hot entry of its voxel number. -/
def termS (Fp : Vec Ideal S8x64x100352 .bf16) (Ip : Vec Ideal S8x1x100352 .i32) (b ct : Fin 8) (ch : Fin 64) (r' : Fin 4096)
    (n : Fin 100352) : EReal :=
  Fp (ValueIdx.ix3 b ch n) * hot (Ip (ValueIdx.ix3 b 0 n)) (cls ct.val r')

/-- The summand of the counts: the one-hot entry alone. -/
def termC (Ip : Vec Ideal S8x1x100352 .i32) (b ct : Fin 8) (r' : Fin 4096) (n : Fin 100352) : EReal :=
  hot (Ip (ValueIdx.ix3 b 0 n)) (cls ct.val r')

/-- The sums' update at the position of (b, ct, nt) adds point tile nt's part of the sum. -/
theorem stepS (c : Dev nD) (b ct : Fin 8) (nt : Fin 98) (acc : Vec Ideal S64x4096 .f32) (ch : Fin 64) (r' : Fin 4096) :
    k1_pay5 (grid1.coords (posOf b ct nt)) (iblk1 V c 1 (posOf b ct nt)) (iblk1 V c 0 (posOf b ct nt)) acc (ValueIdx.ix2 ch r')
      = acc (ValueIdx.ix2 ch r') + tileSum (termS (V c main_v2) (V c main_v3) b ct ch r') nt.val := by
  refine (k1_pay5_apply (grid1.coords (posOf b ct nt)) (iblk1 V c 1 (posOf b ct nt)) (iblk1 V c 0 (posOf b ct nt)) acc ch r').trans ?_
  congr 1
  unfold tileSum
  refine Finset.sum_congr rfl fun k _ => ?_
  have hk : nt.val * 1024 + k.val < 100352 := by have := nt.isLt; have := k.isLt; omega
  rw [dif_pos hk, iblk1_0_apply, iblk1_1_apply, (coords_posOf b ct nt).2.1]
  rfl

/-- The counts' update at the position of (b, ct, nt) adds point tile nt's part of the count. -/
theorem stepC (c : Dev nD) (b ct : Fin 8) (nt : Fin 98) (acc : Vec Ideal S1x4096 .f32) (r' : Fin 4096) :
    k1_pay6 (grid1.coords (posOf b ct nt)) (iblk1 V c 1 (posOf b ct nt)) acc (ValueIdx.ix2 0 r')
      = acc (ValueIdx.ix2 0 r') + tileSum (termC (V c main_v3) b ct r') nt.val := by
  refine (k1_pay6_apply (grid1.coords (posOf b ct nt)) (iblk1 V c 1 (posOf b ct nt)) acc r').trans ?_
  congr 1
  unfold tileSum
  refine Finset.sum_congr rfl fun k _ => ?_
  have hk : nt.val * 1024 + k.val < 100352 := by have := nt.isLt; have := k.isLt; omega
  rw [dif_pos hk, iblk1_1_apply, (coords_posOf b ct nt).2.1]
  rfl

/-! ## The totals after point tile nt -/

/-- After point tile `nt` the sums hold the parts of tiles 0 … nt. -/
theorem accS_prefix (c : Dev nD) (b ct : Fin 8) (ch : Fin 64) (r' : Fin 4096) : ∀ (nt : ℕ) (h : nt < 98),
    (accAt V c (posOf b ct ⟨nt, h⟩).val (posOf b ct ⟨nt, h⟩).isLt).1 (ValueIdx.ix2 ch r')
      = ∑ j ∈ Finset.range (nt + 1), tileSum (termS (V c main_v2) (V c main_v3) b ct ch r') j
  | 0, h => by
    rw [accAt_first V c (posOf b ct ⟨0, h⟩) (posOf_first b ct h)]
    show k1_pay5 (F := Ideal) _ _ _ (k1_pay2 (F := Ideal)) (ValueIdx.ix2 ch r') = _
    rw [stepS, k1_pay2_apply, zero_add, Finset.sum_range_one]
  | nt + 1, h => by
    rw [accAt_next V c (posOf b ct ⟨nt + 1, h⟩) (posOf_later b ct nt h)]
    show k1_pay5 (F := Ideal) _ _ _ (accAt V c ((posOf b ct ⟨nt + 1, h⟩).val - 1) _).1 (ValueIdx.ix2 ch r') = _
    rw [stepS, accAt_congr V c (posOf_pred b ct nt h) _ (posOf b ct ⟨nt, Nat.lt_of_succ_lt h⟩).isLt,
      accS_prefix c b ct ch r' nt (Nat.lt_of_succ_lt h), Finset.sum_range_succ _ (nt + 1)]

/-- After point tile `nt` the counts hold the parts of tiles 0 … nt. -/
theorem accC_prefix (c : Dev nD) (b ct : Fin 8) (r' : Fin 4096) : ∀ (nt : ℕ) (h : nt < 98),
    (accAt V c (posOf b ct ⟨nt, h⟩).val (posOf b ct ⟨nt, h⟩).isLt).2 (ValueIdx.ix2 0 r')
      = ∑ j ∈ Finset.range (nt + 1), tileSum (termC (V c main_v3) b ct r') j
  | 0, h => by
    rw [accAt_first V c (posOf b ct ⟨0, h⟩) (posOf_first b ct h)]
    show k1_pay6 (F := Ideal) _ _ (k1_pay3 (F := Ideal)) (ValueIdx.ix2 0 r') = _
    rw [stepC, k1_pay3_apply, zero_add, Finset.sum_range_one]
  | nt + 1, h => by
    rw [accAt_next V c (posOf b ct ⟨nt + 1, h⟩) (posOf_later b ct nt h)]
    show k1_pay6 (F := Ideal) _ _ (accAt V c ((posOf b ct ⟨nt + 1, h⟩).val - 1) _).2 (ValueIdx.ix2 0 r') = _
    rw [stepC, accAt_congr V c (posOf_pred b ct nt h) _ (posOf b ct ⟨nt, Nat.lt_of_succ_lt h⟩).isLt,
      accC_prefix c b ct r' nt (Nat.lt_of_succ_lt h), Finset.sum_range_succ _ (nt + 1)]

/-! ## After the last point tile -/

/-- The sums after the last point tile of (b, ct) are the whole sum of the summands over the padded points. -/
theorem accS_total (c : Dev nD) (b ct : Fin 8) (ch : Fin 64) (r' : Fin 4096) :
    (accAt V c (posOf b ct 97).val (posOf b ct 97).isLt).1 (ValueIdx.ix2 ch r')
      = ∑ n : Fin 100352, termS (V c main_v2) (V c main_v3) b ct ch r' n :=
  (accS_prefix V c b ct ch r' 97 (by decide)).trans (sum_tileSum (termS (V c main_v2) (V c main_v3) b ct ch r'))

/-- The counts after the last point tile of (b, ct) are the whole sum of the one-hot entries over the padded points. -/
theorem accC_total (c : Dev nD) (b ct : Fin 8) (r' : Fin 4096) :
    (accAt V c (posOf b ct 97).val (posOf b ct 97).isLt).2 (ValueIdx.ix2 0 r')
      = ∑ n : Fin 100352, termC (V c main_v3) b ct r' n :=
  (accC_prefix V c b ct r' 97 (by decide)).trans (sum_tileSum (termC (V c main_v3) b ct r'))

/-- The sums after the last point tile of (b, ct), with the padded features `Fp` and the padded voxel numbers `Ip`
    named: at (channel, r'), the features of the padded points of batch b whose voxel number is row r' of voxel
    tile ct, summed. -/
theorem accS_closed (c : Dev nD) (b ct : Fin 8) (ch : Fin 64) (r' : Fin 4096)
    (Fp : Vec Ideal S8x64x100352 .bf16) (Ip : Vec Ideal S8x1x100352 .i32)
    (hF : (V c main_v2 : Vec Ideal S8x64x100352 .bf16) = Fp) (hI : (V c main_v3 : Vec Ideal S8x1x100352 .i32) = Ip) :
    (accAt V c (posOf b ct 97).val (posOf b ct 97).isLt).1 (ValueIdx.ix2 ch r')
      = ∑ n : Fin 100352, Fp (ValueIdx.ix3 b ch n) * hot (Ip (ValueIdx.ix3 b 0 n)) (cls ct.val r') := by
  subst hF hI
  exact accS_total V c b ct ch r'

/-- The counts after the last point tile of (b, ct), with the padded voxel numbers `Ip` named: at r', the number
    of padded points of batch b whose voxel number is row r' of voxel tile ct. -/
theorem accC_closed (c : Dev nD) (b ct : Fin 8) (r' : Fin 4096)
    (Ip : Vec Ideal S8x1x100352 .i32) (hI : (V c main_v3 : Vec Ideal S8x1x100352 .i32) = Ip) :
    (accAt V c (posOf b ct 97).val (posOf b ct 97).isLt).2 (ValueIdx.ix2 0 r')
      = ∑ n : Fin 100352, hot (Ip (ValueIdx.ix3 b 0 n)) (cls ct.val r') := by
  subst hI
  exact accC_total V c b ct r'

end Cert.KernelIdeal.Hand

end
-- ==== Proof.SpecFacts.lean ====
/- Facts about the voxelization's specification alone: the three float literals it needs as
   numbers, the normalized coordinate's range, and the ranges of the voxel coordinate and of the
   flat voxel number that follow from it. -/
import proofs.«136429_j63960652972185_1_alg».proof.Proof.Spec
import Mathlib.Data.EReal.Basic
import Mathlib.Algebra.Order.Floor.Ring

noncomputable section

namespace Cert.Spec

open Idealize.ShloMosaic

/-- The word 0x41F80000 is sign 0, exponent 131, fraction 0x780000: (2^23 + 0x780000) · 2^(131-127-23) = 31. -/
theorem top31_eq : top31 = ((31 : ℝ) : EReal) := by
  simp [top31, Ideal.ofBits, Ideal.ieee, -EReal.coe_mul]; norm_num

theorem zero_eq : zero = 0 := by simp [zero, Ideal.ofBits, Ideal.ieee]

theorem one_eq : one = 1 := by simp [one, Ideal.ofBits, Ideal.ieee, -EReal.coe_mul]; norm_num

variable (C : SC.Idx → EReal)

/-- A minimum with 31 of a maximum with 0 lies in [0, 31], whatever the inner value. -/
theorem norm_mem (b : Fin 8) (a : Fin 3) (n : Fin 100000) :
    0 ≤ norm C b a n ∧ norm C b a n ≤ ((31 : ℝ) : EReal) := by
  unfold norm
  rw [top31_eq, zero_eq]
  refine ⟨le_min ?_ (le_max_left _ _), min_le_left _ _⟩
  exact_mod_cast (by norm_num : (0 : ℝ) ≤ 31)

/-- Rounding to the nearest integer keeps [0, 31]: the floor of such a real lies in [0, 31], and
    the rounding steps up from the floor f only when f + 1/2 ≤ r ≤ 31, that is f ≤ 30. -/
theorem roundHalfEven_mem {r : ℝ} (h0 : 0 ≤ r) (h1 : r ≤ 31) :
    0 ≤ Ideal.roundHalfEven r ∧ Ideal.roundHalfEven r ≤ 31 := by
  have hf0 : (0 : ℤ) ≤ ⌊r⌋ := Int.floor_nonneg.mpr h0
  have hfr : (⌊r⌋ : ℝ) ≤ r := Int.floor_le r
  have hf31 : ⌊r⌋ ≤ 31 := by
    have : (⌊r⌋ : ℝ) ≤ 31 := hfr.trans h1
    exact_mod_cast this
  have hstep : ¬ (r - ⌊r⌋ < 1 / 2) → ⌊r⌋ + 1 ≤ 31 := by
    intro h
    have : (⌊r⌋ : ℝ) < 31 := by linarith [not_lt.mp h]
    have : ⌊r⌋ < 31 := by exact_mod_cast this
    omega
  unfold Ideal.roundHalfEven
  simp only []
  split_ifs with ha hb hc
  · exact ⟨hf0, hf31⟩
  · exact ⟨by omega, hstep ha⟩
  · exact ⟨hf0, hf31⟩
  · exact ⟨by omega, hstep ha⟩

/-- The signed 32-bit conversion of the real of an integer k in [0, 31] is the word of k: its
    floor is k, the clamp to [-2^31, 2^31 - 1] leaves it, and k < 2^32. -/
theorem fptosi_intCast_toNat {k : ℤ} (h0 : 0 ≤ k) (h1 : k ≤ 31) :
    (Ideal.fptosi 32 (((k : ℝ)) : EReal)).toNat = k.toNat := by
  have hk : (0 : ℝ) ≤ (k : ℝ) := by exact_mod_cast h0
  rw [Ideal.fptosi, Ideal.toIntClamped_coe, if_pos hk, Int.floor_intCast]
  have hmin : min (((2 ^ (32 - 1) : Nat) : ℤ) - 1) k = k := min_eq_right (by norm_num; omega)
  have hmax : max (-((2 ^ (32 - 1) : Nat) : ℤ)) k = k := max_eq_right (by norm_num; omega)
  rw [hmin, hmax, BitVec.toNat_ofInt]
  omega

/-- The voxel coordinate is at most 31. -/
theorem vox_le (b : Fin 8) (a : Fin 3) (n : Fin 100000) : (vox C b a n).toNat ≤ 31 := by
  obtain ⟨h0, h1⟩ := norm_mem C b a n
  unfold vox
  generalize norm C b a n = x at h0 h1
  induction x using EReal.rec with
  | bot => exact absurd h0 (by simp)
  | top => exact absurd h1 (by simp)
  | coe r =>
    have hr0 : 0 ≤ r := by exact_mod_cast h0
    have hr1 : r ≤ 31 := by exact_mod_cast h1
    obtain ⟨k0, k1⟩ := roundHalfEven_mem hr0 hr1
    rw [Ideal.liftRound_coe, fptosi_intCast_toNat k0 k1]
    omega

/-- With each coordinate at most 31 nothing wraps: (v0·32 + v1)·32 + v2 ≤ 31·1024 + 31·32 + 31 = 32767. -/
theorem flat_lt (b : Fin 8) (n : Fin 100000) : (flat C b n).toNat < 32768 := by
  have h0 := vox_le C b 0 n
  have h1 := vox_le C b 1 n
  have h2 := vox_le C b 2 n
  unfold flat
  simp only [BitVec.toNat_add, BitVec.toNat_mul, BitVec.toNat_ofNat]
  omega

end Cert.Spec

end
-- ==== Proof.HotSum.lean ====
/- The sum over the padded point axis of a feature times the one-hot entry of a voxel is the
   specification's sum of that feature over the voxel's points, and the sum of the one-hot entries
   alone is the voxel's number of points: the padding points carry the feature 0 and the index
   word −1, which is no voxel's number. -/
import proofs.«136429_j63960652972185_1_alg».proof.Proof.Hot
import proofs.«136429_j63960652972185_1_alg».proof.Proof.Spec
import proofs.«136429_j63960652972185_1_alg».proof.Proof.SpecFacts
import proofs.«136429_j63960652972185_1_alg».proof.Proof.PadSum

noncomputable section

namespace Cert.KernelIdeal.Hand

open Idealize.ShloMosaic

/-- ct·4096 + r' formed in 32-bit words is the word of the number ct·4096 + r'. -/
theorem cls_eq (ct : Fin 8) (r' : Fin 4096) : cls ct.val r' = BitVec.ofNat 32 (ct.val * 4096 + r'.val) := by
  rw [cls, BitVec.ofNat_add, BitVec.ofNat_mul]

/-- A voxel's number ct·4096 + r' is below 8·4096 = 32768, so its word is not the all-ones word. -/
theorem cls_ne_pad (ct : Fin 8) (r' : Fin 4096) : cls ct.val r' ≠ 4294967295#32 := by
  rw [cls_eq]
  intro e
  have h := congrArg BitVec.toNat e
  rw [BitVec.toNat_ofNat, BitVec.toNat_ofNat] at h
  omega

/-- The padding points' index word −1 is no class. -/
theorem hot_pad (ct : Fin 8) (r' : Fin 4096) : hot 4294967295#32 (cls ct.val r') = 0 := by
  rw [hot, if_neg (cls_ne_pad ct r')]

/-- A feature times the one-hot entry of the word `q` at the index word `w` is the feature where `w = q`, else 0. -/
theorem mul_hot (x : EReal) (w q : BitVec 32) : x * hot w q = if w = q then x else 0 := by
  by_cases h : w = q
  · rw [if_pos h, hot, if_pos h.symm, mul_one]
  · rw [if_neg h, hot, if_neg (fun e => h e.symm), mul_zero]

/-- The one-hot entry itself, with the equation turned the same way. -/
theorem hot_eq (w q : BitVec 32) : hot w q = if w = q then (1 : EReal) else 0 := by
  by_cases h : w = q
  · rw [if_pos h, hot, if_pos h.symm]
  · rw [if_neg h, hot, if_neg (fun e => h e.symm)]

section

variable (C : Cert.Spec.SC.Idx → EReal) (X : Cert.Spec.SX.Idx → EReal)

/-- For any voxel word `q`: the padding points contribute 0 (their feature is 0), and a true point
    contributes its feature exactly when its flat voxel number is `q`. -/
theorem sums_of_padded_word (b : Fin 8) (ch : Fin 64) (q : BitVec 32)
    (Fp : Fin 100352 → EReal) (Ip : Fin 100352 → BitVec 32)
    (hF : ∀ (n : Fin 100352) (h : n.val < 100000), Fp n = X (Cert.Spec.xIx b ch ⟨n.val, h⟩))
    (hF0 : ∀ n : Fin 100352, 100000 ≤ n.val → Fp n = 0)
    (hI : ∀ (n : Fin 100352) (h : n.val < 100000), Ip n = Cert.Spec.flat C b ⟨n.val, h⟩) :
    ∑ n : Fin 100352, Fp n * hot (Ip n) q = Cert.Spec.sums C X b ch q := by
  rw [sum_drop_pad (fun n => Fp n * hot (Ip n) q) (fun n hn => by
    show Fp n * hot (Ip n) q = 0
    rw [hF0 n hn, zero_mul])]
  unfold Cert.Spec.sums
  refine Finset.sum_congr rfl fun n _ => ?_
  show Fp ⟨n.val, _⟩ * hot (Ip ⟨n.val, _⟩) q = _
  rw [hF ⟨n.val, by omega⟩ n.isLt, hI ⟨n.val, by omega⟩ n.isLt, mul_hot]

/-- For a voxel word `q` other than −1: the padding points' one-hot entries are 0 (their index word
    is −1), and a true point's is 1 exactly when its flat voxel number is `q`. -/
theorem cnt_of_padded_word (b : Fin 8) (q : BitVec 32) (hq : q ≠ 4294967295#32)
    (Ip : Fin 100352 → BitVec 32)
    (hI : ∀ (n : Fin 100352) (h : n.val < 100000), Ip n = Cert.Spec.flat C b ⟨n.val, h⟩)
    (hI1 : ∀ n : Fin 100352, 100000 ≤ n.val → Ip n = 4294967295#32) :
    ∑ n : Fin 100352, hot (Ip n) q = Cert.Spec.cnt C b q := by
  rw [sum_drop_pad (fun n => hot (Ip n) q) (fun n hn => by
    show hot (Ip n) q = 0
    rw [hI1 n hn, hot, if_neg hq])]
  unfold Cert.Spec.cnt
  refine Finset.sum_congr rfl fun n _ => ?_
  show hot (Ip ⟨n.val, _⟩) q = _
  rw [hI ⟨n.val, by omega⟩ n.isLt, hot_eq]

theorem sums_of_padded (b : Fin 8) (ch : Fin 64) (ct : Fin 8) (r' : Fin 4096)
    (Fp : Fin 100352 → EReal) (Ip : Fin 100352 → BitVec 32)
    (hF : ∀ (n : Fin 100352) (h : n.val < 100000), Fp n = X (Cert.Spec.xIx b ch ⟨n.val, h⟩))
    (hF0 : ∀ n : Fin 100352, 100000 ≤ n.val → Fp n = 0)
    (hI : ∀ (n : Fin 100352) (h : n.val < 100000), Ip n = Cert.Spec.flat C b ⟨n.val, h⟩)
    (hI1 : ∀ n : Fin 100352, 100000 ≤ n.val → Ip n = 4294967295#32) :
    ∑ n : Fin 100352, Fp n * hot (Ip n) (cls ct.val r')
      = Cert.Spec.sums C X b ch (BitVec.ofNat 32 (ct.val * 4096 + r'.val)) := by
  rw [← cls_eq]
  exact sums_of_padded_word C X b ch _ Fp Ip hF hF0 hI

theorem cnt_of_padded (b : Fin 8) (ct : Fin 8) (r' : Fin 4096) (Ip : Fin 100352 → BitVec 32)
    (hI : ∀ (n : Fin 100352) (h : n.val < 100000), Ip n = Cert.Spec.flat C b ⟨n.val, h⟩)
    (hI1 : ∀ n : Fin 100352, 100000 ≤ n.val → Ip n = 4294967295#32) :
    ∑ n : Fin 100352, hot (Ip n) (cls ct.val r')
      = Cert.Spec.cnt C b (BitVec.ofNat 32 (ct.val * 4096 + r'.val)) := by
  rw [← cls_eq]
  exact cnt_of_padded_word C b _ (cls_ne_pad ct r') Ip hI hI1

end

end Cert.KernelIdeal.Hand

end
-- ==== Proof.Layout.lean ====
/- The kernel program's last host operation reshapes the averaged grid, laid out per batch and
   channel as 32768 consecutive voxels, into the three voxel axes: the voxel (x, y, z) is entry
   x·1024 + y·32 + z of its row. A voxel number splits into its tile of 4096 and its place in it. -/
import proofs.«136429_j63960652972185_1_alg».proof.KernelIdeal
import Idealize.ShloMosaic.Lib.ValueIdx
import Idealize.ShloMosaic.Lib.Pipeline.Value

noncomputable section

namespace Cert.KernelIdeal.Hand

open Cert.KernelIdeal Idealize.ShloMosaic

variable [Facts]
open Facts₀ Facts

/-- The reshape [8, 64, 32768] → [8, 64, 32, 32, 32] read at (b, ch, x, y, z): both indices have the
    row-major position ((b·64 + ch)·32 + x)·32·32 + y·32 + z. -/
theorem reshape5_apply {α : Type} (Y : S8x64x32768.Idx → α) (b : Fin 8) (ch : Fin 64) (x y z : Fin 32) :
    shapeCast S8x64x32x32x32 Y shapeCasts_S8x64x32768_S8x64x32x32x32 (ValueIdx.ix5 b ch x y z)
      = Y (ValueIdx.ix3 b ch ⟨x.val * 1024 + y.val * 32 + z.val, by omega⟩) := by
  refine shapeCast_apply Y shapeCasts_S8x64x32768_S8x64x32x32x32 _ _ ?_
  rewrite [Shape.rowMajor_val_three, Shape.rowMajor_val_five]
  show (b.val * 64 + ch.val) * 32768 + (x.val * 1024 + y.val * 32 + z.val)
    = (((b.val * 64 + ch.val) * 32 + x.val) * 32 + y.val) * 32 + z.val
  omega

/-- A voxel number below 32768 is its tile of 4096 voxels, one of eight, and its place in the tile. -/
theorem voxel_split (x y z : Fin 32) :
    (x.val * 1024 + y.val * 32 + z.val) / 4096 < 8
      ∧ (x.val * 1024 + y.val * 32 + z.val) % 4096 < 4096
      ∧ ((x.val * 1024 + y.val * 32 + z.val) / 4096) * 4096 + (x.val * 1024 + y.val * 32 + z.val) % 4096
          = x.val * 1024 + y.val * 32 + z.val := by
  refine ⟨?_, ?_, ?_⟩ <;> omega

end Cert.KernelIdeal.Hand

end
-- ==== Proof.KOut.lean ====
/- What the idealized kernel program leaves in its two results, entry by entry, in terms of the
   specification: the normalized coordinates come from the first region's output array; the
   averaged grid from the second region's, whose accumulators after the last point tile are the
   sums over the padded point axis of feature × one-hot, the padding contributing nothing. -/
import proofs.«136429_j63960652972185_1_alg».proof.Proof.Run
import proofs.«136429_j63960652972185_1_alg».proof.Proof.ValA
import proofs.«136429_j63960652972185_1_alg».proof.Proof.ValB
import proofs.«136429_j63960652972185_1_alg».proof.Proof.MathNormK
import proofs.«136429_j63960652972185_1_alg».proof.Proof.MathAccK
import proofs.«136429_j63960652972185_1_alg».proof.Proof.AccClosed
import proofs.«136429_j63960652972185_1_alg».proof.Proof.HotSum
import proofs.«136429_j63960652972185_1_alg».proof.Proof.PadSum
import proofs.«136429_j63960652972185_1_alg».proof.Proof.Layout

set_option maxRecDepth 16384

noncomputable section

namespace Cert.KernelIdeal.Hand

open Cert.KernelIdeal Cert.KernelIdeal.Gen
open Idealize.ShloMosaic Idealize.ShloMosaic.TcCoe
open Idealize.SL Idealize.SL.Sem

variable (m : (ℓ : Loc nD τ sig) → Buf (Elt Ideal) ℓ) (ρ : Dev nD → PrngReg)

/-- The two argument arrays of core `c` as the specification takes them. -/
abbrev Xof (c : Dev nD) : Cert.Spec.SX.Idx → EReal := m ((c.tc : Thread nD τ).loc main_arg0)
abbrev Cof (c : Dev nD) : Cert.Spec.SC.Idx → EReal := m ((c.tc : Thread nD τ).loc main_arg1)

/-- The padded feature array and the padded index array the second region is handed. -/
def Fp (c : Dev nD) : Vec Ideal S8x64x100352 .bf16 := V5 m ρ c main_v2
def Ip (c : Dev nD) : Vec Ideal S8x1x100352 .i32 := V5 m ρ c main_v3

/-- The second result: the normalized coordinates. -/
theorem kernel_norm (c : Dev nD) (b : Fin 8) (a : Fin 3) (n : Fin 100000) :
    W7 m ρ c (Proc.devRef .tc main_v0_0) (ValueIdx.ix3 b a n) = Cert.Spec.norm (Cof m c) b a n := by
  rw [W7_main_v0_0, arrAt0_1, k0_norm_apply]

/-- Below the padding the index array holds the flat voxel number. -/
theorem idx_lo (c : Dev nD) (b : Fin 8) (n : Fin 100352) (h : n.val < 100000) :
    Ip m ρ c (ValueIdx.ix3 b (0 : Fin 1) n) = Cert.Spec.flat (Cof m c) b ⟨n.val, h⟩ := by
  unfold Ip
  rw [V5_main_v3, padI_lo (F := Ideal) _ _ b n h, arrAt0_2, k0_flat_apply]

/-- In the padding the index word is −1. -/
theorem idx_hi (c : Dev nD) (b : Fin 8) (n : Fin 100352) (h : 100000 ≤ n.val) :
    Ip m ρ c (ValueIdx.ix3 b (0 : Fin 1) n) = 4294967295#32 := by
  unfold Ip
  rw [V5_main_v3, padI_hi (F := Ideal) _ _ b n h]
  rfl

/-- Below the padding the feature array holds the features (a change of float format is the
    identity over the extended reals). -/
theorem feat_lo (c : Dev nD) (b : Fin 8) (ch : Fin 64) (n : Fin 100352) (h : n.val < 100000) :
    Fp m ρ c (ValueIdx.ix3 b ch n) = Xof m c (Cert.Spec.xIx b ch ⟨n.val, h⟩) := by
  unfold Fp
  rw [V5_main_v2, padF_lo (F := Ideal) _ _ b ch n h]
  rfl

/-- In the padding the feature is zero. -/
theorem feat_hi (c : Dev nD) (b : Fin 8) (ch : Fin 64) (n : Fin 100352) (h : 100000 ≤ n.val) :
    Fp m ρ c (ValueIdx.ix3 b ch n) = 0 := by
  unfold Fp
  rw [V5_main_v2, padF_hi (F := Ideal) _ _ b ch n h]
  show ((((0#32 : BitVec 32).toInt : ℝ)) : EReal) = 0
  simp

/-- The first result: the averaged grid. -/
theorem kernel_grid (c : Dev nD) (b : Fin 8) (ch : Fin 64) (x y z : Fin 32) :
    W7 m ρ c (Proc.devRef .tc main_v5) (ValueIdx.ix5 b ch x y z)
      = Cert.Spec.avg (Cof m c) (Xof m c) b ch (BitVec.ofNat 32 (x.val * 1024 + y.val * 32 + z.val)) := by
  obtain ⟨hct, hr', hsplit⟩ := voxel_split x y z
  rw [W7_main_v5, reshape5_apply]
  have hidx : (⟨x.val * 1024 + y.val * 32 + z.val, by omega⟩ : Fin 32768)
      = ⟨(⟨(x.val * 1024 + y.val * 32 + z.val) / 4096, hct⟩ : Fin 8).val * 4096 + (⟨(x.val * 1024 + y.val * 32 + z.val) % 4096, hr'⟩ : Fin 4096).val, by omega⟩ :=
    Fin.ext hsplit.symm
  rw [hidx, arrAt1_2 (V5 m ρ) c b ch ⟨(x.val * 1024 + y.val * 32 + z.val) / 4096, hct⟩ ⟨(x.val * 1024 + y.val * 32 + z.val) % 4096, hr'⟩]
  unfold out1_2
  rw [k1_pay1_apply,
    accS_closed (V5 m ρ) c b ⟨_, hct⟩ ch ⟨_, hr'⟩ (Fp m ρ c) (Ip m ρ c) rfl rfl,
    accC_closed (V5 m ρ) c b ⟨_, hct⟩ ⟨_, hr'⟩ (Ip m ρ c) rfl]
  rw [sums_of_padded (Cof m c) (Xof m c) b ch ⟨_, hct⟩ ⟨_, hr'⟩
        (fun n => Fp m ρ c (ValueIdx.ix3 b ch n)) (fun n => Ip m ρ c (ValueIdx.ix3 b (0 : Fin 1) n))
        (fun n h => feat_lo m ρ c b ch n h) (fun n h => feat_hi m ρ c b ch n h)
        (fun n h => idx_lo m ρ c b n h) (fun n h => idx_hi m ρ c b n h),
      cnt_of_padded (Cof m c) b ⟨_, hct⟩ ⟨_, hr'⟩
        (fun n => Ip m ρ c (ValueIdx.ix3 b (0 : Fin 1) n))
        (fun n h => idx_lo m ρ c b n h) (fun n h => idx_hi m ρ c b n h)]
  show Ideal.div (Cert.Spec.sums _ _ b ch (BitVec.ofNat 32 ((x.val * 1024 + y.val * 32 + z.val) / 4096 * 4096 + (x.val * 1024 + y.val * 32 + z.val) % 4096))) _ = _
  rw [hsplit]
  rfl

end Cert.KernelIdeal.Hand

end
-- ==== Proof.MathNormR.lean ====
/- The reference's normalized coordinates and flat voxel number, read at an index, are the
   specification's. -/
import proofs.«136429_j63960652972185_1_alg».proof.Proof.Spec
import proofs.«136429_j63960652972185_1_alg».proof.Proof.Gen.ReferenceIdeal.Read
import Idealize.ShloMosaic.PureOps.Reduce
import Idealize.ShloMosaic.Lib.ValueIdx

noncomputable section

namespace Cert.ReferenceIdeal.Hand

open Cert.ReferenceIdeal Cert.ReferenceIdeal.Read Idealize.ShloMosaic
open Idealize.ShloMosaic.ValueIdx (ix2 ix3)

/-! ## The clip bounds: the integers 0 and 31 converted are the float words 0.0 and 31.0 -/

theorem sitofp_zero : FloatOps.sitofp (F := Ideal) .f32 (0#32 : BitVec 32) = Cert.Spec.zero := by
  show (((0#32 : BitVec 32).toInt : ℝ) : EReal) = Ideal.ofBits .f32 0x00000000#32
  rw [Ideal.ofBits_zero_f32]
  simp

theorem sitofp_thirtyOne : FloatOps.sitofp (F := Ideal) .f32 (31#32 : BitVec 32) = Cert.Spec.top31 := by
  show (((31#32 : BitVec 32).toInt : ℝ) : EReal) = Ideal.ofBits .f32 0x41F80000#32
  simp [Ideal.ofBits, Ideal.ieee, -EReal.coe_mul]
  norm_num

/-! ## Index equations: the composed index maps of the layout operations, at coordinates -/

theorem idx_mean (b : Fin 8) (a : Fin 3) (z : Fin 1) (k : Fin 100000) :
    idx_main_v0 (idx_main_v1 (ix3 b a z)) k = ix3 b a k :=
  funext fun c => Fin.ext (by match c with | ⟨0, _⟩ => rfl | ⟨1, _⟩ => rfl | ⟨2, _⟩ => rfl)

theorem idx_bcastMean (b : Fin 8) (a : Fin 3) (n : Fin 100000) :
    idx_main_v4 (ix3 b a n) = ix3 b a (0 : Fin 1) :=
  funext fun c => Fin.ext (by match c with | ⟨0, _⟩ => rfl | ⟨1, _⟩ => rfl | ⟨2, _⟩ => rfl)

theorem idx_sq (b : Fin 8) (z : Fin 1) (n : Fin 100000) (k : Fin 3) :
    idx_main_call0_v1 (idx_main_call0_v2 (ix3 b z n)) k = ix3 b k n :=
  funext fun c => Fin.ext (by match c with | ⟨0, _⟩ => rfl | ⟨1, _⟩ => rfl | ⟨2, _⟩ => rfl)

theorem idx_bcastMax (b : Fin 8) (a : Fin 3) (n : Fin 100000) :
    idx_main_v8 (idx_main_v11 (ix3 b a n)) = ix2 b (0 : Fin 1) :=
  funext fun c => Fin.ext (by match c with | ⟨0, _⟩ => rfl | ⟨1, _⟩ => rfl)

/-- A point of the flattened (batch, point) grid, read through the reshape and the slice of axis `a`, is (b, a, n). -/
theorem idx_axis0 (b : Fin 8) (n : Fin 100000) :
    idx_main_v20 (idx_main_v21 (ix2 b n)) = ix3 b (0 : Fin 3) n :=
  funext fun c => Fin.ext (by
    have hb : b.val < 8 := b.isLt
    have hn : n.val < 100000 := n.isLt
    match c with
    | ⟨0, _⟩ => show (b.val * 100000 + n.val) / 100000 = b.val; omega
    | ⟨1, _⟩ => rfl
    | ⟨2, _⟩ => show (b.val * 100000 + n.val) % 100000 = n.val; omega)

theorem idx_axis1 (b : Fin 8) (n : Fin 100000) :
    idx_main_v24 (idx_main_v25 (ix2 b n)) = ix3 b (1 : Fin 3) n :=
  funext fun c => Fin.ext (by
    have hb : b.val < 8 := b.isLt
    have hn : n.val < 100000 := n.isLt
    match c with
    | ⟨0, _⟩ => show (b.val * 100000 + n.val) / 100000 = b.val; omega
    | ⟨1, _⟩ => rfl
    | ⟨2, _⟩ => show (b.val * 100000 + n.val) % 100000 = n.val; omega)

theorem idx_axis2 (b : Fin 8) (n : Fin 100000) :
    idx_main_v29 (idx_main_v30 (ix2 b n)) = ix3 b (2 : Fin 3) n :=
  funext fun c => Fin.ext (by
    have hb : b.val < 8 := b.isLt
    have hn : n.val < 100000 := n.isLt
    match c with
    | ⟨0, _⟩ => show (b.val * 100000 + n.val) / 100000 = b.val; omega
    | ⟨1, _⟩ => rfl
    | ⟨2, _⟩ => show (b.val * 100000 + n.val) % 100000 = n.val; omega)

/-! ## The reference's intermediate values at coordinates -/

/-- The per-batch, per-axis mean: the sum over the points, from the zero word, divided by the number of points. -/
theorem ref_mean (C : (⟨S8x3x100000, .f32⟩ : BufTy).Contents (Elt Ideal)) (b : Fin 8) (a : Fin 3) (z : Fin 1) :
    val_main_v3 (F := Ideal) C (ix3 b a z) = Cert.Spec.mean C b a := by
  rw [val_main_v3_apply, val_main_v1_apply, val_main_v0_apply, val_main_v2_apply, val_main_cst_0_apply,
    val_main_cst_apply]
  simp only [idx_mean, Ideal.hostDivf_def, Ideal.ofBits_def]
  rfl

/-- The centred coordinate: the coordinate minus its batch's mean on that axis. -/
theorem ref_cen (C : (⟨S8x3x100000, .f32⟩ : BufTy).Contents (Elt Ideal)) (b : Fin 8) (a : Fin 3) (n : Fin 100000) :
    val_main_v5 (F := Ideal) C (ix3 b a n) = Cert.Spec.cen C b a n := by
  rw [val_main_v5_apply, val_main_v4_apply, idx_bcastMean, ref_mean]
  rfl

/-- The distance from the origin: the root of the sum, from the zero word, of the three squared centred coordinates. -/
theorem ref_rad (C : (⟨S8x3x100000, .f32⟩ : BufTy).Contents (Elt Ideal)) (b : Fin 8) (z : Fin 1) (n : Fin 100000) :
    val_main_v6 (F := Ideal) C (ix3 b z n) = Cert.Spec.rad C b n := by
  rw [val_main_v6_apply, val_main_call0_v2_apply, val_main_call0_v1_apply, val_main_call0_cst_apply]
  simp only [val_main_call0_v0_apply, idx_sq, ref_cen, Ideal.hostUnary_sqrt_def, Ideal.mulf_def, Ideal.ofBits_def]
  rfl

/-- The result index (b, z) of the maximum over the points, with point `k` put back, is (b, z, k). -/
theorem lift_points (h : S8x1x100000.Reduces [2] S8x1) (b : Fin 8) (z : Fin 1) (k : Fin (S8x1x100000.size 2)) :
    h.lift (ix2 b z) k = ix3 b z (⟨k.val, k.isLt⟩ : Fin 100000) := by
  funext c; apply Fin.ext
  fin_cases c <;> rfl

/-- The largest distance in a batch: the maximum, from minus infinity, over the points. -/
theorem ref_maxRad (C : (⟨S8x3x100000, .f32⟩ : BufTy).Contents (Elt Ideal)) (b : Fin 8) (z : Fin 1) :
    val_main_v7 (F := Ideal) C (ix2 b z) = Cert.Spec.maxRad C b := by
  have hR : S8x1x100000.Reduces [2] S8x1 := by decide
  unfold val_main_v7
  rw [Host.reduce_eq_fold_single FloatOps.maximumf _ _ _ hR]
  have hf : (val_main_v6 (F := Ideal) C ∘ hR.lift (ix2 b z)) = fun n : Fin 100000 => Cert.Spec.rad C b n :=
    funext fun k => by
      show val_main_v6 (F := Ideal) C (hR.lift (ix2 b z) k) = _
      rw [lift_points hR b z k]
      exact ref_rad C b z _
  rw [hf]
  rfl

/-! ## The two results -/

theorem ref_norm_apply (C : (⟨S8x3x100000, .f32⟩ : BufTy).Contents (Elt Ideal)) (b : Fin 8) (a : Fin 3) (n : Fin 100000) :
    val_main_v17 (F := Ideal) C (ValueIdx.ix3 b a n) = Cert.Spec.norm C b a n := by
  rw [val_main_v17_apply, val_main_call1_v4_apply, val_main_call1_v3_apply, val_main_c_5_apply,
    val_main_call1_v2_apply, val_main_call1_v1_apply, val_main_call1_v0_apply, val_main_c_apply,
    val_main_v16_apply, val_main_v15_apply, val_main_cst_4_apply, val_main_v14_apply, val_main_v13_apply,
    val_main_cst_3_apply, val_main_v12_apply, val_main_v11_apply, val_main_v10_apply, val_main_v9_apply,
    val_main_cst_2_apply, val_main_v8_apply, idx_bcastMax, ref_maxRad, ref_cen, sitofp_zero, sitofp_thirtyOne]
  simp only [Ideal.minimumf_def, Ideal.maximumf_def, Ideal.mulf_def, Ideal.addf_def, Ideal.hostDivf_def,
    Ideal.ofBits_def]
  rfl

/-- At the extended reals the conversion to a signed word is the truncating, clamping one. -/
theorem fptosi_ideal (x : Ideal .f32) : FloatOps.fptosi (F := Ideal) 32 x = Ideal.fptosi 32 x := rfl

/-- The voxel coordinate along an axis: the normalized coordinate rounded to the nearest integer, ties to even, as a word. -/
theorem ref_vox (C : (⟨S8x3x100000, .f32⟩ : BufTy).Contents (Elt Ideal)) (b : Fin 8) (a : Fin 3) (n : Fin 100000) :
    val_main_v19 (F := Ideal) C (ix3 b a n) = Cert.Spec.vox C b a n := by
  rw [val_main_v19_apply, val_main_v18_apply, ref_norm_apply, Ideal.hostUnary_roundeven_def, fptosi_ideal]
  unfold Cert.Spec.vox
  rfl

theorem ref_flat_apply (C : (⟨S8x3x100000, .f32⟩ : BufTy).Contents (Elt Ideal)) (b : Fin 8) (n : Fin 100000) :
    val_main_v31 (F := Ideal) C (ValueIdx.ix2 b n) = Cert.Spec.flat C b n := by
  rw [val_main_v31_apply, val_main_v30_apply, val_main_v29_apply, val_main_v28_apply, val_main_v27_apply,
    val_main_c_7_apply, val_main_v26_apply, val_main_v25_apply, val_main_v24_apply, val_main_v23_apply,
    val_main_v22_apply, val_main_c_6_apply, val_main_v21_apply, val_main_v20_apply, idx_axis0, idx_axis1,
    idx_axis2, ref_vox, ref_vox, ref_vox]
  unfold Cert.Spec.flat IntOp.addi IntOp.muli
  rfl

end Cert.ReferenceIdeal.Hand

end
-- ==== Proof.MathGridR1.lean ====
/- The reference's two accumulating scatters read at an element, and the arithmetic of their rows.

   An accumulating scatter's element is the operand's element plus the sum of the updates that land on
   it. Here the 800000 updates (rows of 64 features, or single ones) each carry one 32-bit index word,
   and an update lands on row s of the 262144-row operand exactly when its word, read signed, is s;
   the feature scatter keeps the update's column. So an element of either result is the operand's
   plus a sum over the 800000 update positions of the updates whose word is the row.

   A position is a batch b' and a point n of it, batch-major, and the word there is f + b'·32768 with
   f the point's flat voxel number, below 32768. Such a word neither wraps nor turns negative, and it
   equals b·32768 + r with r below 32768 exactly when b' = b and f = r. -/
import proofs.«136429_j63960652972185_1_alg».proof.Proof.Gen.ReferenceIdeal.Read
import Idealize.ShloMosaic.Lib.ValueIdx
import Idealize.ShloMosaic.PureOps.Ideal
import Mathlib.Algebra.BigOperators.Group.Finset.Basic
import Mathlib.Algebra.BigOperators.Fin

noncomputable section

namespace Cert.ReferenceIdeal.Hand

open Cert.ReferenceIdeal Cert.ReferenceIdeal.Read Idealize.ShloMosaic

/-- An update lands on an operand element exactly when, on every operand axis, the window's start
    (the index word read signed) plus the window coordinate is that element's coordinate. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split_ifs with h
  · rw [Option.some_inj]
    constructor
    · intro e a
      have h1 := h a
      have := congrArg (fun f => (f a).val) e
      simp only at this
      omega
    · intro e
      funext a
      apply Fin.ext
      have := e a
      simp only
      omega
  · constructor
    · intro e; cases e
    · intro e
      exfalso
      apply h
      intro a
      have := e a
      have := (i a).isLt
      omega

/-- The dimension numbers of the feature scatter (rows chosen by the index word, the column kept)
    and of the count scatter (rows only). -/
abbrev dS := scatter_S262144x64_S800000x1_S800000x64_1_0_0_1
abbrev dC := scatter_S262144_S800000x1_S800000_n_0_0_1

/-- The feature scatter reads the start index of update (p, q) at (p, 0) of the index array. -/
theorem dS_siIdx (p : Fin 800000) (q : Fin 64) (c : Fin dS.scatterDimsToOperandDims.length) :
    dS.siIdx (ValueIdx.ix2 p q) c = ValueIdx.ix2 p 0 := by
  funext b
  apply Fin.ext
  match b with
  | ⟨0, _⟩ =>
    simp only [ScatterDims.siIdx, ScatterDims.siCoord]
    rw [dif_neg (by decide)]
    rfl
  | ⟨1, _⟩ =>
    simp [ScatterDims.siIdx, ScatterDims.siCoord, dS, scatter_S262144x64_S800000x1_S800000x64_1_0_0_1]

theorem dS_start0 (p : Fin 800000) (q : Fin 64) (idx : IVec S800000x1 32) :
    dS.start (ValueIdx.ix2 p q) idx 0 = (idx (ValueIdx.ix2 p 0)).toInt := by
  unfold ScatterDims.start
  rw [dif_pos (by decide), dS_siIdx]

theorem dS_start1 (p : Fin 800000) (q : Fin 64) (idx : IVec S800000x1 32) :
    dS.start (ValueIdx.ix2 p q) idx 1 = 0 := by
  unfold ScatterDims.start
  rw [dif_neg (by decide)]

theorem dS_window0 (p : Fin 800000) (q : Fin 64) : dS.window (ValueIdx.ix2 p q) 0 = 0 := by
  unfold ScatterDims.window
  rw [dif_neg (by decide)]

theorem dS_window1 (p : Fin 800000) (q : Fin 64) : dS.window (ValueIdx.ix2 p q) 1 = q.val := by
  unfold ScatterDims.window
  rw [dif_pos (by decide)]
  rfl

/-- Update (p, q) of the feature scatter lands on element (s, ch) exactly when its index word, read
    signed, is s and its column q is ch. -/
theorem dS_lands (p : Fin 800000) (q : Fin 64) (idx : IVec S800000x1 32) (s : Fin 262144) (ch : Fin 64) :
    dS.resultIdx? (ValueIdx.ix2 p q) idx = some (ValueIdx.ix2 s ch)
      ↔ (idx (ValueIdx.ix2 p 0)).toInt = (s.val : Int) ∧ q = ch := by
  rw [resultIdx?_eq_some_iff]
  constructor
  · intro h
    have h0 := h 0
    have h1 := h 1
    rw [dS_start0, dS_window0] at h0
    rw [dS_start1, dS_window1] at h1
    refine ⟨by simpa using h0, Fin.ext ?_⟩
    have : ((q.val : Int)) = (ch.val : Int) := by simpa using h1
    exact_mod_cast this
  · rintro ⟨h0, rfl⟩ a
    match a with
    | ⟨0, _⟩ =>
      show dS.start (ValueIdx.ix2 p q) idx 0 + (dS.window (ValueIdx.ix2 p q) 0 : Int) = _
      rw [dS_start0, dS_window0, h0]; simp
    | ⟨1, _⟩ =>
      show dS.start (ValueIdx.ix2 p q) idx 1 + (dS.window (ValueIdx.ix2 p q) 1 : Int) = _
      rw [dS_start1, dS_window1]; simp

/-- The count scatter reads the start index of update p at (p, 0) of the index array. -/
theorem dC_siIdx (p : Fin 800000) (c : Fin dC.scatterDimsToOperandDims.length) :
    dC.siIdx (ValueIdx.ix1 p) c = ValueIdx.ix2 p 0 := by
  funext b
  apply Fin.ext
  match b with
  | ⟨0, _⟩ =>
    simp only [ScatterDims.siIdx, ScatterDims.siCoord]
    rw [dif_neg (by decide)]
    rfl
  | ⟨1, _⟩ =>
    simp [ScatterDims.siIdx, ScatterDims.siCoord, dC, scatter_S262144_S800000x1_S800000_n_0_0_1]

theorem dC_start0 (p : Fin 800000) (idx : IVec S800000x1 32) :
    dC.start (ValueIdx.ix1 p) idx 0 = (idx (ValueIdx.ix2 p 0)).toInt := by
  unfold ScatterDims.start
  rw [dif_pos (by decide), dC_siIdx]

theorem dC_window0 (p : Fin 800000) : dC.window (ValueIdx.ix1 p) 0 = 0 := by
  unfold ScatterDims.window
  rw [dif_neg (by decide)]

/-- Update p of the count scatter lands on element s exactly when its index word, read signed, is s. -/
theorem dC_lands (p : Fin 800000) (idx : IVec S800000x1 32) (s : Fin 262144) :
    dC.resultIdx? (ValueIdx.ix1 p) idx = some (ValueIdx.ix1 s)
      ↔ (idx (ValueIdx.ix2 p 0)).toInt = (s.val : Int) := by
  rw [resultIdx?_eq_some_iff]
  constructor
  · intro h
    have h0 := h 0
    rw [dC_start0, dC_window0] at h0
    simpa using h0
  · intro h0 a
    match a with
    | ⟨0, _⟩ =>
      show dC.start (ValueIdx.ix1 p) idx 0 + (dC.window (ValueIdx.ix1 p) 0 : Int) = _
      rw [dC_start0, dC_window0, h0]; simp

/-- The index word of a point of batch b' with flat voxel number f below 32768 is f + b'·32768, which
    neither wraps nor is negative read signed; so it names row b·32768 + r (r below 32768) exactly when
    the batches agree and f is r. -/
theorem word_lands (f : BitVec 32) (hf : f.toNat < 32768) (b' b : Fin 8) (r : Nat) (hr : r < 32768) :
    (f + BitVec.ofNat 32 b'.val * 32768#32).toInt = ((b.val * 32768 + r : Nat) : Int)
      ↔ b' = b ∧ f = BitVec.ofNat 32 r := by
  have hb' := b'.isLt
  have hb := b.isLt
  have hN : (f + BitVec.ofNat 32 b'.val * 32768#32).toNat = f.toNat + b'.val * 32768 := by
    simp only [BitVec.toNat_add, BitVec.toNat_mul, BitVec.toNat_ofNat]
    omega
  rw [BitVec.toInt_eq_toNat_of_lt (by rw [hN]; omega), hN]
  constructor
  · intro h
    have h' : f.toNat + b'.val * 32768 = b.val * 32768 + r := by exact_mod_cast h
    refine ⟨Fin.ext (by omega), ?_⟩
    apply BitVec.eq_of_toNat_eq
    rw [BitVec.toNat_ofNat]
    omega
  · rintro ⟨rfl, rfl⟩
    rw [BitVec.toNat_ofNat]
    have : r % 2 ^ 32 = r := Nat.mod_eq_of_lt (by omega)
    rw [this]
    push_cast
    omega

/-- A rank-1 index set is its one coordinate range, so a sum over it is the sum over the coordinate. -/
def idxEquiv1 {n : Nat} : (⟨1, ![n]⟩ : Shape).Idx ≃ Fin n where
  toFun i := i 0
  invFun p := ValueIdx.ix1 p
  left_inv i := (ValueIdx.eq_ix1 i).symm
  right_inv _ := rfl

theorem sum_idx1 {M : Type*} [AddCommMonoid M] {n : Nat} (f : (⟨1, ![n]⟩ : Shape).Idx → M) :
    ∑ i, f i = ∑ a : Fin n, f (ValueIdx.ix1 a) := by
  rw [← Equiv.sum_comp (idxEquiv1 (n := n)).symm f]
  rfl

/-- The feature scatter at element (s, ch): the operand there plus the updates of column ch whose
    index word, read signed, is s. -/
theorem scatterS_apply (x : S262144x64.Idx → EReal) (idx : IVec S800000x1 32) (upd : S800000x64.Idx → EReal)
    (s : Fin 262144) (ch : Fin 64) :
    Ideal.hostScatterAdd dS x idx upd (ValueIdx.ix2 s ch)
      = x (ValueIdx.ix2 s ch)
        + ∑ p : Fin 800000, if (idx (ValueIdx.ix2 p 0)).toInt = (s.val : Int) then upd (ValueIdx.ix2 p ch) else 0 := by
  unfold Ideal.hostScatterAdd
  refine congrArg (_ + ·) ?_
  rw [Finset.sum_filter, ValueIdx.sum_idx2]
  refine Finset.sum_congr rfl fun p _ => ?_
  by_cases hA : (idx (ValueIdx.ix2 p 0)).toInt = (s.val : Int)
  · rw [if_pos hA, Finset.sum_eq_single ch]
    · rw [if_pos ((dS_lands p ch idx s ch).2 ⟨hA, rfl⟩)]
    · intro q _ hq
      rw [if_neg]
      intro h
      exact hq ((dS_lands p q idx s ch).1 h).2
    · intro h; exact absurd (Finset.mem_univ ch) h
  · rw [if_neg hA]
    refine Finset.sum_eq_zero fun q _ => ?_
    rw [if_neg]
    intro h
    exact hA ((dS_lands p q idx s ch).1 h).1

/-- The count scatter at element s: the operand there plus the updates whose index word, read
    signed, is s. -/
theorem scatterC_apply (x : S262144.Idx → EReal) (idx : IVec S800000x1 32) (upd : S800000.Idx → EReal)
    (s : Fin 262144) :
    Ideal.hostScatterAdd dC x idx upd (ValueIdx.ix1 s)
      = x (ValueIdx.ix1 s)
        + ∑ p : Fin 800000, if (idx (ValueIdx.ix2 p 0)).toInt = (s.val : Int) then upd (ValueIdx.ix1 p) else 0 := by
  unfold Ideal.hostScatterAdd
  refine congrArg (_ + ·) ?_
  rw [Finset.sum_filter, sum_idx1]
  refine Finset.sum_congr rfl fun p _ => ?_
  by_cases hA : (idx (ValueIdx.ix2 p 0)).toInt = (s.val : Int)
  · rw [if_pos hA, if_pos ((dC_lands p idx s).2 hA)]
  · rw [if_neg hA, if_neg (fun h => hA ((dC_lands p idx s).1 h))]

/-- A position of the flattened point list is a batch and a point of it, batch-major. -/
def rowEquiv : Fin 8 × Fin 100000 ≃ Fin 800000 where
  toFun x := ⟨x.1.val * 100000 + x.2.val, by have := x.1.isLt; have := x.2.isLt; omega⟩
  invFun p := (⟨p.val / 100000, by have := p.isLt; omega⟩, ⟨p.val % 100000, Nat.mod_lt _ (by decide)⟩)
  left_inv x := by
    have h1 := x.1.isLt
    have h2 := x.2.isLt
    refine Prod.ext (Fin.ext ?_) (Fin.ext ?_)
    · show (x.1.val * 100000 + x.2.val) / 100000 = x.1.val; omega
    · show (x.1.val * 100000 + x.2.val) % 100000 = x.2.val; omega
  right_inv p := by
    refine Fin.ext ?_
    show p.val / 100000 * 100000 + p.val % 100000 = p.val
    omega

theorem sum_rows {M : Type*} [AddCommMonoid M] (G : Fin 800000 → M) :
    ∑ p, G p = ∑ b' : Fin 8, ∑ n : Fin 100000, G (rowEquiv (b', n)) := by
  rw [← Equiv.sum_comp rowEquiv G, Fintype.sum_prod_type]

/-- Of a sum over batches and points restricted to one batch only that batch's points remain. -/
theorem sum_pick {M : Type*} [AddCommMonoid M] (b : Fin 8) (P : Fin 8 → Fin 100000 → Prop)
    [∀ b' n, Decidable (P b' n)] (g : Fin 8 → Fin 100000 → M) :
    (∑ b' : Fin 8, ∑ n : Fin 100000, if b' = b ∧ P b' n then g b' n else 0)
      = ∑ n : Fin 100000, if P b n then g b n else 0 := by
  rw [Finset.sum_eq_single b]
  · refine Finset.sum_congr rfl fun n _ => ?_
    by_cases h : P b n
    · rw [if_pos ⟨rfl, h⟩, if_pos h]
    · rw [if_neg (fun hh => h hh.2), if_neg h]
  · intro b' _ hne
    refine Finset.sum_eq_zero fun n _ => ?_
    rw [if_neg (fun hh => hne hh.1)]
  · intro h; exact absurd (Finset.mem_univ b) h

end Cert.ReferenceIdeal.Hand
end
-- ==== Proof.MathGridR.lean ====
/- The reference's averaged voxel grid, read at an index, is the specification's average.

   The reference gives point n of batch b the index word flat(b, n) + b·32768 and adds, for every
   point, its 64 features into row "index word" of a 262144 × 64 array of zeros and a one into the
   same row of a 262144 array of zeros; the grid is the quotient of the first by the larger of the
   second and one, read row-major as 8 × 32 × 32 × 32 × 64 with the channel axis moved to second place.

   The flat voxel number is below 32768, so row b·32768 + r collects exactly the points of batch b in
   voxel r: the specification's sums and counts. Entry (b, ch, x, y, z) of the grid is row
   b·32768 + (x·1024 + y·32 + z), column ch, of the quotient. -/
import proofs.«136429_j63960652972185_1_alg».proof.Proof.SpecFacts
import proofs.«136429_j63960652972185_1_alg».proof.Proof.MathNormR
import proofs.«136429_j63960652972185_1_alg».proof.Proof.Gen.ReferenceIdeal.Read
import proofs.«136429_j63960652972185_1_alg».proof.Proof.Spec
import proofs.«136429_j63960652972185_1_alg».proof.Proof.MathGridR1

noncomputable section

namespace Cert.ReferenceIdeal.Hand

open Cert.ReferenceIdeal Cert.ReferenceIdeal.Read Idealize.ShloMosaic

/-- The index word the reference gives point n of batch b': its flat voxel number plus b'·32768. -/
theorem ref_word (C : (⟨S8x3x100000, .f32⟩ : BufTy).Contents (Elt Ideal)) (b' : Fin 8) (n : Fin 100000) :
    val_main_v42 (F := Ideal) C (ValueIdx.ix2 (rowEquiv (b', n)) 0)
      = Cert.Spec.flat C b' n + BitVec.ofNat 32 b'.val * 32768#32 := by
  have hb := b'.isLt
  have hn := n.isLt
  rw [val_main_v42_apply, val_main_v38_apply, val_main_v37_apply, val_main_v36_apply, val_main_v35_apply,
    val_main_v33_apply, val_main_v34_apply, val_main_v32_apply, val_main_c_8_apply]
  have hi : idx_main_v38 (idx_main_v42 (ValueIdx.ix2 (rowEquiv (b', n)) 0)) = ValueIdx.ix2 b' n := by
    funext a
    apply Fin.ext
    match a with
    | ⟨0, _⟩ => show (b'.val * 100000 + n.val) / 100000 = b'.val; omega
    | ⟨1, _⟩ => show (b'.val * 100000 + n.val) % 100000 = n.val; omega
  rw [hi, ref_flat_apply]
  rfl

/-- The update row of point n of batch b' holds that point's features. -/
theorem ref_feat (X : (⟨S8x64x100000, .f32⟩ : BufTy).Contents (Elt Ideal)) (b' : Fin 8) (n : Fin 100000) (ch : Fin 64) :
    val_main_v40 (F := Ideal) X (ValueIdx.ix2 (rowEquiv (b', n)) ch) = X (Cert.Spec.xIx b' ch n) := by
  have hb := b'.isLt
  have hn := n.isLt
  have hc := ch.isLt
  rw [val_main_v40_apply, val_main_v39_apply]
  refine congrArg X ?_
  funext a
  apply Fin.ext
  match a with
  | ⟨0, _⟩ => show ((b'.val * 100000 + n.val) * 64 + ch.val) / 6400000 = b'.val; omega
  | ⟨1, _⟩ => show ((b'.val * 100000 + n.val) * 64 + ch.val) % 64 = ch.val; omega
  | ⟨2, _⟩ => show ((b'.val * 100000 + n.val) * 64 + ch.val) / 64 % 100000 = n.val; omega

/-- The two scatters at the ideal instance are the exact sums of the landing updates. -/
theorem v43_eq (X : (⟨S8x64x100000, .f32⟩ : BufTy).Contents (Elt Ideal)) (C : (⟨S8x3x100000, .f32⟩ : BufTy).Contents (Elt Ideal)) :
    val_main_v43 (F := Ideal) X C
      = Ideal.hostScatterAdd dS (val_main_v41 (F := Ideal)) (val_main_v42 (F := Ideal) C) (val_main_v40 (F := Ideal) X) := rfl

theorem v47_eq (C : (⟨S8x3x100000, .f32⟩ : BufTy).Contents (Elt Ideal)) :
    val_main_v47 (F := Ideal) C
      = Ideal.hostScatterAdd dC (val_main_v45 (F := Ideal)) (val_main_v42 (F := Ideal) C) (val_main_v44 (F := Ideal)) := rfl

/-- Row b·32768 + r, column ch of the scattered features is the specification's sum for voxel r. -/
theorem ref_sums_apply (X : (⟨S8x64x100000, .f32⟩ : BufTy).Contents (Elt Ideal)) (C : (⟨S8x3x100000, .f32⟩ : BufTy).Contents (Elt Ideal))
    (b : Fin 8) (ch : Fin 64) (r : Nat) (hr : r < 32768) (hs : b.val * 32768 + r < 262144) :
    val_main_v43 (F := Ideal) X C (ValueIdx.ix2 ⟨b.val * 32768 + r, hs⟩ ch)
      = Cert.Spec.sums C X b ch (BitVec.ofNat 32 r) := by
  rw [v43_eq, scatterS_apply, val_main_v41_apply, val_main_cst_9_apply, sum_rows]
  have hsum : (∑ b' : Fin 8, ∑ n : Fin 100000,
        if (val_main_v42 (F := Ideal) C (ValueIdx.ix2 (rowEquiv (b', n)) 0)).toInt = ((b.val * 32768 + r : Nat) : Int)
          then val_main_v40 (F := Ideal) X (ValueIdx.ix2 (rowEquiv (b', n)) ch) else 0)
      = ∑ b' : Fin 8, ∑ n : Fin 100000,
        if b' = b ∧ Cert.Spec.flat C b' n = BitVec.ofNat 32 r then X (Cert.Spec.xIx b' ch n) else 0 := by
    refine Finset.sum_congr rfl fun b' _ => Finset.sum_congr rfl fun n _ => ?_
    rw [ref_word, ref_feat]
    exact if_congr (word_lands _ (Cert.Spec.flat_lt C b' n) b' b r hr) rfl rfl
  have hz : (FloatOps.ofBits (F := Ideal) .f32 0x00000000#32 : EReal) = 0 := Cert.Spec.zero_eq
  rw [hz, zero_add]
  refine hsum.trans ?_
  rw [sum_pick b (fun b' n => Cert.Spec.flat C b' n = BitVec.ofNat 32 r) (fun b' n => X (Cert.Spec.xIx b' ch n))]
  unfold Cert.Spec.sums
  exact Finset.sum_congr rfl fun n _ => rfl

/-- Row b·32768 + r of the scattered ones is the specification's count for voxel r. -/
theorem ref_cnt_apply (C : (⟨S8x3x100000, .f32⟩ : BufTy).Contents (Elt Ideal))
    (b : Fin 8) (r : Nat) (hr : r < 32768) (hs : b.val * 32768 + r < 262144) :
    val_main_v47 (F := Ideal) C (ValueIdx.ix1 ⟨b.val * 32768 + r, hs⟩) = Cert.Spec.cnt C b (BitVec.ofNat 32 r) := by
  rw [v47_eq, scatterC_apply, val_main_v45_apply, val_main_cst_11_apply, sum_rows]
  have h1 : (FloatOps.ofBits (F := Ideal) .f32 0x3F800000#32 : EReal) = 1 := Cert.Spec.one_eq
  have hsum : (∑ b' : Fin 8, ∑ n : Fin 100000,
        if (val_main_v42 (F := Ideal) C (ValueIdx.ix2 (rowEquiv (b', n)) 0)).toInt = ((b.val * 32768 + r : Nat) : Int)
          then val_main_v44 (F := Ideal) (ValueIdx.ix1 (rowEquiv (b', n))) else 0)
      = ∑ b' : Fin 8, ∑ n : Fin 100000,
        if b' = b ∧ Cert.Spec.flat C b' n = BitVec.ofNat 32 r then (1 : EReal) else 0 := by
    refine Finset.sum_congr rfl fun b' _ => Finset.sum_congr rfl fun n _ => ?_
    rw [ref_word, val_main_v44_apply, val_main_cst_10_apply, h1]
    exact if_congr (word_lands _ (Cert.Spec.flat_lt C b' n) b' b r hr) rfl rfl
  have hz : (FloatOps.ofBits (F := Ideal) .f32 0x00000000#32 : EReal) = 0 := Cert.Spec.zero_eq
  rw [hz, zero_add]
  refine hsum.trans ?_
  rw [sum_pick b (fun b' n => Cert.Spec.flat C b' n = BitVec.ofNat 32 r) (fun _ _ => (1 : EReal))]
  unfold Cert.Spec.cnt
  exact Finset.sum_congr rfl fun n _ => rfl

/-- The reference's averaged grid at (b, ch, x, y, z) is the specification's average for voxel
    x·1024 + y·32 + z: the grid is the row-major reading of the 262144 × 64 quotient, whose row
    b·32768 + (x·1024 + y·32 + z) is that voxel of batch b. -/
theorem ref_grid_apply (X : (⟨S8x64x100000, .f32⟩ : BufTy).Contents (Elt Ideal)) (C : (⟨S8x3x100000, .f32⟩ : BufTy).Contents (Elt Ideal))
    (b : Fin 8) (ch : Fin 64) (x y z : Fin 32) :
    val_main_v54 (F := Ideal) X C (ValueIdx.ix5 b ch x y z)
      = Cert.Spec.avg C X b ch (BitVec.ofNat 32 (x.val * 1024 + y.val * 32 + z.val)) := by
  have hb := b.isLt
  have hc := ch.isLt
  have hx := x.isLt
  have hy := y.isLt
  have hz := z.isLt
  have hr : x.val * 1024 + y.val * 32 + z.val < 32768 := by omega
  have hs : b.val * 32768 + (x.val * 1024 + y.val * 32 + z.val) < 262144 := by omega
  rw [val_main_v54_apply, val_main_v53_apply, val_main_v52_apply, val_main_v51_apply, val_main_v50_apply,
    val_main_v49_apply, val_main_v48_apply, val_main_cst_12_apply]
  have hi : idx_main_v53 (idx_main_v54 (ValueIdx.ix5 b ch x y z))
      = ValueIdx.ix2 ⟨b.val * 32768 + (x.val * 1024 + y.val * 32 + z.val), hs⟩ ch := by
    funext a
    apply Fin.ext
    match a with
    | ⟨0, _⟩ =>
      show ((((b.val * 32 + x.val) * 32 + y.val) * 32 + z.val) * 64 + ch.val) / 64
        = b.val * 32768 + (x.val * 1024 + y.val * 32 + z.val)
      omega
    | ⟨1, _⟩ =>
      show ((((b.val * 32 + x.val) * 32 + y.val) * 32 + z.val) * 64 + ch.val) % 64 = ch.val
      omega
  have hi2 : idx_main_v50 (idx_main_v51 (ValueIdx.ix2 (⟨b.val * 32768 + (x.val * 1024 + y.val * 32 + z.val), hs⟩ : Fin 262144) ch))
      = ValueIdx.ix1 ⟨b.val * 32768 + (x.val * 1024 + y.val * 32 + z.val), hs⟩ := by
    funext a
    apply Fin.ext
    match a with
    | ⟨0, _⟩ => rfl
  rw [hi, hi2, ref_sums_apply X C b ch _ hr hs, ref_cnt_apply C b _ hr hs]
  unfold Cert.Spec.avg
  rfl

end Cert.ReferenceIdeal.Hand
end
-- ==== Proof.lean ====
/- The kernel of this certificate voxelizes a point cloud: per batch it normalizes the coordinates
   (centre on the mean, divide by twice the largest radius, shift, scale by 32, clamp to [0, 31]),
   rounds them to a voxel and averages the features of the points of each voxel. The kernel program
   does the averaging by a one-hot matrix product accumulated over tiles of the point axis (padded
   with zero features and the index −1); the reference by a scatter-add over all batches at once
   with the batch's offset added to the voxel number. Over the extended reals both are the
   specification's functions (Proof/Spec.lean): the sums are the same terms in another order,
   the padding adds zeros, and the voxel number stays below 32³ so the batch offset separates the
   batches. The three frames: the two kernel programs run as host stretches and two pipelined
   regions, the second carrying its two accumulators from point to point; the reference is a run
   of host operations. -/
import proofs.«136429_j63960652972185_1_alg».proof.Defs
import proofs.«136429_j63960652972185_1_alg».proof.Proof.Gen.Kernel
import proofs.«136429_j63960652972185_1_alg».proof.Proof.Gen.KernelIdeal
import proofs.«136429_j63960652972185_1_alg».proof.Proof.Gen.ReferenceIdeal
import proofs.«136429_j63960652972185_1_alg».proof.Proof.Gen.Pre_finite_inputs
import proofs.«136429_j63960652972185_1_alg».proof.Proof.Gen.ReferenceIdeal.Run
import proofs.«136429_j63960652972185_1_alg».proof.Proof.Gen.ReferenceIdeal.Read
import proofs.«136429_j63960652972185_1_alg».proof.Proof.RunK
import proofs.«136429_j63960652972185_1_alg».proof.Proof.KOut
import proofs.«136429_j63960652972185_1_alg».proof.Proof.MathNormR
import proofs.«136429_j63960652972185_1_alg».proof.Proof.MathGridR

noncomputable section

open Idealize.ShloMosaic Idealize.ShloMosaic.TcCoe Idealize.SL.Sem

namespace Cert.Proof

open Cert.KernelIdeal.Hand in
/-- The idealized kernel's two results are the reference's two value functions of the arguments. -/
theorem kernel_results (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    W7 m ρ c (Proc.devRef .tc Cert.KernelIdeal.main_v5)
        = Cert.ReferenceIdeal.Read.val_main_v54 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      ∧ W7 m ρ c (Proc.devRef .tc Cert.KernelIdeal.main_v0_0)
        = Cert.ReferenceIdeal.Read.val_main_v17 (F := Ideal) (m ((c.tc : Thread Cert.KernelIdeal.nD Cert.KernelIdeal.τ).loc Cert.KernelIdeal.main_arg1)) := by
  constructor
  · funext i
    obtain ⟨b, ch, x, y, z, rfl⟩ : ∃ (b : Fin 8) (ch : Fin 64) (x y z : Fin 32), i = ValueIdx.ix5 b ch x y z :=
      ⟨i 0, i 1, i 2, i 3, i 4, ValueIdx.eq_ix5 i⟩
    exact (kernel_grid m ρ c b ch x y z).trans (Cert.ReferenceIdeal.Hand.ref_grid_apply _ _ b ch x y z).symm
  · funext i
    obtain ⟨b, a, n, rfl⟩ : ∃ (b : Fin 8) (a : Fin 3) (n : Fin 100000), i = ValueIdx.ix3 b a n :=
      ⟨i 0, i 1, i 2, ValueIdx.eq_ix3 i⟩
    exact (kernel_norm m ρ c b a n).trans (Cert.ReferenceIdeal.Hand.ref_norm_apply _ b a n).symm

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

open Cert.KernelIdeal.Hand in
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.ReferenceIdeal.Read.val_main_v54 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => Cert.ReferenceIdeal.Read.val_main_v17 (F := Ideal) (m ((c.tc : Thread Cert.KernelIdeal.nD Cert.KernelIdeal.τ).loc Cert.KernelIdeal.main_arg1)), ?_, ?_⟩
  · refine (θ_run Cert.KernelIdeal.defs _ _).mono (fun r h c => ?_) (run_all m ρ)
    refine ⟨(h c _ (mem_uc Cert.KernelIdeal.main_v5 (by decide))).trans (kernel_results m ρ c).1,
      (h c _ (mem_uc Cert.KernelIdeal.main_v0_0 (by decide))).trans (kernel_results m ρ c).2,
      (h c _ (mem_uc Cert.KernelIdeal.main_arg0 (by decide))).trans (W7_main_arg0 m ρ c),
      (h c _ (mem_uc Cert.KernelIdeal.main_arg1 (by decide))).trans (W7_main_arg1 m ρ c)⟩
  · refine (θ_run Cert.ReferenceIdeal.defs _ _).mono (fun r h c => ⟨?_, ?_, (h c).2.2.1, (h c).2.2.2⟩)
      (Cert.ReferenceIdeal.Value.run (F := Ideal) m' ρ')
    · rw [(h c).1, Cert.ReferenceIdeal.Read.val_main_v54_eq, (hagree c).1, (hagree c).2]
    · rw [(h c).2.1, Cert.ReferenceIdeal.Read.val_main_v17_eq, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
